-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S1024x2048 .f32 .bf16
  ∧ IdealRules.truncf_extf.Statement Cert.KernelIdeal.S1000x2048 .f32 .bf16
  ∧ IdealRules.truncf_extf.Statement Cert.KernelIdeal.S1024x1000 .f32 .bf16
  ∧ IdealRules.truncf_extf.Statement Cert.KernelIdeal.S500x1000 .f32 .bf16
  ∧ IdealRules.truncf_extf.Statement Cert.KernelIdeal.S1024x500 .f32 .bf16
  ∧ IdealRules.truncf_extf.Statement Cert.KernelIdeal.S128x500 .f32 .bf16
  ∧ IdealRules.truncf_extf.Statement Cert.KernelIdeal.S1024x2048 .f32 .bf16
  ∧ IdealRules.truncf_extf.Statement Cert.KernelIdeal.S1000x2048 .f32 .bf16
  ∧ IdealRules.truncf_extf.Statement Cert.KernelIdeal.S1024x1000 .f32 .bf16
  ∧ IdealRules.truncf_extf.Statement Cert.KernelIdeal.S500x1000 .f32 .bf16
  ∧ IdealRules.truncf_extf.Statement Cert.KernelIdeal.S1024x500 .f32 .bf16
  ∧ IdealRules.truncf_extf.Statement Cert.KernelIdeal.S128x500 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x1 : Shape := ⟨2, ![1024, 1]⟩
abbrev S12x1000x2048 : Shape := ⟨3, ![12, 1000, 2048]⟩
abbrev S12x1000 : Shape := ⟨2, ![12, 1000]⟩
abbrev S12x500x1000 : Shape := ⟨3, ![12, 500, 1000]⟩
abbrev S12x500 : Shape := ⟨2, ![12, 500]⟩
abbrev S12x100x500 : Shape := ⟨3, ![12, 100, 500]⟩
abbrev S12x100 : Shape := ⟨2, ![12, 100]⟩
abbrev S12x3x500 : Shape := ⟨3, ![12, 3, 500]⟩
abbrev S12x3 : Shape := ⟨2, ![12, 3]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S12x1000x2048 : S_.BroadcastsInDim S12x1000x2048 (![] : Fin 0 → Fin S12x1000x2048.rank)
  reducesTo_S12x1000x2048_S_d0_1_2 : S12x1000x2048.ReducesTo [0, 1, 2] S_
  bcast_S_S12x1000 : S_.BroadcastsInDim S12x1000 (![] : Fin 0 → Fin S12x1000.rank)
  reducesTo_S12x1000_S_d0_1 : S12x1000.ReducesTo [0, 1] S_
  bcast_S_S12x500x1000 : S_.BroadcastsInDim S12x500x1000 (![] : Fin 0 → Fin S12x500x1000.rank)
  reducesTo_S12x500x1000_S_d0_1_2 : S12x500x1000.ReducesTo [0, 1, 2] S_
  bcast_S_S12x500 : S_.BroadcastsInDim S12x500 (![] : Fin 0 → Fin S12x500.rank)
  reducesTo_S12x500_S_d0_1 : S12x500.ReducesTo [0, 1] S_
  bcast_S_S12x100x500 : S_.BroadcastsInDim S12x100x500 (![] : Fin 0 → Fin S12x100x500.rank)
  reducesTo_S12x100x500_S_d0_1_2 : S12x100x500.ReducesTo [0, 1, 2] S_
  bcast_S_S12x100 : S_.BroadcastsInDim S12x100 (![] : Fin 0 → Fin S12x100.rank)
  reducesTo_S12x100_S_d0_1 : S12x100.ReducesTo [0, 1] S_
  bcast_S_S12x3x500 : S_.BroadcastsInDim S12x3x500 (![] : Fin 0 → Fin S12x3x500.rank)
  reducesTo_S12x3x500_S_d0_1_2 : S12x3x500.ReducesTo [0, 1, 2] S_
  bcast_S_S12x3 : S_.BroadcastsInDim S12x3 (![] : Fin 0 → Fin S12x3.rank)
  reducesTo_S12x3_S_d0_1 : S12x3.ReducesTo [0, 1] S_

variable [Facts]

def fn_part4 {F : FTy → Type} [FloatOps F] (main_arg15 : FVec F S12x500 .f32) (main_arg16 : FVec F S12x3x500 .f32) (main_arg17 : FVec F S12x3 .f32) (main_v63 : IVec S_ 1) (main_v67 : IVec S_ 1) : IVec S_ 1 :=
  let main_v68 : IVec S_ 1 := andi main_v63 main_v67
  let main_v69 : FVec F S12x500 .f32 := Host.absf main_arg15
  let main_cst_26 : FVec F S_ .f32 := constant S_ .f32 0x7F800000#32
  let main_v70 : FVec F S12x500 .f32 := broadcastInDim S12x500 ![] bcast_S_S12x500 main_cst_26
  let main_v71 : IVec S12x500 1 := cmpf .olt main_v69 main_v70
  let main_c_27 : IVec S_ 1 := constantI S_ 1 1#1
  let main_v72 : IVec S_ 1 := (fun x v => Host.reduce IntOp.andi x v reducesTo_S12x500_S_d0_1 h_S_) main_v71 main_c_27
  let main_v73 : IVec S_ 1 := andi main_v68 main_v72
  let main_v74 : FVec F S12x3x500 .f32 := Host.absf main_arg16
  let main_cst_28 : FVec F S_ .f32 := constant S_ .f32 0x7F800000#32
  let main_v75 : FVec F S12x3x500 .f32 := broadcastInDim S12x3x500 ![] bcast_S_S12x3x500 main_cst_28
  let main_v76 : IVec S12x3x500 1 := cmpf .olt main_v74 main_v75
  let main_c_29 : IVec S_ 1 := constantI S_ 1 1#1
  let main_v77 : IVec S_ 1 := (fun x v => Host.reduce IntOp.andi x v reducesTo_S12x3x500_S_d0_1_2 h_S_) main_v76 main_c_29
  let main_v78 : IVec S_ 1 := andi main_v73 main_v77
  let main_v79 : FVec F S12x3 .f32 := Host.absf main_arg17
  let main_cst_30 : FVec F S_ .f32 := constant S_ .f32 0x7F800000#32
  let main_v80 : FVec F S12x3 .f32 := broadcastInDim S12x3 ![] bcast_S_S12x3 main_cst_30
  let main_v81 : IVec S12x3 1 := cmpf .olt main_v79 main_v80
  let main_c_31 : IVec S_ 1 := constantI S_ 1 1#1
  let main_v82 : IVec S_ 1 := (fun x v => Host.reduce IntOp.andi x v reducesTo_S12x3_S_d0_1 h_S_) main_v81 main_c_31
  let main_v83 : IVec S_ 1 := andi main_v78 main_v82
  main_v83

def fn_part3 {F : FTy → Type} [FloatOps F] (main_arg12 : FVec F S12x1000 .f32) (main_arg13 : FVec F S12x500x1000 .f32) (main_arg14 : FVec F S12x500 .f32) (main_arg15 : FVec F S12x500 .f32) (main_arg16 : FVec F S12x3x500 .f32) (main_arg17 : FVec F S12x3 .f32) (main_v48 : IVec S_ 1) (main_v49 : FVec F S12x1000 .f32) (main_v50 : FVec F S12x1000 .f32) : IVec S_ 1 :=
  let main_v51 : IVec S12x1000 1 := cmpf .olt main_v49 main_v50
  let main_c_19 : IVec S_ 1 := constantI S_ 1 1#1
  let main_v52 : IVec S_ 1 := (fun x v => Host.reduce IntOp.andi x v reducesTo_S12x1000_S_d0_1 h_S_) main_v51 main_c_19
  let main_v53 : IVec S_ 1 := andi main_v48 main_v52
  let main_v54 : FVec F S12x1000 .f32 := Host.absf main_arg12
  let main_cst_20 : FVec F S_ .f32 := constant S_ .f32 0x7F800000#32
  let main_v55 : FVec F S12x1000 .f32 := broadcastInDim S12x1000 ![] bcast_S_S12x1000 main_cst_20
  let main_v56 : IVec S12x1000 1 := cmpf .olt main_v54 main_v55
  let main_c_21 : IVec S_ 1 := constantI S_ 1 1#1
  let main_v57 : IVec S_ 1 := (fun x v => Host.reduce IntOp.andi x v reducesTo_S12x1000_S_d0_1 h_S_) main_v56 main_c_21
  let main_v58 : IVec S_ 1 := andi main_v53 main_v57
  let main_v59 : FVec F S12x500x1000 .f32 := Host.absf main_arg13
  let main_cst_22 : FVec F S_ .f32 := constant S_ .f32 0x7F800000#32
  let main_v60 : FVec F S12x500x1000 .f32 := broadcastInDim S12x500x1000 ![] bcast_S_S12x500x1000 main_cst_22
  let main_v61 : IVec S12x500x1000 1 := cmpf .olt main_v59 main_v60
  let main_c_23 : IVec S_ 1 := constantI S_ 1 1#1
  let main_v62 : IVec S_ 1 := (fun x v => Host.reduce IntOp.andi x v reducesTo_S12x500x1000_S_d0_1_2 h_S_) main_v61 main_c_23
  let main_v63 : IVec S_ 1 := andi main_v58 main_v62
  let main_v64 : FVec F S12x500 .f32 := Host.absf main_arg14
  let main_cst_24 : FVec F S_ .f32 := constant S_ .f32 0x7F800000#32
  let main_v65 : FVec F S12x500 .f32 := broadcastInDim S12x500 ![] bcast_S_S12x500 main_cst_24
  let main_v66 : IVec S12x500 1 := cmpf .olt main_v64 main_v65
  let main_c_25 : IVec S_ 1 := constantI S_ 1 1#1
  let main_v67 : IVec S_ 1 := (fun x v => Host.reduce IntOp.andi x v reducesTo_S12x500_S_d0_1 h_S_) main_v66 main_c_25
  fn_part4 (F := F) main_arg15 main_arg16 main_arg17 main_v63 main_v67

def fn_part2 {F : FTy → Type} [FloatOps F] (main_arg8 : FVec F S12x100x500 .f32) (main_arg9 : FVec F S12x100 .f32) (main_arg10 : FVec F S12x1000x2048 .f32) (main_arg11 : FVec F S12x1000 .f32) (main_arg12 : FVec F S12x1000 .f32) (main_arg13 : FVec F S12x500x1000 .f32) (main_arg14 : FVec F S12x500 .f32) (main_arg15 : FVec F S12x500 .f32) (main_arg16 : FVec F S12x3x500 .f32) (main_arg17 : FVec F S12x3 .f32) (main_v33 : IVec S_ 1) : IVec S_ 1 :=
  let main_v34 : FVec F S12x100x500 .f32 := Host.absf main_arg8
  let main_cst_12 : FVec F S_ .f32 := constant S_ .f32 0x7F800000#32
  let main_v35 : FVec F S12x100x500 .f32 := broadcastInDim S12x100x500 ![] bcast_S_S12x100x500 main_cst_12
  let main_v36 : IVec S12x100x500 1 := cmpf .olt main_v34 main_v35
  let main_c_13 : IVec S_ 1 := constantI S_ 1 1#1
  let main_v37 : IVec S_ 1 := (fun x v => Host.reduce IntOp.andi x v reducesTo_S12x100x500_S_d0_1_2 h_S_) main_v36 main_c_13
  let main_v38 : IVec S_ 1 := andi main_v33 main_v37
  let main_v39 : FVec F S12x100 .f32 := Host.absf main_arg9
  let main_cst_14 : FVec F S_ .f32 := constant S_ .f32 0x7F800000#32
  let main_v40 : FVec F S12x100 .f32 := broadcastInDim S12x100 ![] bcast_S_S12x100 main_cst_14
  let main_v41 : IVec S12x100 1 := cmpf .olt main_v39 main_v40
  let main_c_15 : IVec S_ 1 := constantI S_ 1 1#1
  let main_v42 : IVec S_ 1 := (fun x v => Host.reduce IntOp.andi x v reducesTo_S12x100_S_d0_1 h_S_) main_v41 main_c_15
  let main_v43 : IVec S_ 1 := andi main_v38 main_v42
  let main_v44 : FVec F S12x1000x2048 .f32 := Host.absf main_arg10
  let main_cst_16 : FVec F S_ .f32 := constant S_ .f32 0x7F800000#32
  let main_v45 : FVec F S12x1000x2048 .f32 := broadcastInDim S12x1000x2048 ![] bcast_S_S12x1000x2048 main_cst_16
  let main_v46 : IVec S12x1000x2048 1 := cmpf .olt main_v44 main_v45
  let main_c_17 : IVec S_ 1 := constantI S_ 1 1#1
  let main_v47 : IVec S_ 1 := (fun x v => Host.reduce IntOp.andi x v reducesTo_S12x1000x2048_S_d0_1_2 h_S_) main_v46 main_c_17
  let main_v48 : IVec S_ 1 := andi main_v43 main_v47
  let main_v49 : FVec F S12x1000 .f32 := Host.absf main_arg11
  let main_cst_18 : FVec F S_ .f32 := constant S_ .f32 0x7F800000#32
  let main_v50 : FVec F S12x1000 .f32 := broadcastInDim S12x1000 ![] bcast_S_S12x1000 main_cst_18
  fn_part3 (F := F) main_arg12 main_arg13 main_arg14 main_arg15 main_arg16 main_arg17 main_v48 main_v49 main_v50

def fn_part1 {F : FTy → Type} [FloatOps F] (main_arg5 : FVec F S12x500x1000 .f32) (main_arg6 : FVec F S12x500 .f32) (main_arg7 : FVec F S12x500 .f32) (main_arg8 : FVec F S12x100x500 .f32) (main_arg9 : FVec F S12x100 .f32) (main_arg10 : FVec F S12x1000x2048 .f32) (main_arg11 : FVec F S12x1000 .f32) (main_arg12 : FVec F S12x1000 .f32) (main_arg13 : FVec F S12x500x1000 .f32) (main_arg14 : FVec F S12x500 .f32) (main_arg15 : FVec F S12x500 .f32) (main_arg16 : FVec F S12x3x500 .f32) (main_arg17 : FVec F S12x3 .f32) (main_v13 : IVec S_ 1) (main_v16 : IVec S12x1000 1) : IVec S_ 1 :=
  let main_c_5 : IVec S_ 1 := constantI S_ 1 1#1
  let main_v17 : IVec S_ 1 := (fun x v => Host.reduce IntOp.andi x v reducesTo_S12x1000_S_d0_1 h_S_) main_v16 main_c_5
  let main_v18 : IVec S_ 1 := andi main_v13 main_v17
  let main_v19 : FVec F S12x500x1000 .f32 := Host.absf main_arg5
  let main_cst_6 : FVec F S_ .f32 := constant S_ .f32 0x7F800000#32
  let main_v20 : FVec F S12x500x1000 .f32 := broadcastInDim S12x500x1000 ![] bcast_S_S12x500x1000 main_cst_6
  let main_v21 : IVec S12x500x1000 1 := cmpf .olt main_v19 main_v20
  let main_c_7 : IVec S_ 1 := constantI S_ 1 1#1
  let main_v22 : IVec S_ 1 := (fun x v => Host.reduce IntOp.andi x v reducesTo_S12x500x1000_S_d0_1_2 h_S_) main_v21 main_c_7
  let main_v23 : IVec S_ 1 := andi main_v18 main_v22
  let main_v24 : FVec F S12x500 .f32 := Host.absf main_arg6
  let main_cst_8 : FVec F S_ .f32 := constant S_ .f32 0x7F800000#32
  let main_v25 : FVec F S12x500 .f32 := broadcastInDim S12x500 ![] bcast_S_S12x500 main_cst_8
  let main_v26 : IVec S12x500 1 := cmpf .olt main_v24 main_v25
  let main_c_9 : IVec S_ 1 := constantI S_ 1 1#1
  let main_v27 : IVec S_ 1 := (fun x v => Host.reduce IntOp.andi x v reducesTo_S12x500_S_d0_1 h_S_) main_v26 main_c_9
  let main_v28 : IVec S_ 1 := andi main_v23 main_v27
  let main_v29 : FVec F S12x500 .f32 := Host.absf main_arg7
  let main_cst_10 : FVec F S_ .f32 := constant S_ .f32 0x7F800000#32
  let main_v30 : FVec F S12x500 .f32 := broadcastInDim S12x500 ![] bcast_S_S12x500 main_cst_10
  let main_v31 : IVec S12x500 1 := cmpf .olt main_v29 main_v30
  let main_c_11 : IVec S_ 1 := constantI S_ 1 1#1
  let main_v32 : IVec S_ 1 := (fun x v => Host.reduce IntOp.andi x v reducesTo_S12x500_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S1024x2048 .f32) (main_arg1 : IVec S1024x1 32) (main_arg2 : FVec F S12x1000x2048 .f32) (main_arg3 : FVec F S12x1000 .f32) (main_arg4 : FVec F S12x1000 .f32) (main_arg5 : FVec F S12x500x1000 .f32) (main_arg6 : FVec F S12x500 .f32) (main_arg7 : FVec F S12x500 .f32) (main_arg8 : FVec F S12x100x500 .f32) (main_arg9 : FVec F S12x100 .f32) (main_arg10 : FVec F S12x1000x2048 .f32) (main_arg11 : FVec F S12x1000 .f32) (main_arg12 : FVec F S12x1000 .f32) (main_arg13 : FVec F S12x500x1000 .f32) (main_arg14 : FVec F S12x500 .f32) (main_arg15 : FVec F S12x500 .f32) (main_arg16 : FVec F S12x3x500 .f32) (main_arg17 : FVec F S12x3 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S12x1000x2048 .f32 := Host.absf main_arg2
  let main_cst_0 : FVec F S_ .f32 := constant S_ .f32 0x7F800000#32
  let main_v5 : FVec F S12x1000x2048 .f32 := broadcastInDim S12x1000x2048 ![] bcast_S_S12x1000x2048 main_cst_0
  let main_v6 : IVec S12x1000x2048 1 := cmpf .olt main_v4 main_v5
  let main_c_1 : IVec S_ 1 := constantI S_ 1 1#1
  let main_v7 : IVec S_ 1 := (fun x v => Host.reduce IntOp.andi x v reducesTo_S12x1000x2048_S_d0_1_2 h_S_) main_v6 main_c_1
  let main_v8 : IVec S_ 1 := andi main_v3 main_v7
  let main_v9 : FVec F S12x1000 .f32 := Host.absf main_arg3
  let main_cst_2 : FVec F S_ .f32 := constant S_ .f32 0x7F800000#32
  let main_v10 : FVec F S12x1000 .f32 := broadcastInDim S12x1000 ![] bcast_S_S12x1000 main_cst_2
  let main_v11 : IVec S12x1000 1 := cmpf .olt main_v9 main_v10
  let main_c_3 : IVec S_ 1 := constantI S_ 1 1#1
  let main_v12 : IVec S_ 1 := (fun x v => Host.reduce IntOp.andi x v reducesTo_S12x1000_S_d0_1 h_S_) main_v11 main_c_3
  let main_v13 : IVec S_ 1 := andi main_v8 main_v12
  let main_v14 : FVec F S12x1000 .f32 := Host.absf main_arg4
  let main_cst_4 : FVec F S_ .f32 := constant S_ .f32 0x7F800000#32
  let main_v15 : FVec F S12x1000 .f32 := broadcastInDim S12x1000 ![] bcast_S_S12x1000 main_cst_4
  let main_v16 : IVec S12x1000 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S1024x2048 : Shape := ⟨2, ![1024, 2048]⟩
abbrev S1024x1 : Shape := ⟨2, ![1024, 1]⟩
abbrev S12x1000x2048 : Shape := ⟨3, ![12, 1000, 2048]⟩
abbrev S12x1000 : Shape := ⟨2, ![12, 1000]⟩
abbrev S12x500x1000 : Shape := ⟨3, ![12, 500, 1000]⟩
abbrev S12x500 : Shape := ⟨2, ![12, 500]⟩
abbrev S12x100x500 : Shape := ⟨3, ![12, 100, 500]⟩
abbrev S12x100 : Shape := ⟨2, ![12, 100]⟩
abbrev S12x3x500 : Shape := ⟨3, ![12, 3, 500]⟩
abbrev S12x3 : Shape := ⟨2, ![12, 3]⟩
abbrev S_ : Shape := ⟨0, ![]⟩
abbrev S12x128x500 : Shape := ⟨3, ![12, 128, 500]⟩
abbrev S1 : Shape := ⟨1, ![1]⟩
abbrev S12x128 : Shape := ⟨2, ![12, 128]⟩
abbrev S12x1x1000 : Shape := ⟨3, ![12, 1, 1000]⟩
abbrev S12x1x500 : Shape := ⟨3, ![12, 1, 500]⟩
abbrev S12x1x128 : Shape := ⟨3, ![12, 1, 128]⟩
abbrev S12x1024x128 : Shape := ⟨3, ![12, 1024, 128]⟩
abbrev S1x1000x2048 : Shape := ⟨3, ![1, 1000, 2048]⟩
abbrev S1x1x1000 : Shape := ⟨3, ![1, 1, 1000]⟩
abbrev S1x500x1000 : Shape := ⟨3, ![1, 500, 1000]⟩
abbrev S1x1x500 : Shape := ⟨3, ![1, 1, 500]⟩
abbrev S1x128x500 : Shape := ⟨3, ![1, 128, 500]⟩
abbrev S1x1x128 : Shape := ⟨3, ![1, 1, 128]⟩
abbrev S1x1024x128 : Shape := ⟨3, ![1, 1024, 128]⟩
abbrev S1000x2048 : Shape := ⟨2, ![1000, 2048]⟩
abbrev S1024x1000 : Shape := ⟨2, ![1024, 1000]⟩
abbrev S1x1000 : Shape := ⟨2, ![1, 1000]⟩
abbrev S1000 : Shape := ⟨1, ![1000]⟩
abbrev S500x1000 : Shape := ⟨2, ![500, 1000]⟩
abbrev S1024x500 : Shape := ⟨2, ![1024, 500]⟩
abbrev S1x500 : Shape := ⟨2, ![1, 500]⟩
abbrev S500 : Shape := ⟨1, ![500]⟩
abbrev S128x500 : Shape := ⟨2, ![128, 500]⟩
abbrev S1024x128 : Shape := ⟨2, ![1024, 128]⟩
abbrev S1x128 : Shape := ⟨2, ![1, 128]⟩
abbrev S12x1024x100 : Shape := ⟨3, ![12, 1024, 100]⟩
abbrev S12x1024x3 : Shape := ⟨3, ![12, 1024, 3]⟩
abbrev S1024 : Shape := ⟨1, ![1024]⟩
abbrev S1024x2 : Shape := ⟨2, ![1024, 2]⟩
abbrev S1024x100 : Shape := ⟨2, ![1024, 100]⟩
abbrev S1024x3 : Shape := ⟨2, ![1024, 3]⟩

abbrev nBuf : Space → Nat
  | .hbm => 90
  | .vmem => 38
  | .smem => 0
  | _ => 0

abbrev bufTy : (tb : Table) → Fin (tcTables nBuf tb) → BufTy
  | .hbm, ⟨0, _⟩ => ⟨S1024x2048, .f32⟩
  | .hbm, ⟨1, _⟩ => ⟨S1024x1, .i32⟩
  | .hbm, ⟨2, _⟩ => ⟨S12x1000x2048, .f32⟩
  | .hbm, ⟨3, _⟩ => ⟨S12x1000, .f32⟩
  | .hbm, ⟨4, _⟩ => ⟨S12x1000, .f32⟩
  | .hbm, ⟨5, _⟩ => ⟨S12x500x1000, .f32⟩
  | .hbm, ⟨6, _⟩ => ⟨S12x500, .f32⟩
  | .hbm, ⟨7, _⟩ => ⟨S12x500, .f32⟩
  | .hbm, ⟨8, _⟩ => ⟨S12x100x500, .f32⟩
  | .hbm, ⟨9, _⟩ => ⟨S12x100, .f32⟩
  | .hbm, ⟨10, _⟩ => ⟨S12x1000x2048, .f32⟩
  | .hbm, ⟨11, _⟩ => ⟨S12x1000, .f32⟩
  | .hbm, ⟨12, _⟩ => ⟨S12x1000, .f32⟩
  | .hbm, ⟨13, _⟩ => ⟨S12x500x1000, .f32⟩
  | .hbm, ⟨14, _⟩ => ⟨S12x500, .f32⟩
  | .hbm, ⟨15, _⟩ => ⟨S12x500, .f32⟩
  | .hbm, ⟨16, _⟩ => ⟨S12x3x500, .f32⟩
  | .hbm, ⟨17, _⟩ => ⟨S12x3, .f32⟩
  | .hbm, ⟨18, _⟩ => ⟨S_, .f32⟩
  | .hbm, ⟨19, _⟩ => ⟨S12x128x500, .f32⟩
  | .hbm, ⟨20, _⟩ => ⟨S_, .i32⟩
  | .hbm, ⟨21, _⟩ => ⟨S1, .i32⟩
  | .hbm, ⟨22, _⟩ => ⟨S12x128x500, .f32⟩
  | .hbm, ⟨23, _⟩ => ⟨S_, .f32⟩
  | .hbm, ⟨24, _⟩ => ⟨S12x128, .f32⟩
  | .hbm, ⟨25, _⟩ => ⟨S_, .i32⟩
  | .hbm, ⟨26, _⟩ => ⟨S1, .i32⟩
  | .hbm, ⟨27, _⟩ => ⟨S12x128, .f32⟩
  | .hbm, ⟨28, _⟩ => ⟨S12x1x1000, .f32⟩
  | .hbm, ⟨29, _⟩ => ⟨S12x1x1000, .f32⟩
  | .hbm, ⟨30, _⟩ => ⟨S12x1x500, .f32⟩
  | .hbm, ⟨31, _⟩ => ⟨S12x1x500, .f32⟩
  | .hbm, ⟨32, _⟩ => ⟨S12x1x128, .f32⟩
  | .hbm, ⟨33, _⟩ => ⟨S12x1024x128, .f32⟩
  | .hbm, ⟨34, _⟩ => ⟨S12x1024x100, .f32⟩
  | .hbm, ⟨35, _⟩ => ⟨S_, .f32⟩
  | .hbm, ⟨36, _⟩ => ⟨S12x128x500, .f32⟩
  | .hbm, ⟨37, _⟩ => ⟨S_, .i32⟩
  | .hbm, ⟨38, _⟩ => ⟨S1, .i32⟩
  | .hbm, ⟨39, _⟩ => ⟨S12x128x500, .f32⟩
  | .hbm, ⟨40, _⟩ => ⟨S_, .f32⟩
  | .hbm, ⟨41, _⟩ => ⟨S12x128, .f32⟩
  | .hbm, ⟨42, _⟩ => ⟨S_, .i32⟩
  | .hbm, ⟨43, _⟩ => ⟨S1, .i32⟩
  | .hbm, ⟨44, _⟩ => ⟨S12x128, .f32⟩
  | .hbm, ⟨45, _⟩ => ⟨S12x1x1000, .f32⟩
  | .hbm, ⟨46, _⟩ => ⟨S12x1x1000, .f32⟩
  | .hbm, ⟨47, _⟩ => ⟨S12x1x500, .f32⟩
  | .hbm, ⟨48, _⟩ => ⟨S12x1x500, .f32⟩
  | .hbm, ⟨49, _⟩ => ⟨S12x1x128, .f32⟩
  | .hbm, ⟨50, _⟩ => ⟨S12x1024x128, .f32⟩
  | .hbm, ⟨51, _⟩ => ⟨S12x1024x3, .f32⟩
  | .hbm, ⟨52, _⟩ => ⟨S1024, .i32⟩
  | .hbm, ⟨53, _⟩ => ⟨S1024, .i32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x1, .i32⟩
  | .hbm, ⟨70, _⟩ => ⟨S1024x2, .i32⟩
  | .hbm, ⟨71, _⟩ => ⟨S1024x100, .f32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S_, .i32⟩
  | .hbm, ⟨80, _⟩ => ⟨S1024, .i32⟩
  | .hbm, ⟨81, _⟩ => ⟨S1024, .i1⟩
  | .hbm, ⟨82, _⟩ => ⟨S_, .i32⟩
  | .hbm, ⟨83, _⟩ => ⟨S1024, .i32⟩
  | .hbm, ⟨84, _⟩ => ⟨S1024, .i32⟩
  | .hbm, ⟨85, _⟩ => ⟨S1024, .i32⟩
  | .hbm, ⟨86, _⟩ => ⟨S1024x1, .i32⟩
  | .hbm, ⟨87, _⟩ => ⟨S1024x1, .i32⟩
  | .hbm, ⟨88, _⟩ => ⟨S1024x2, .i32⟩
  | .hbm, ⟨89, _⟩ => ⟨S1024x3, .f32⟩
  | .local _ .vmem, ⟨0, _⟩ => ⟨S1024x2048, .f32⟩
  | .local _ .vmem, ⟨1, _⟩ => ⟨S1x1000x2048, .f32⟩
  | .local _ .vmem, ⟨2, _⟩ => ⟨S1x1000x2048, .f32⟩
  | .local _ .vmem, ⟨3, _⟩ => ⟨S1x1x1000, .f32⟩
  | .local _ .vmem, ⟨4, _⟩ => ⟨S1x1x1000, .f32⟩
  | .local _ .vmem, ⟨5, _⟩ => ⟨S1x1x1000, .f32⟩
  | .local _ .vmem, ⟨6, _⟩ => ⟨S1x1x1000, .f32⟩
  | .local _ .vmem, ⟨7, _⟩ => ⟨S1x500x1000, .f32⟩
  | .local _ .vmem, ⟨8, _⟩ => ⟨S1x500x1000, .f32⟩
  | .local _ .vmem, ⟨9, _⟩ => ⟨S1x1x500, .f32⟩
  | .local _ .vmem, ⟨10, _⟩ => ⟨S1x1x500, .f32⟩
  | .local _ .vmem, ⟨11, _⟩ => ⟨S1x1x500, .f32⟩
  | .local _ .vmem, ⟨12, _⟩ => ⟨S1x1x500, .f32⟩
  | .local _ .vmem, ⟨13, _⟩ => ⟨S1x128x500, .f32⟩
  | .local _ .vmem, ⟨14, _⟩ => ⟨S1x128x500, .f32⟩
  | .local _ .vmem, ⟨15, _⟩ => ⟨S1x1x128, .f32⟩
  | .local _ .vmem, ⟨16, _⟩ => ⟨S1x1x128, .f32⟩
  | .local _ .vmem, ⟨17, _⟩ => ⟨S1x1024x128, .f32⟩
  | .local _ .vmem, ⟨18, _⟩ => ⟨S1x1024x128, .f32⟩
  | .local _ .vmem, ⟨19, _⟩ => ⟨S1024x2048, .f32⟩
  | .local _ .vmem, ⟨20, _⟩ => ⟨S1x1000x2048, .f32⟩
  | .local _ .vmem, ⟨21, _⟩ => ⟨S1x1000x2048, .f32⟩
  | .local _ .vmem, ⟨22, _⟩ => ⟨S1x1x1000, .f32⟩
  | .local _ .vmem, ⟨23, _⟩ => ⟨S1x1x1000, .f32⟩
  | .local _ .vmem, ⟨24, _⟩ => ⟨S1x1x1000, .f32⟩
  | .local _ .vmem, ⟨25, _⟩ => ⟨S1x1x1000, .f32⟩
  | .local _ .vmem, ⟨26, _⟩ => ⟨S1x500x1000, .f32⟩
  | .local _ .vmem, ⟨27, _⟩ => ⟨S1x500x1000, .f32⟩
  | .local _ .vmem, ⟨28, _⟩ => ⟨S1x1x500, .f32⟩
  | .local _ .vmem, ⟨29, _⟩ => ⟨S1x1x500, .f32⟩
  | .local _ .vmem, ⟨30, _⟩ => ⟨S1x1x500, .f32⟩
  | .local _ .vmem, ⟨31, _⟩ => ⟨S1x1x500, .f32⟩
  | .local _ .vmem, ⟨32, _⟩ => ⟨S1x128x500, .f32⟩
  | .local _ .vmem, ⟨33, _⟩ => ⟨S1x128x500, .f32⟩
  | .local _ .vmem, ⟨34, _⟩ => ⟨S1x1x128, .f32⟩
  | .local _ .vmem, ⟨35, _⟩ => ⟨S1x1x128, .f32⟩
  | .local _ .vmem, ⟨36, _⟩ => ⟨S1x1024x128, .f32⟩
  | .local _ .vmem, ⟨37, _⟩ => ⟨S1x1024x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_8 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x500x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x500 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x500 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1000x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x500x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x500 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x500 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x500 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S12x128x500 : S_.BroadcastsInDim S12x128x500 (![] : Fin 0 → Fin S12x128x500.rank)
  bcast_S_S1 : S_.BroadcastsInDim S1 (![] : Fin 0 → Fin S1.rank)
  bcast_S_S12x128 : S_.BroadcastsInDim S12x128 (![] : Fin 0 → Fin S12x128.rank)
  bcast_S12x1000_S12x1x1000_0_2 : S12x1000.BroadcastsInDim S12x1x1000 (![0, 2] : Fin 2 → Fin S12x1x1000.rank)
  bcast_S12x500_S12x1x500_0_2 : S12x500.BroadcastsInDim S12x1x500 (![0, 2] : Fin 2 → Fin S12x1x500.rank)
  bcast_S12x128_S12x1x128_0_2 : S12x128.BroadcastsInDim S12x1x128 (![0, 2] : Fin 2 → Fin S12x1x128.rank)
  inb_S1024x2048_S1024x2048_0_0 : ∀ a, (![0, 0] : Fin 2 → Nat) a + S1024x2048.size a ≤ S1024x2048.size a
  h_S1024x2048 : 0 < S1024x2048.numel
  inb_S1x1000x2048_S1x1000x2048_0_0_0 : ∀ a, (![0, 0, 0] : Fin 3 → Nat) a + S1x1000x2048.size a ≤ S1x1000x2048.size a
  h_S1x1000x2048 : 0 < S1x1000x2048.numel
  shapeCasts_S1x1000x2048_S1000x2048 : S1x1000x2048.ShapeCasts S1000x2048
  bitsLt_bf16_f32 : FTy.bits .bf16 < FTy.bits .f32
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  reduces_S1024x1000_S1000 : S1024x1000.Reduces [0] S1000
  shapeCasts_S1000_S1x1000 : S1000.ShapeCasts S1x1000
  broadcasts_S1x1000_S1024x1000 : S1x1000.Broadcasts S1024x1000
  inb_S1x500x1000_S1x500x1000_0_0_0 : ∀ a, (![0, 0, 0] : Fin 3 → Nat) a + S1x500x1000.size a ≤ S1x500x1000.size a
  h_S1x500x1000 : 0 < S1x500x1000.numel
  shapeCasts_S1x500x1000_S500x1000 : S1x500x1000.ShapeCasts S500x1000
  inb_S1x1x500_S1x1x500_0_0_0 : ∀ a, (![0, 0, 0] : Fin 3 → Nat) a + S1x1x500.size a ≤ S1x1x500.size a
  h_S1x1x500 : 0 < S1x1x500.numel
  shapeCasts_S1x1x500_S1x500 : S1x1x500.ShapeCasts S1x500
  reduces_S1024x500_S500 : S1024x500.Reduces [0] S500
  shapeCasts_S500_S1x500 : S500.ShapeCasts S1x500
  broadcasts_S1x500_S1024x500 : S1x500.Broadcasts S1024x500
  inb_S1x128x500_S1x128x500_0_0_0 : ∀ a, (![0, 0, 0] : Fin 3 → Nat) a + S1x128x500.size a ≤ S1x128x500.size a
  h_S1x128x500 : 0 < S1x128x500.numel
  shapeCasts_S1x128x500_S128x500 : S1x128x500.ShapeCasts S128x500
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S12x1024x128_S12x1024x100_0_0_0 : S12x1024x128.Slices ![0, 0, 0] S12x1024x100
  slices_S12x1024x128_S12x1024x3_0_0_0 : S12x1024x128.Slices ![0, 0, 0] S12x1024x3
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  scatter_S12x128x500_S1_S12x100x500_012_n_1_0_wf : ScatterDims.WF S12x128x500 S1 S12x100x500 [0, 1, 2] [] [1] 0
  scatter_S12x128_S1_S12x100_01_n_1_0_wf : ScatterDims.WF S12x128 S1 S12x100 [0, 1] [] [1] 0
  dot_S1024x2048_S1000x2048_S1024x1000_1_1_0_0_n_n_wf : DotDims.WF S1024x2048 S1000x2048 S1024x1000 [1] [1] [0] [0] [] []
  dot_S1024x1000_S500x1000_S1024x500_1_1_0_0_n_n_wf : DotDims.WF S1024x1000 S500x1000 S1024x500 [1] [1] [0] [0] [] []
  dot_S1024x500_S128x500_S1024x128_1_1_0_0_n_n_wf : DotDims.WF S1024x500 S128x500 S1024x128 [1] [1] [0] [0] [] []
  scatter_S12x128x500_S1_S12x3x500_012_n_1_0_wf : ScatterDims.WF S12x128x500 S1 S12x3x500 [0, 1, 2] [] [1] 0
  scatter_S12x128_S1_S12x3_01_n_1_0_wf : ScatterDims.WF S12x128 S1 S12x3 [0, 1] [] [1] 0
  gather_S12x1024x100_S1024x2_S1024x100_1_01_n_n_01_1_11100_wf : GatherDims.WF S12x1024x100 S1024x2 S1024x100 [1] [0, 1] [] [0, 1] [] 1 ![1, 1, 100]
  gather_S12x1024x3_S1024x2_S1024x3_1_01_n_n_01_1_113_wf : GatherDims.WF S12x1024x3 S1024x2 S1024x3 [1] [0, 1] [] [0, 1] [] 1 ![1, 1, 3]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x2048.size a ≤ S12x1000x2048.size a
  hwx0_1 : ∀ i : grid0.Coords, EltTy.bits .f32 = 32 ∨ (Rect.block (s := S12x1000x2048) S1x1000x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S12x1x1000.size a
  hwx0_2 : ∀ i : grid0.Coords, EltTy.bits .f32 = 32 ∨ (Rect.block (s := S12x1x1000) S1x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S12x1x1000.size a
  hwx0_3 : ∀ i : grid0.Coords, EltTy.bits .f32 = 32 ∨ (Rect.block (s := S12x1x1000) S1x1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x500x1000.size a ≤ S12x500x1000.size a
  hwx0_4 : ∀ i : grid0.Coords, EltTy.bits .f32 = 32 ∨ (Rect.block (s := S12x500x1000) S1x500x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x500.size a ≤ S12x1x500.size a
  hwx0_5 : ∀ i : grid0.Coords, EltTy.bits .f32 = 32 ∨ (Rect.block (s := S12x1x500) S1x1x500.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x500.size a ≤ S12x1x500.size a
  hwx0_6 : ∀ i : grid0.Coords, EltTy.bits .f32 = 32 ∨ (Rect.block (s := S12x1x500) S1x1x500.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x500.size a ≤ S12x128x500.size a
  hwx0_7 : ∀ i : grid0.Coords, EltTy.bits .f32 = 32 ∨ (Rect.block (s := S12x128x500) S1x128x500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S12x1x128.size a
  hwx0_8 : ∀ i : grid0.Coords, EltTy.bits .f32 = 32 ∨ (Rect.block (s := S12x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x128.size a ≤ S12x1024x128.size a
  hwx0_9 : ∀ i : grid0.Coords, EltTy.bits .f32 = 32 ∨ (Rect.block (s := S12x1024x128) S1x1024x128.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .f32 = 32 ∨ (Rect.block (s := S1024x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x2048.size a ≤ S12x1000x2048.size a
  hwx1_1 : ∀ i : grid1.Coords, EltTy.bits .f32 = 32 ∨ (Rect.block (s := S12x1000x2048) S1x1000x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1000.size a ≤ S12x1x1000.size a
  hwx1_2 : ∀ i : grid1.Coords, EltTy.bits .f32 = 32 ∨ (Rect.block (s := S12x1x1000) S1x1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1000.size a ≤ S12x1x1000.size a
  hwx1_3 : ∀ i : grid1.Coords, EltTy.bits .f32 = 32 ∨ (Rect.block (s := S12x1x1000) S1x1x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x500x1000.size a ≤ S12x500x1000.size a
  hwx1_4 : ∀ i : grid1.Coords, EltTy.bits .f32 = 32 ∨ (Rect.block (s := S12x500x1000) S1x500x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x500.size a ≤ S12x1x500.size a
  hwx1_5 : ∀ i : grid1.Coords, EltTy.bits .f32 = 32 ∨ (Rect.block (s := S12x1x500) S1x1x500.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x500.size a ≤ S12x1x500.size a
  hwx1_6 : ∀ i : grid1.Coords, EltTy.bits .f32 = 32 ∨ (Rect.block (s := S12x1x500) S1x1x500.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x500.size a ≤ S12x128x500.size a
  hwx1_7 : ∀ i : grid1.Coords, EltTy.bits .f32 = 32 ∨ (Rect.block (s := S12x128x500) S1x128x500.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S12x1x128.size a
  hwx1_8 : ∀ i : grid1.Coords, EltTy.bits .f32 = 32 ∨ (Rect.block (s := S12x1x128) S1x1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024x128.size a ≤ S12x1024x128.size a
  hwx1_9 : ∀ i : grid1.Coords, EltTy.bits .f32 = 32 ∨ (Rect.block (s := S12x1024x128) S1x1024x128.size (cc1_transform_9 i) (hinb1_9 i)).WholeWords (EltTy.packing .f32)

variable [Facts₀]

def scatter_S12x128x500_S1_S12x100x500_012_n_1_0 : ScatterDims S12x128x500 S1 S12x100x500 where
  updateWindowDims := [0, 1, 2]
  insertedWindowDims := []
  scatterDimsToOperandDims := [1]
  indexVectorDim := 0
  wf := scatter_S12x128x500_S1_S12x100x500_012_n_1_0_wf
def scatter_S12x128_S1_S12x100_01_n_1_0 : ScatterDims S12x128 S1 S12x100 where
  updateWindowDims := [0, 1]
  insertedWindowDims := []
  scatterDimsToOperandDims := [1]
  indexVectorDim := 0
  wf := scatter_S12x128_S1_S12x100_01_n_1_0_wf
def dot_S1024x2048_S1000x2048_S1024x1000_1_1_0_0_n_n : DotDims S1024x2048 S1000x2048 S1024x1000 where
  lhsContracting := [1]
  rhsContracting := [1]
  lhsNonContracting := [0]
  rhsNonContracting := [0]
  lhsBatch := []
  rhsBatch := []
  wf := dot_S1024x2048_S1000x2048_S1024x1000_1_1_0_0_n_n_wf
def dot_S1024x1000_S500x1000_S1024x500_1_1_0_0_n_n : DotDims S1024x1000 S500x1000 S1024x500 where
  lhsContracting := [1]
  rhsContracting := [1]
  lhsNonContracting := [0]
  rhsNonContracting := [0]
  lhsBatch := []
  rhsBatch := []
  wf := dot_S1024x1000_S500x1000_S1024x500_1_1_0_0_n_n_wf
def dot_S1024x500_S128x500_S1024x128_1_1_0_0_n_n : DotDims S1024x500 S128x500 S1024x128 where
  lhsContracting := [1]
  rhsContracting := [1]
  lhsNonContracting := [0]
  rhsNonContracting := [0]
  lhsBatch := []
  rhsBatch := []
  wf := dot_S1024x500_S128x500_S1024x128_1_1_0_0_n_n_wf
def scatter_S12x128x500_S1_S12x3x500_012_n_1_0 : ScatterDims S12x128x500 S1 S12x3x500 where
  updateWindowDims := [0, 1, 2]
  insertedWindowDims := []
  scatterDimsToOperandDims := [1]
  indexVectorDim := 0
  wf := scatter_S12x128x500_S1_S12x3x500_012_n_1_0_wf
def scatter_S12x128_S1_S12x3_01_n_1_0 : ScatterDims S12x128 S1 S12x3 where
  updateWindowDims := [0, 1]
  insertedWindowDims := []
  scatterDimsToOperandDims := [1]
  indexVectorDim := 0
  wf := scatter_S12x128_S1_S12x3_01_n_1_0_wf
def gather_S12x1024x100_S1024x2_S1024x100_1_01_n_n_01_1_11100 : GatherDims S12x1024x100 S1024x2 S1024x100 where
  offsetDims := [1]
  collapsedSliceDims := [0, 1]
  operandBatchingDims := []
  startIndicesBatchingDims := []
  startIndexMap := [0, 1]
  indexVectorDim := 1
  sliceSizes := ![1, 1, 100]
  wf := gather_S12x1024x100_S1024x2_S1024x100_1_01_n_n_01_1_11100_wf
def gather_S12x1024x3_S1024x2_S1024x3_1_01_n_n_01_1_113 : GatherDims S12x1024x3 S1024x2 S1024x3 where
  offsetDims := [1]
  collapsedSliceDims := [0, 1]
  operandBatchingDims := []
  startIndicesBatchingDims := []
  startIndexMap := [0, 1]
  indexVectorDim := 1
  sliceSizes := ![1, 1, 3]
  wf := gather_S12x1024x3_S1024x2_S1024x3_1_01_n_n_01_1_113_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x500x1000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1x500.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1x500.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128x500.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1x1000x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1x1000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x1000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S1x500x1000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x1x500.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x1x500.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x128x500.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x1x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x1024x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S1024x1 : Shape := ⟨2, ![1024, 1]⟩
abbrev S12x1000x2048 : Shape := ⟨3, ![12, 1000, 2048]⟩
abbrev S12x1000 : Shape := ⟨2, ![12, 1000]⟩
abbrev S12x500x1000 : Shape := ⟨3, ![12, 500, 1000]⟩
abbrev S12x500 : Shape := ⟨2, ![12, 500]⟩
abbrev S12x100x500 : Shape := ⟨3, ![12, 100, 500]⟩
abbrev S12x100 : Shape := ⟨2, ![12, 100]⟩
abbrev S12x3x500 : Shape := ⟨3, ![12, 3, 500]⟩
abbrev S12x3 : Shape := ⟨2, ![12, 3]⟩
abbrev S1024 : Shape := ⟨1, ![1024]⟩
abbrev S12x1000x1024 : Shape := ⟨3, ![12, 1000, 1024]⟩
abbrev S12x1024x1000 : Shape := ⟨3, ![12, 1024, 1000]⟩
abbrev S_ : Shape := ⟨0, ![]⟩
abbrev S12x1x1000 : Shape := ⟨3, ![12, 1, 1000]⟩
abbrev S12x1024x500 : Shape := ⟨3, ![12, 1024, 500]⟩
abbrev S12x1x500 : Shape := ⟨3, ![12, 1, 500]⟩
abbrev S12x1024x100 : Shape := ⟨3, ![12, 1024, 100]⟩
abbrev S12x1x100 : Shape := ⟨3, ![12, 1, 100]⟩
abbrev S12x1024x3 : Shape := ⟨3, ![12, 1024, 3]⟩
abbrev S12x1x3 : Shape := ⟨3, ![12, 1, 3]⟩
abbrev S1024x2 : Shape := ⟨2, ![1024, 2]⟩
abbrev S1024x100 : Shape := ⟨2, ![1024, 100]⟩
abbrev S1024x3 : Shape := ⟨2, ![1024, 3]⟩

abbrev nBuf : Space → Nat
  | .hbm => 258
  | .vmem => 0
  | .smem => 0
  | _ => 0

abbrev hbmTy0_0 (i : Nat) : BufTy := match i % 128 with
  | 0 => ⟨S1024x2048, .f32⟩
  | 1 => ⟨S1024x1, .i32⟩
  | 2 => ⟨S12x1000x2048, .f32⟩
  | 3 => ⟨S12x1000, .f32⟩
  | 4 => ⟨S12x1000, .f32⟩
  | 5 => ⟨S12x500x1000, .f32⟩
  | 6 => ⟨S12x500, .f32⟩
  | 7 => ⟨S12x500, .f32⟩
  | 8 => ⟨S12x100x500, .f32⟩
  | 9 => ⟨S12x100, .f32⟩
  | 10 => ⟨S12x1000x2048, .f32⟩
  | 11 => ⟨S12x1000, .f32⟩
  | 12 => ⟨S12x1000, .f32⟩
  | 13 => ⟨S12x500x1000, .f32⟩
  | 14 => ⟨S12x500, .f32⟩
  | 15 => ⟨S12x500, .f32⟩
  | 16 => ⟨S12x3x500, .f32⟩
  | 17 => ⟨S12x3, .f32⟩
  | 18 => ⟨S1024, .i32⟩
  | 19 => ⟨S12x1000x1024, .f32⟩
  | 20 => ⟨S12x1024x1000, .f32⟩
  | 21 => ⟨S_, .f32⟩
  | 22 => ⟨S12x1000, .f32⟩
  | 23 => ⟨S12x1x1000, .f32⟩
  | 24 => ⟨S_, .f32⟩
  | 25 => ⟨S12x1x1000, .f32⟩
  | 26 => ⟨S12x1x1000, .f32⟩
  | 27 => ⟨S_, .i32⟩
  | 28 => ⟨S_, .f32⟩
  | 29 => ⟨S12x1000, .f32⟩
  | 30 => ⟨S12x1x1000, .f32⟩
  | 31 => ⟨S_, .f32⟩
  | 32 => ⟨S12x1x1000, .f32⟩
  | 33 => ⟨S12x1x1000, .f32⟩
  | 34 => ⟨S12x1024x1000, .f32⟩
  | 35 => ⟨S12x1024x1000, .f32⟩
  | 36 => ⟨S12x1024x1000, .f32⟩
  | 37 => ⟨S_, .f32⟩
  | 38 => ⟨S_, .f32⟩
  | 39 => ⟨S_, .f32⟩
  | 40 => ⟨S_, .f32⟩
  | 41 => ⟨S12x1000, .f32⟩
  | 42 => ⟨S12x1x1000, .f32⟩
  | 43 => ⟨S12x1x1000, .f32⟩
  | 44 => ⟨S12x1x1000, .f32⟩
  | 45 => ⟨S_, .f32⟩
  | 46 => ⟨S_, .i1⟩
  | 47 => ⟨S_, .f32⟩
  | 48 => ⟨S_, .f32⟩
  | 49 => ⟨S12x1x1000, .f32⟩
  | 50 => ⟨S12x1x1000, .f32⟩
  | 51 => ⟨S12x1024x1000, .f32⟩
  | 52 => ⟨S12x1024x1000, .f32⟩
  | 53 => ⟨S_, .f32⟩
  | 54 => ⟨S12x1x1000, .f32⟩
  | 55 => ⟨S12x1x1000, .f32⟩
  | 56 => ⟨S12x1x1000, .f32⟩
  | 57 => ⟨S12x1024x1000, .f32⟩
  | 58 => ⟨S12x1024x1000, .f32⟩
  | 59 => ⟨S12x1x1000, .f32⟩
  | 60 => ⟨S12x1024x1000, .f32⟩
  | 61 => ⟨S12x1024x1000, .f32⟩
  | 62 => ⟨S12x1x1000, .f32⟩
  | 63 => ⟨S12x1024x1000, .f32⟩
  | 64 => ⟨S12x1024x1000, .f32⟩
  | 65 => ⟨S_, .f32⟩
  | 66 => ⟨S12x1024x1000, .f32⟩
  | 67 => ⟨S12x1024x1000, .f32⟩
  | 68 => ⟨S12x1024x500, .f32⟩
  | 69 => ⟨S_, .f32⟩
  | 70 => ⟨S12x500, .f32⟩
  | 71 => ⟨S12x1x500, .f32⟩
  | 72 => ⟨S_, .f32⟩
  | 73 => ⟨S12x1x500, .f32⟩
  | 74 => ⟨S12x1x500, .f32⟩
  | 75 => ⟨S_, .i32⟩
  | 76 => ⟨S_, .f32⟩
  | 77 => ⟨S12x500, .f32⟩
  | 78 => ⟨S12x1x500, .f32⟩
  | 79 => ⟨S_, .f32⟩
  | 80 => ⟨S12x1x500, .f32⟩
  | 81 => ⟨S12x1x500, .f32⟩
  | 82 => ⟨S12x1024x500, .f32⟩
  | 83 => ⟨S12x1024x500, .f32⟩
  | 84 => ⟨S12x1024x500, .f32⟩
  | 85 => ⟨S_, .f32⟩
  | 86 => ⟨S_, .f32⟩
  | 87 => ⟨S_, .f32⟩
  | 88 => ⟨S_, .f32⟩
  | 89 => ⟨S12x500, .f32⟩
  | 90 => ⟨S12x1x500, .f32⟩
  | 91 => ⟨S12x1x500, .f32⟩
  | 92 => ⟨S12x1x500, .f32⟩
  | 93 => ⟨S_, .f32⟩
  | 94 => ⟨S_, .i1⟩
  | 95 => ⟨S_, .f32⟩
  | 96 => ⟨S_, .f32⟩
  | 97 => ⟨S12x1x500, .f32⟩
  | 98 => ⟨S12x1x500, .f32⟩
  | 99 => ⟨S12x1024x500, .f32⟩
  | 100 => ⟨S12x1024x500, .f32⟩
  | 101 => ⟨S_, .f32⟩
  | 102 => ⟨S12x1x500, .f32⟩
  | 103 => ⟨S12x1x500, .f32⟩
  | 104 => ⟨S12x1x500, .f32⟩
  | 105 => ⟨S12x1024x500, .f32⟩
  | 106 => ⟨S12x1024x500, .f32⟩
  | 107 => ⟨S12x1x500, .f32⟩
  | 108 => ⟨S12x1024x500, .f32⟩
  | 109 => ⟨S12x1024x500, .f32⟩
  | 110 => ⟨S12x1x500, .f32⟩
  | 111 => ⟨S12x1024x500, .f32⟩
  | 112 => ⟨S12x1024x500, .f32⟩
  | 113 => ⟨S_, .f32⟩
  | 114 => ⟨S12x1024x500, .f32⟩
  | 115 => ⟨S12x1024x500, .f32⟩
  | 116 => ⟨S12x1024x100, .f32⟩
  | 117 => ⟨S12x1x100, .f32⟩
  | 118 => ⟨S12x1024x100, .f32⟩
  | 119 => ⟨S12x1024x100, .f32⟩
  | 120 => ⟨S12x1000x1024, .f32⟩
  | 121 => ⟨S12x1024x1000, .f32⟩
  | 122 => ⟨S_, .f32⟩
  | 123 => ⟨S12x1000, .f32⟩
  | 124 => ⟨S12x1x1000, .f32⟩
  | 125 => ⟨S_, .f32⟩
  | 126 => ⟨S12x1x1000, .f32⟩
  | 127 => ⟨S12x1x1000, .f32⟩
  | _ => ⟨S1024x2048, .f32⟩

abbrev hbmTy0_1 (i : Nat) : BufTy := match i % 128 with
  | 0 => ⟨S_, .i32⟩
  | 1 => ⟨S_, .f32⟩
  | 2 => ⟨S12x1000, .f32⟩
  | 3 => ⟨S12x1x1000, .f32⟩
  | 4 => ⟨S_, .f32⟩
  | 5 => ⟨S12x1x1000, .f32⟩
  | 6 => ⟨S12x1x1000, .f32⟩
  | 7 => ⟨S12x1024x1000, .f32⟩
  | 8 => ⟨S12x1024x1000, .f32⟩
  | 9 => ⟨S12x1024x1000, .f32⟩
  | 10 => ⟨S_, .f32⟩
  | 11 => ⟨S_, .f32⟩
  | 12 => ⟨S_, .f32⟩
  | 13 => ⟨S_, .f32⟩
  | 14 => ⟨S12x1000, .f32⟩
  | 15 => ⟨S12x1x1000, .f32⟩
  | 16 => ⟨S12x1x1000, .f32⟩
  | 17 => ⟨S12x1x1000, .f32⟩
  | 18 => ⟨S_, .f32⟩
  | 19 => ⟨S_, .i1⟩
  | 20 => ⟨S_, .f32⟩
  | 21 => ⟨S_, .f32⟩
  | 22 => ⟨S12x1x1000, .f32⟩
  | 23 => ⟨S12x1x1000, .f32⟩
  | 24 => ⟨S12x1024x1000, .f32⟩
  | 25 => ⟨S12x1024x1000, .f32⟩
  | 26 => ⟨S_, .f32⟩
  | 27 => ⟨S12x1x1000, .f32⟩
  | 28 => ⟨S12x1x1000, .f32⟩
  | 29 => ⟨S12x1x1000, .f32⟩
  | 30 => ⟨S12x1024x1000, .f32⟩
  | 31 => ⟨S12x1024x1000, .f32⟩
  | 32 => ⟨S12x1x1000, .f32⟩
  | 33 => ⟨S12x1024x1000, .f32⟩
  | 34 => ⟨S12x1024x1000, .f32⟩
  | 35 => ⟨S12x1x1000, .f32⟩
  | 36 => ⟨S12x1024x1000, .f32⟩
  | 37 => ⟨S12x1024x1000, .f32⟩
  | 38 => ⟨S_, .f32⟩
  | 39 => ⟨S12x1024x1000, .f32⟩
  | 40 => ⟨S12x1024x1000, .f32⟩
  | 41 => ⟨S12x1024x500, .f32⟩
  | 42 => ⟨S_, .f32⟩
  | 43 => ⟨S12x500, .f32⟩
  | 44 => ⟨S12x1x500, .f32⟩
  | 45 => ⟨S_, .f32⟩
  | 46 => ⟨S12x1x500, .f32⟩
  | 47 => ⟨S12x1x500, .f32⟩
  | 48 => ⟨S_, .i32⟩
  | 49 => ⟨S_, .f32⟩
  | 50 => ⟨S12x500, .f32⟩
  | 51 => ⟨S12x1x500, .f32⟩
  | 52 => ⟨S_, .f32⟩
  | 53 => ⟨S12x1x500, .f32⟩
  | 54 => ⟨S12x1x500, .f32⟩
  | 55 => ⟨S12x1024x500, .f32⟩
  | 56 => ⟨S12x1024x500, .f32⟩
  | 57 => ⟨S12x1024x500, .f32⟩
  | 58 => ⟨S_, .f32⟩
  | 59 => ⟨S_, .f32⟩
  | 60 => ⟨S_, .f32⟩
  | 61 => ⟨S_, .f32⟩
  | 62 => ⟨S12x500, .f32⟩
  | 63 => ⟨S12x1x500, .f32⟩
  | 64 => ⟨S12x1x500, .f32⟩
  | 65 => ⟨S12x1x500, .f32⟩
  | 66 => ⟨S_, .f32⟩
  | 67 => ⟨S_, .i1⟩
  | 68 => ⟨S_, .f32⟩
  | 69 => ⟨S_, .f32⟩
  | 70 => ⟨S12x1x500, .f32⟩
  | 71 => ⟨S12x1x500, .f32⟩
  | 72 => ⟨S12x1024x500, .f32⟩
  | 73 => ⟨S12x1024x500, .f32⟩
  | 74 => ⟨S_, .f32⟩
  | 75 => ⟨S12x1x500, .f32⟩
  | 76 => ⟨S12x1x500, .f32⟩
  | 77 => ⟨S12x1x500, .f32⟩
  | 78 => ⟨S12x1024x500, .f32⟩
  | 79 => ⟨S12x1024x500, .f32⟩
  | 80 => ⟨S12x1x500, .f32⟩
  | 81 => ⟨S12x1024x500, .f32⟩
  | 82 => ⟨S12x1024x500, .f32⟩
  | 83 => ⟨S12x1x500, .f32⟩
  | 84 => ⟨S12x1024x500, .f32⟩
  | 85 => ⟨S12x1024x500, .f32⟩
  | 86 => ⟨S_, .f32⟩
  | 87 => ⟨S12x1024x500, .f32⟩
  | 88 => ⟨S12x1024x500, .f32⟩
  | 89 => ⟨S12x1024x3, .f32⟩
  | 90 => ⟨S12x1x3, .f32⟩
  | 91 => ⟨S12x1024x3, .f32⟩
  | 92 => ⟨S12x1024x3, .f32⟩
  | 93 => ⟨S1024, .i32⟩
  | 94 => ⟨S_, .i32⟩
  | 95 => ⟨S1024, .i32⟩
  | 96 => ⟨S1024, .i1⟩
  | 97 => ⟨S_, .i32⟩
  | 98 => ⟨S1024, .i32⟩
  | 99 => ⟨S1024, .i32⟩
  | 100 => ⟨S1024, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S1024x1, .i32⟩
  | 109 => ⟨S1024x1, .i32⟩
  | 110 => ⟨S1024x2, .i32⟩
  | 111 => ⟨S1024x100, .f32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i32⟩
  | 125 => ⟨S1024, .i32⟩
  | 126 => ⟨S1024x1, .i32⟩
  | 127 => ⟨S1024x1, .i32⟩
  | _ => ⟨S1024x2048, .f32⟩

abbrev hbmTy0_2 (i : Nat) : BufTy := match i % 128 with
  | 0 => ⟨S1024x2, .i32⟩
  | 1 => ⟨S1024x3, .f32⟩
  | _ => ⟨S1024x2048, .f32⟩

abbrev hbmTy (i : Nat) : BufTy := match i / 128 with
  | 0 => hbmTy0_0 i
  | 1 => hbmTy0_1 i
  | 2 => hbmTy0_2 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call1_cst : Ref sig .tc := ⟨.hbm, 65, rfl⟩
abbrev main_call1_v0 : Ref sig .tc := ⟨.hbm, 66, rfl⟩
abbrev main_v21 : Ref sig .tc := ⟨.hbm, 67, rfl⟩
abbrev main_v22 : Ref sig .tc := ⟨.hbm, 68, rfl⟩
abbrev main_cst_2 : Ref sig .tc := ⟨.hbm, 69, rfl⟩
abbrev main_v23 : Ref sig .tc := ⟨.hbm, 70, rfl⟩
abbrev main_v24 : Ref sig .tc := ⟨.hbm, 71, rfl⟩
abbrev main_cst_3 : Ref sig .tc := ⟨.hbm, 72, rfl⟩
abbrev main_v25 : Ref sig .tc := ⟨.hbm, 73, rfl⟩
abbrev main_v26 : Ref sig .tc := ⟨.hbm, 74, rfl⟩
abbrev main_c_4 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_cst_3 : Ref sig .tc := ⟨.hbm, 93, rfl⟩
abbrev main_call2_v13 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_cst_5 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_call3_cst : Ref sig .tc := ⟨.hbm, 113, rfl⟩
abbrev main_call3_v0 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_cst_6 : Ref sig .tc := ⟨.hbm, 122, rfl⟩
abbrev main_v48 : Ref sig .tc := ⟨.hbm, 123, rfl⟩
abbrev main_v49 : Ref sig .tc := ⟨.hbm, 124, rfl⟩
abbrev main_cst_7 : Ref sig .tc := ⟨.hbm, 125, rfl⟩
abbrev main_v50 : Ref sig .tc := ⟨.hbm, 126, rfl⟩
abbrev main_v51 : Ref sig .tc := ⟨.hbm, 127, rfl⟩
abbrev main_c_8 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_cst_1 : Ref sig .tc := ⟨.hbm, 139, rfl⟩
abbrev main_call4_v8 : Ref sig .tc := ⟨.hbm, 140, rfl⟩
abbrev main_call4_cst_2 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_cst_3 : Ref sig .tc := ⟨.hbm, 146, rfl⟩
abbrev main_call4_v13 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_cst_9 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_call5_cst : Ref sig .tc := ⟨.hbm, 166, rfl⟩
abbrev main_call5_v0 : Ref sig .tc := ⟨.hbm, 167, rfl⟩
abbrev main_v66 : Ref sig .tc := ⟨.hbm, 168, rfl⟩
abbrev main_v67 : Ref sig .tc := ⟨.hbm, 169, rfl⟩
abbrev main_cst_10 : Ref sig .tc := ⟨.hbm, 170, rfl⟩
abbrev main_v68 : Ref sig .tc := ⟨.hbm, 171, rfl⟩
abbrev main_v69 : Ref sig .tc := ⟨.hbm, 172, rfl⟩
abbrev main_cst_11 : Ref sig .tc := ⟨.hbm, 173, rfl⟩
abbrev main_v70 : Ref sig .tc := ⟨.hbm, 174, rfl⟩
abbrev main_v71 : Ref sig .tc := ⟨.hbm, 175, rfl⟩
abbrev main_c_12 : Ref sig .tc := ⟨.hbm, 176, rfl⟩
abbrev main_call6_cst : Ref sig .tc := ⟨.hbm, 177, rfl⟩
abbrev main_call6_v0 : Ref sig .tc := ⟨.hbm, 178, rfl⟩
abbrev main_call6_v1 : Ref sig .tc := ⟨.hbm, 179, rfl⟩
abbrev main_call6_cst_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_v5 : Ref sig .tc := ⟨.hbm, 184, rfl⟩
abbrev main_call6_v6 : Ref sig .tc := ⟨.hbm, 185, rfl⟩
abbrev main_call6_v7 : Ref sig .tc := ⟨.hbm, 186, rfl⟩
abbrev main_call6_cst_1 : Ref sig .tc := ⟨.hbm, 187, rfl⟩
abbrev main_call6_v8 : Ref sig .tc := ⟨.hbm, 188, rfl⟩
abbrev main_call6_cst_2 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_v12 : Ref sig .tc := ⟨.hbm, 193, rfl⟩
abbrev main_call6_cst_3 : Ref sig .tc := ⟨.hbm, 194, rfl⟩
abbrev main_call6_v13 : Ref sig .tc := ⟨.hbm, 195, rfl⟩
abbrev main_call6_cst_4 : Ref sig .tc := ⟨.hbm, 196, rfl⟩
abbrev main_call6_call0_v0 : Ref sig .tc := ⟨.hbm, 197, rfl⟩
abbrev main_call6_call0_v1 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_cst_13 : Ref sig .tc := ⟨.hbm, 202, rfl⟩
abbrev main_v75 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_call7_cst : Ref sig .tc := ⟨.hbm, 214, rfl⟩
abbrev main_call7_v0 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_c_14 : Ref sig .tc := ⟨.hbm, 222, rfl⟩
abbrev main_v92 : Ref sig .tc := ⟨.hbm, 223, rfl⟩
abbrev main_v93 : Ref sig .tc := ⟨.hbm, 224, rfl⟩
abbrev main_c_15 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_c_16 : Ref sig .tc := ⟨.hbm, 229, rfl⟩
abbrev main_v97 : Ref sig .tc := ⟨.hbm, 230, rfl⟩
abbrev main_v98 : Ref sig .tc := ⟨.hbm, 231, rfl⟩
abbrev main_c_17 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_c_18 : Ref sig .tc := ⟨.hbm, 240, rfl⟩
abbrev main_v106 : Ref sig .tc := ⟨.hbm, 241, rfl⟩
abbrev main_v107 : Ref sig .tc := ⟨.hbm, 242, rfl⟩
abbrev main_c_19 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_c_20 : Ref sig .tc := ⟨.hbm, 247, rfl⟩
abbrev main_v111 : Ref sig .tc := ⟨.hbm, 248, rfl⟩
abbrev main_v112 : Ref sig .tc := ⟨.hbm, 249, rfl⟩
abbrev main_c_21 : Ref sig .tc := ⟨.hbm, 250, rfl⟩
abbrev main_v113 : Ref sig .tc := ⟨.hbm, 251, rfl⟩
abbrev main_v114 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩

abbrev nD : Nat := 1
abbrev τ : Topo := Topo.v7x

variable {F : FTy → Type} [FloatOps F]

class Facts₀ : Prop where
  shapeCasts_S1024x1_S1024 : S1024x1.ShapeCasts S1024
  transposes_S12x1000x1024_S12x1024x1000_0_2_1 : S12x1000x1024.Transposes [0, 2, 1] S12x1024x1000
  reducesTo_S12x1024x1000_S12x1000_d1 : S12x1024x1000.ReducesTo [1] S12x1000
  h_S_ : 0 < S_.numel
  bcast_S12x1000_S12x1x1000_0_2 : S12x1000.BroadcastsInDim S12x1x1000 (![0, 2] : Fin 2 → Fin S12x1x1000.rank)
  bcast_S_S12x1x1000 : S_.BroadcastsInDim S12x1x1000 (![] : Fin 0 → Fin S12x1x1000.rank)
  bcast_S12x1x1000_S12x1024x1000_0_1_2 : S12x1x1000.BroadcastsInDim S12x1024x1000 (![0, 1, 2] : Fin 3 → Fin S12x1024x1000.rank)
  bcast_S_S12x1024x1000 : S_.BroadcastsInDim S12x1024x1000 (![] : Fin 0 → Fin S12x1024x1000.rank)
  reducesTo_S12x1024x500_S12x500_d1 : S12x1024x500.ReducesTo [1] S12x500
  bcast_S12x500_S12x1x500_0_2 : S12x500.BroadcastsInDim S12x1x500 (![0, 2] : Fin 2 → Fin S12x1x500.rank)
  bcast_S_S12x1x500 : S_.BroadcastsInDim S12x1x500 (![] : Fin 0 → Fin S12x1x500.rank)
  bcast_S12x1x500_S12x1024x500_0_1_2 : S12x1x500.BroadcastsInDim S12x1024x500 (![0, 1, 2] : Fin 3 → Fin S12x1024x500.rank)
  bcast_S_S12x1024x500 : S_.BroadcastsInDim S12x1024x500 (![] : Fin 0 → Fin S12x1024x500.rank)
  bcast_S12x100_S12x1x100_0_2 : S12x100.BroadcastsInDim S12x1x100 (![0, 2] : Fin 2 → Fin S12x1x100.rank)
  bcast_S12x1x100_S12x1024x100_0_1_2 : S12x1x100.BroadcastsInDim S12x1024x100 (![0, 1, 2] : Fin 3 → Fin S12x1024x100.rank)
  bcast_S12x3_S12x1x3_0_2 : S12x3.BroadcastsInDim S12x1x3 (![0, 2] : Fin 2 → Fin S12x1x3.rank)
  bcast_S12x1x3_S12x1024x3_0_1_2 : S12x1x3.BroadcastsInDim S12x1024x3 (![0, 1, 2] : Fin 3 → Fin S12x1024x3.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S12x1000x2048_S1024x2048_S12x1000x1024_2_1_01_0_n_n_wf : DotDims.WF S12x1000x2048 S1024x2048 S12x1000x1024 [2] [1] [0, 1] [0] [] []
  dot_S12x1024x1000_S12x500x1000_S12x1024x500_2_2_1_1_0_0_wf : DotDims.WF S12x1024x1000 S12x500x1000 S12x1024x500 [2] [2] [1] [1] [0] [0]
  dot_S12x1024x500_S12x100x500_S12x1024x100_2_2_1_1_0_0_wf : DotDims.WF S12x1024x500 S12x100x500 S12x1024x100 [2] [2] [1] [1] [0] [0]
  dot_S12x1024x500_S12x3x500_S12x1024x3_2_2_1_1_0_0_wf : DotDims.WF S12x1024x500 S12x3x500 S12x1024x3 [2] [2] [1] [1] [0] [0]
  gather_S12x1024x100_S1024x2_S1024x100_1_01_n_n_01_1_11100_wf : GatherDims.WF S12x1024x100 S1024x2 S1024x100 [1] [0, 1] [] [0, 1] [] 1 ![1, 1, 100]
  gather_S12x1024x3_S1024x2_S1024x3_1_01_n_n_01_1_113_wf : GatherDims.WF S12x1024x3 S1024x2 S1024x3 [1] [0, 1] [] [0, 1] [] 1 ![1, 1, 3]

variable [Facts₀]

def dot_S12x1000x2048_S1024x2048_S12x1000x1024_2_1_01_0_n_n : DotDims S12x1000x2048 S1024x2048 S12x1000x1024 where
  lhsContracting := [2]
  rhsContracting := [1]
  lhsNonContracting := [0, 1]
  rhsNonContracting := [0]
  lhsBatch := []
  rhsBatch := []
  wf := dot_S12x1000x2048_S1024x2048_S12x1000x1024_2_1_01_0_n_n_wf
def dot_S12x1024x1000_S12x500x1000_S12x1024x500_2_2_1_1_0_0 : DotDims S12x1024x1000 S12x500x1000 S12x1024x500 where
  lhsContracting := [2]
  rhsContracting := [2]
  lhsNonContracting := [1]
  rhsNonContracting := [1]
  lhsBatch := [0]
  rhsBatch := [0]
  wf := dot_S12x1024x1000_S12x500x1000_S12x1024x500_2_2_1_1_0_0_wf
def dot_S12x1024x500_S12x100x500_S12x1024x100_2_2_1_1_0_0 : DotDims S12x1024x500 S12x100x500 S12x1024x100 where
  lhsContracting := [2]
  rhsContracting := [2]
  lhsNonContracting := [1]
  rhsNonContracting := [1]
  lhsBatch := [0]
  rhsBatch := [0]
  wf := dot_S12x1024x500_S12x100x500_S12x1024x100_2_2_1_1_0_0_wf
def dot_S12x1024x500_S12x3x500_S12x1024x3_2_2_1_1_0_0 : DotDims S12x1024x500 S12x3x500 S12x1024x3 where
  lhsContracting := [2]
  rhsContracting := [2]
  lhsNonContracting := [1]
  rhsNonContracting := [1]
  lhsBatch := [0]
  rhsBatch := [0]
  wf := dot_S12x1024x500_S12x3x500_S12x1024x3_2_2_1_1_0_0_wf
def gather_S12x1024x100_S1024x2_S1024x100_1_01_n_n_01_1_11100 : GatherDims S12x1024x100 S1024x2 S1024x100 where
  offsetDims := [1]
  collapsedSliceDims := [0, 1]
  operandBatchingDims := []
  startIndicesBatchingDims := []
  startIndexMap := [0, 1]
  indexVectorDim := 1
  sliceSizes := ![1, 1, 100]
  wf := gather_S12x1024x100_S1024x2_S1024x100_1_01_n_n_01_1_11100_wf
def gather_S12x1024x3_S1024x2_S1024x3_1_01_n_n_01_1_113 : GatherDims S12x1024x3 S1024x2 S1024x3 where
  offsetDims := [1]
  collapsedSliceDims := [0, 1]
  operandBatchingDims := []
  startIndicesBatchingDims := []
  startIndexMap := [0, 1]
  indexVectorDim := 1
  sliceSizes := ![1, 1, 3]
  wf := gather_S12x1024x3_S1024x2_S1024x3_1_01_n_n_01_1_113_wf

class Facts : Prop extends Facts₀ where

variable [Facts]
-- ==== Proof.HeadNet.lean ====
/- The network one head computes, over the reals, and the two forms in which the programs evaluate it on the
   extended reals.

   One head, for one class: a dense layer is rows of activations against rows of weights; batch normalisation takes,
   per feature, the mean and the (biased) variance over the 1024 rows of the batch, divides the centred value by
   sqrt (variance + eps), scales by gamma, shifts by beta; relu is the maximum with 0.  Two such hidden layers, then
   a last dense layer with a bias.

   The kernel evaluates a dense layer as three products of split operands (whole against whole, whole against a
   remainder "w - w", remainder "a - a" against whole) and normalises by multiplying with 1 / sqrt (max var 0 + eps);
   the reference divides by sqrt (var + eps).  On finite data the remainders are 0 and the variance is nonnegative,
   so both are the real network below, coerced. -/
import Idealize.ShloMosaic.PureOps.Ideal
import Idealize.ShloMosaic.PureOps.Ideal.Laws

noncomputable section

namespace Cert.HeadNet

open Idealize.ShloMosaic

/-- The stabiliser both programs add to the variance: the f32 word nearest 1e-5, as an extended real. -/
abbrev epsE : EReal := Ideal.ofBits .f32 0x3727C5AC#32
/-- The batch size 1024 as both programs write it: an f32 word. -/
abbrev nbE : EReal := Ideal.ofBits .f32 0x44800000#32
/-- The stabiliser as a real number. -/
def epsR : ℝ := epsE.toReal

/-- The stabiliser's word read off: sign 0, exponent field 110, fraction 2606508, so the value is
    (2^23 + 2606508) * 2^(110 - 127 - 23) = 10995116 * 2^(-40), a finite positive real. -/
theorem epsE_val : epsE = (((10995116 : ℝ) * (2 : ℝ) ^ (-40 : ℤ) : ℝ) : EReal) := by
  simp [Ideal.ofBits, Ideal.ieee]

theorem epsE_eq : epsE = (epsR : EReal) := by
  rw [epsR, epsE_val, EReal.toReal_coe]

theorem epsR_pos : 0 < epsR := by
  rw [epsR, epsE_val, EReal.toReal_coe]
  positivity

/-- The batch-size word: exponent field 137, fraction 0, so 2^23 * 2^(137 - 127 - 23) = 1024. -/
theorem nbE_eq : nbE = ((1024 : ℝ) : EReal) := by
  simp [Ideal.ofBits, Ideal.ieee]
  rw [← EReal.coe_mul]
  norm_num

/-- A dense layer: row b of the activations against row n of the weights. -/
def dense {B K N : ℕ} (a : Fin B → Fin K → ℝ) (w : Fin N → Fin K → ℝ) : Fin B → Fin N → ℝ :=
  fun b n => ∑ k, a b k * w n k

/-- The mean of feature n over the batch of 1024 rows. -/
def colMean {N : ℕ} (h : Fin 1024 → Fin N → ℝ) (n : Fin N) : ℝ := (∑ b, h b n) / 1024

/-- The biased variance of feature n over the batch. -/
def colVar {N : ℕ} (h : Fin 1024 → Fin N → ℝ) (n : Fin N) : ℝ :=
  (∑ b, (h b n - colMean h n) * (h b n - colMean h n)) / 1024

/-- Batch normalisation, scale, shift, relu. -/
def normRelu {N : ℕ} (h : Fin 1024 → Fin N → ℝ) (g β : Fin N → ℝ) : Fin 1024 → Fin N → ℝ :=
  fun b n => max ((h b n - colMean h n) / Real.sqrt (colVar h n + epsR) * g n + β n) 0

/-- The two hidden layers of one class's head: 2048 inputs, 1000 then 500 features. -/
def feat (x : Fin 1024 → Fin 2048 → ℝ) (w1 : Fin 1000 → Fin 2048 → ℝ) (g1 b1 : Fin 1000 → ℝ)
    (w2 : Fin 500 → Fin 1000 → ℝ) (g2 b2 : Fin 500 → ℝ) : Fin 1024 → Fin 500 → ℝ :=
  normRelu (dense (normRelu (dense x w1) g1 b1) w2) g2 b2

/-- One output of the last layer: the features of row b against one weight row, plus its bias. -/
def logit (f : Fin 1024 → Fin 500 → ℝ) (wrow : Fin 500 → ℝ) (bias : ℝ) (b : Fin 1024) : ℝ :=
  (∑ k, f b k * wrow k) + bias

/-- All twelve classes' heads at once: entry (c, b, j). -/
def net (x : Fin 1024 → Fin 2048 → ℝ) (W1 : Fin 12 → Fin 1000 → Fin 2048 → ℝ) (G1 B1 : Fin 12 → Fin 1000 → ℝ)
    (W2 : Fin 12 → Fin 500 → Fin 1000 → ℝ) (G2 B2 : Fin 12 → Fin 500 → ℝ) {O : ℕ}
    (W3 : Fin 12 → Fin O → Fin 500 → ℝ) (B3 : Fin 12 → Fin O → ℝ) : Fin 12 → Fin 1024 → Fin O → ℝ :=
  fun c b j => logit (feat x (W1 c) (G1 c) (B1 c) (W2 c) (G2 c) (B2 c)) (W3 c j) (B3 c j) b

/-! ## Coercions: the operations of the extended reals on real arguments -/

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

theorem sqrt_coe (a : ℝ) (ha : 0 ≤ a) : Ideal.sqrt (a : EReal) = ((Real.sqrt a : ℝ) : EReal) := by
  rw [Ideal.sqrt_coe, if_neg (not_lt.mpr ha)]

theorem rsqrt_coe (a : ℝ) (ha : 0 < a) : Ideal.rsqrt (a : EReal) = (((Real.sqrt a)⁻¹ : ℝ) : EReal) := by
  rw [Ideal.rsqrt_coe, if_neg (not_lt.mpr ha.le), if_neg ha.ne']

theorem colVar_nonneg {N : ℕ} (h : Fin 1024 → Fin N → ℝ) (n : Fin N) : 0 ≤ colVar h n :=
  div_nonneg (Finset.sum_nonneg fun _ _ => mul_self_nonneg _) (by norm_num)

/-- The coercion is monotone, so it commutes with the maximum. -/
theorem max_coe (x y : ℝ) : max (x : EReal) (y : EReal) = ((max x y : ℝ) : EReal) :=
  (EReal.coe_strictMono.monotone.map_max).symm

/-- The mean as the programs compute it (sum over the batch, divided by the batch-size word) is the real mean. -/
theorem mean_coe {N : ℕ} (h : Fin 1024 → Fin N → ℝ) (n : Fin N) (μ : EReal)
    (hμ : μ = Ideal.div (∑ b', (h b' n : EReal)) nbE) : μ = ((colMean h n : ℝ) : EReal) := by
  rw [hμ, sum_coe, nbE_eq, div_coe _ _ (by norm_num), colMean]

/-- The variance as the programs compute it, around the real mean, is the real biased variance. -/
theorem var_coe {N : ℕ} (h : Fin 1024 → Fin N → ℝ) (n : Fin N) (v : EReal)
    (hv : v = Ideal.div (∑ b', ((h b' n : EReal) - ((colMean h n : ℝ) : EReal))
            * ((h b' n : EReal) - ((colMean h n : ℝ) : EReal))) nbE) :
    v = ((colVar h n : ℝ) : EReal) := by
  rw [hv]
  simp only [← EReal.coe_sub, ← EReal.coe_mul]
  rw [sum_coe, nbE_eq, div_coe _ _ (by norm_num), colVar]

/-- The variance plus the stabiliser is positive. -/
theorem colVar_add_eps_pos {N : ℕ} (h : Fin 1024 → Fin N → ℝ) (n : Fin N) : 0 < colVar h n + epsR :=
  add_pos_of_nonneg_of_pos (colVar_nonneg h n) epsR_pos

/-! ## The kernel's forms -/

/-- The kernel's three products of split operands are the one real product: both remainders are 0. -/
theorem splitDot_coe {K : ℕ} (a w : Fin K → ℝ) :
    ((∑ k, (a k : EReal) * (w k : EReal)) + ∑ k, (a k : EReal) * ((w k : EReal) - (w k : EReal)))
        + ∑ k, ((a k : EReal) - (a k : EReal)) * (w k : EReal)
      = ((∑ k, a k * w k : ℝ) : EReal) := by
  -- each summand is a coerced real; the two remainder terms are the coerced 0
  have h1 : ∀ k, (a k : EReal) * (w k : EReal) = ((a k * w k : ℝ) : EReal) :=
    fun k => (EReal.coe_mul _ _).symm
  have h2 : ∀ k, (a k : EReal) * ((w k : EReal) - (w k : EReal)) = ((0 : ℝ) : EReal) := fun k => by
    rw [← EReal.coe_sub, sub_self, ← EReal.coe_mul, mul_zero]
  have h3 : ∀ k, ((a k : EReal) - (a k : EReal)) * (w k : EReal) = ((0 : ℝ) : EReal) := fun k => by
    rw [← EReal.coe_sub, sub_self, ← EReal.coe_mul, zero_mul]
  simp only [h1, h2, h3]
  rw [sum_coe, sum_coe, ← EReal.coe_add, ← EReal.coe_add]
  simp

/-- The kernel's normalisation of entry (b, n): centred value times 1 / sqrt (max var 0 + eps), times gamma, plus
    beta, relu; mean and variance as sums over the batch divided by the batch-size word. -/
theorem kernelNorm_coe {N : ℕ} (h : Fin 1024 → Fin N → ℝ) (g β : Fin N → ℝ) (b : Fin 1024) (n : Fin N)
    (μ v : EReal)
    (hμ : μ = Ideal.div (∑ b', (h b' n : EReal)) nbE)
    (hv : v = Ideal.div (∑ b', ((h b' n : EReal) - μ) * ((h b' n : EReal) - μ)) nbE) :
    max (((((h b n : EReal) - μ) * Ideal.rsqrt (max v 0 + epsE)) * (g n : EReal)) + (β n : EReal)) 0
      = ((normRelu h g β b n : ℝ) : EReal) := by
  have hμ' := mean_coe h n μ hμ
  subst hμ'
  have hv' := var_coe h n v hv
  subst hv'
  -- the variance is nonnegative, so the clamp at 0 does nothing
  have h0 : max ((colVar h n : ℝ) : EReal) 0 = ((colVar h n : ℝ) : EReal) :=
    max_eq_left (by exact_mod_cast colVar_nonneg h n)
  -- d / sqrt s = d * (sqrt s)⁻¹ over the reals
  have hR : normRelu h g β b n
      = max ((h b n - colMean h n) * (Real.sqrt (colVar h n + epsR))⁻¹ * g n + β n) 0 := by
    simp only [normRelu, div_eq_mul_inv]
  rw [h0, epsE_eq, ← EReal.coe_add, rsqrt_coe _ (colVar_add_eps_pos h n), ← EReal.coe_sub, ← EReal.coe_mul,
    ← EReal.coe_mul, ← EReal.coe_add, ← EReal.coe_zero, max_coe, hR]

/-! ## The reference's form -/

/-- The reference's normalisation of entry (b, n): centred value divided by sqrt (var + eps), times gamma, plus
    beta, relu. -/
theorem refNorm_coe {N : ℕ} (h : Fin 1024 → Fin N → ℝ) (g β : Fin N → ℝ) (b : Fin 1024) (n : Fin N)
    (μ v : EReal)
    (hμ : μ = Ideal.div (∑ b', (h b' n : EReal)) nbE)
    (hv : v = Ideal.div (∑ b', ((h b' n : EReal) - μ) * ((h b' n : EReal) - μ)) nbE) :
    max ((Ideal.div ((h b n : EReal) - μ) (Ideal.sqrt (v + epsE)) * (g n : EReal)) + (β n : EReal)) 0
      = ((normRelu h g β b n : ℝ) : EReal) := by
  have hμ' := mean_coe h n μ hμ
  subst hμ'
  have hv' := var_coe h n v hv
  subst hv'
  have hpos := colVar_add_eps_pos h n
  have hR : normRelu h g β b n
      = max ((h b n - colMean h n) / Real.sqrt (colVar h n + epsR) * g n + β n) 0 := by
    simp only [normRelu]
  rw [epsE_eq, ← EReal.coe_add, sqrt_coe _ hpos.le, ← EReal.coe_sub,
    div_coe _ _ (Real.sqrt_pos.mpr hpos).ne', ← EReal.coe_mul, ← EReal.coe_add, ← EReal.coe_zero, max_coe, hR]

end Cert.HeadNet

end
-- ==== Proof.BodyValue0a.lean ====
/- The three shapes the body of a head's kernel is made of, read at an entry, for any extents.

   A product of rows against rows (both operands contracted along their second axis) into a zero accumulator is, at
   (p, n), the sum over k of left (p, k) times right (n, k).  A dense layer is three such products of split operands
   (whole against whole, whole against the remainder w - w, the remainder a - a against whole): on real rows the
   remainders are 0 and the three collapse to the one real product.  Batch normalisation is, per column, the sum over
   the 1024 batch rows divided by the batch size (once of the values, once of the squared centred values), the centred
   value times 1 / sqrt (max var 0 + eps), times gamma, plus beta, relu: on a real column that is the real
   normalisation. -/
import proofs.«424157_j48696339202298_3_alg».proof.Proof.HeadNet
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue0

open Idealize.ShloMosaic Idealize.ShloMosaic.ValueIdx Cert.HeadNet

/-! ## Rows against rows: a product contracting the second axis of both operands -/

section Rows
variable {B K N : ℕ}

/-- The dimension numbers of "row p of the left operand against row n of the right": contract axis 1 of both, keep
    axis 0 of both, no batch axis. -/
def rowsDot (B K N : ℕ) (wf : DotDims.WF ⟨2, ![B, K]⟩ ⟨2, ![N, K]⟩ ⟨2, ![B, N]⟩ [1] [1] [0] [0] [] []) :
    DotDims ⟨2, ![B, K]⟩ ⟨2, ![N, K]⟩ ⟨2, ![B, N]⟩ where
  lhsContracting := [1]
  rhsContracting := [1]
  lhsNonContracting := [0]
  rhsNonContracting := [0]
  lhsBatch := []
  rhsBatch := []
  wf := wf

variable (wf : DotDims.WF ⟨2, ![B, K]⟩ ⟨2, ![N, K]⟩ ⟨2, ![B, N]⟩ [1] [1] [0] [0] [] [])

theorem lhs_rows_0 (i : (⟨2, ![B, N]⟩ : Shape).Idx) (q : (rowsDot B K N wf).contr.Idx) :
    ((rowsDot B K N wf).lhsIdx i q 0).val = (i 0).val := by
  unfold DotDims.lhsIdx
  rw [dif_neg (show ¬(0 : Fin (⟨2, ![B, K]⟩ : Shape).rank) ∈ (rowsDot B K N wf).lhsBatch from List.not_mem_nil),
    dif_pos (show (0 : Fin (⟨2, ![B, K]⟩ : Shape).rank) ∈ (rowsDot B K N wf).lhsNonContracting from List.mem_singleton.mpr rfl)]
  rfl

theorem lhs_rows_1 (i : (⟨2, ![B, N]⟩ : Shape).Idx) (q : (rowsDot B K N wf).contr.Idx) :
    ((rowsDot B K N wf).lhsIdx i q 1).val = (q ⟨0, Nat.one_pos⟩).val :=
  (rowsDot B K N wf).lhsIdx_val_of_single rfl i q

theorem rhs_rows_0 (i : (⟨2, ![B, N]⟩ : Shape).Idx) (q : (rowsDot B K N wf).contr.Idx) :
    ((rowsDot B K N wf).rhsIdx i q 0).val = (i 1).val := by
  unfold DotDims.rhsIdx
  rw [dif_neg (show ¬(0 : Fin (⟨2, ![N, K]⟩ : Shape).rank) ∈ (rowsDot B K N wf).rhsBatch from List.not_mem_nil),
    dif_pos (show (0 : Fin (⟨2, ![N, K]⟩ : Shape).rank) ∈ (rowsDot B K N wf).rhsNonContracting from List.mem_singleton.mpr rfl)]
  rfl

theorem rhs_rows_1 (i : (⟨2, ![B, N]⟩ : Shape).Idx) (q : (rowsDot B K N wf).contr.Idx) :
    ((rowsDot B K N wf).rhsIdx i q 1).val = (q ⟨0, Nat.one_pos⟩).val :=
  (rowsDot B K N wf).rhsIdx_val_of_single rfl i q

/-- Into the zero accumulator, entry (p, n) of such a product is the sum over k of left (p, k) times right (n, k). -/
theorem rowsMatmul_apply {φ₁ φ₂ : FTy} (a : FVec Ideal ⟨2, ![B, K]⟩ φ₁) (w : FVec Ideal ⟨2, ![N, K]⟩ φ₂)
    (p : Fin B) (n : Fin N) :
    matmul (rowsDot B K N wf) none a w (constant (F := Ideal) ⟨2, ![B, N]⟩ .f32 0x00000000#32) (ix2 p n)
      = ∑ k : Fin K, a (ix2 p k) * w (ix2 n k) := by
  refine (Ideal.matmul_constant_zero_apply (rowsDot B K N wf) none a w (ix2 p n)).trans ?_
  rw [← Equiv.sum_comp (contrEquiv1 (rowsDot B K N wf) K rfl rfl).symm]
  refine Finset.sum_congr rfl fun k _ => ?_
  have hk := contrEquiv1_symm_val (rowsDot B K N wf) K rfl rfl k
  have el : (rowsDot B K N wf).lhsIdx (ix2 p n) ((contrEquiv1 (rowsDot B K N wf) K rfl rfl).symm k) = ix2 p k :=
    funext fun ax => Fin.ext (by
      match ax with
      | ⟨0, _⟩ => exact lhs_rows_0 wf _ _
      | ⟨1, _⟩ => exact (lhs_rows_1 wf _ _).trans hk)
  have er : (rowsDot B K N wf).rhsIdx (ix2 p n) ((contrEquiv1 (rowsDot B K N wf) K rfl rfl).symm k) = ix2 n k :=
    funext fun ax => Fin.ext (by
      match ax with
      | ⟨0, _⟩ => exact rhs_rows_0 wf _ _
      | ⟨1, _⟩ => exact (rhs_rows_1 wf _ _).trans hk)
  rw [el, er]

end Rows

/-! ## A dense layer as the kernel evaluates it: three products of split operands -/

section Dense
variable {B K N : ℕ} (wf : DotDims.WF ⟨2, ![B, K]⟩ ⟨2, ![N, K]⟩ ⟨2, ![B, N]⟩ [1] [1] [0] [0] [] [])

/-- Whole against whole, whole against the remainder w - w, the remainder a - a against whole, summed. -/
def splitDense (hlt : FTy.bits .bf16 < FTy.bits .f32) (a : FVec Ideal ⟨2, ![B, K]⟩ .f32) (w : FVec Ideal ⟨2, ![N, K]⟩ .f32) :
    FVec Ideal ⟨2, ![B, N]⟩ .f32 :=
  addf (addf
      (matmul (rowsDot B K N wf) none (truncf .bf16 a hlt) (truncf .bf16 w hlt)
        (constant (F := Ideal) ⟨2, ![B, N]⟩ .f32 0x00000000#32))
      (matmul (rowsDot B K N wf) none (truncf .bf16 a hlt) (truncf .bf16 (subf w w) hlt)
        (constant (F := Ideal) ⟨2, ![B, N]⟩ .f32 0x00000000#32)))
    (matmul (rowsDot B K N wf) none (truncf .bf16 (subf a a) hlt) (truncf .bf16 w hlt)
      (constant (F := Ideal) ⟨2, ![B, N]⟩ .f32 0x00000000#32))

/-- When row p of the activations and row n of the weights are real numbers, entry (p, n) is their one real product:
    both remainders are 0. -/
theorem splitDense_apply (hlt : FTy.bits .bf16 < FTy.bits .f32)
    (a : FVec Ideal ⟨2, ![B, K]⟩ .f32) (w : FVec Ideal ⟨2, ![N, K]⟩ .f32) (p : Fin B) (n : Fin N)
    (ar wr : Fin K → ℝ) (ha : ∀ k, a (ix2 p k) = ((ar k : ℝ) : EReal)) (hw : ∀ k, w (ix2 n k) = ((wr k : ℝ) : EReal)) :
    splitDense wf hlt a w (ix2 p n) = ((∑ k, ar k * wr k : ℝ) : EReal) := by
  unfold splitDense
  rw [addf_apply, addf_apply, rowsMatmul_apply, rowsMatmul_apply, rowsMatmul_apply]
  simp only [truncf_apply, subf_apply, ha, hw]
  exact splitDot_coe ar wr

end Dense

/-! ## Batch normalisation as the kernel evaluates it -/

section Norm
variable {N : ℕ}
  (hred : (⟨2, ![1024, N]⟩ : Shape).Reduces [0] ⟨1, ![N]⟩) (hφ : FKind.Formats .f32)
  (hacc : (0x00000000#32 : BitVec (FTy.bits .f32)) = FKind.add.neutral .f32 hφ)
  (hsc : (⟨1, ![N]⟩ : Shape).ShapeCasts ⟨2, ![1, N]⟩)
  (hbc : (⟨2, ![1, N]⟩ : Shape).Broadcasts ⟨2, ![1024, N]⟩)

/-- Per column: the sum over the 1024 batch rows, as a row vector, divided by the batch-size word. -/
def colDiv (v : FVec Ideal ⟨2, ![1024, N]⟩ .f32) : FVec Ideal ⟨2, ![1, N]⟩ .f32 :=
  divf (shapeCast ⟨2, ![1, N]⟩ (multiReduction .add [0] ⟨1, ![N]⟩ v 0x00000000#32 hred hφ hacc) hsc)
    (broadcast ⟨2, ![1, N]⟩ (Scalar.ofBits (F := Ideal) .f32 0x44800000#32))

/-- The values less their column's mean. -/
def centred (v : FVec Ideal ⟨2, ![1024, N]⟩ .f32) : FVec Ideal ⟨2, ![1024, N]⟩ .f32 :=
  subf v (broadcastTo ⟨2, ![1024, N]⟩ (colDiv hred hφ hacc hsc v) hbc)

/-- Per column: 1 / sqrt (max (mean of squares of the centred values) 0 + eps). -/
def invStd (c : FVec Ideal ⟨2, ![1024, N]⟩ .f32) : FVec Ideal ⟨2, ![1, N]⟩ .f32 :=
  rsqrt (addf (maximumf (colDiv hred hφ hacc hsc (mulf c c))
      (broadcast ⟨2, ![1, N]⟩ (Scalar.ofBits (F := Ideal) .f32 0x00000000#32)))
    (broadcast ⟨2, ![1, N]⟩ (Scalar.ofBits (F := Ideal) .f32 0x3727C5AC#32)))

theorem colDiv_apply (v : FVec Ideal ⟨2, ![1024, N]⟩ .f32) (u : Fin 1) (n : Fin N) :
    colDiv hred hφ hacc hsc v (ix2 u n) = Ideal.div (∑ b' : Fin 1024, v (ix2 b' n)) nbE := by
  unfold colDiv
  rw [divf_apply, shapeCast_a_1a_apply, broadcast_apply]
  refine congrArg (fun s => Ideal.div s nbE) ?_
  refine (Ideal.multiReduction_add_single v 0x00000000#32 hred hφ hacc (ix1 n)).trans ?_
  exact Finset.sum_congr rfl fun k _ => congrArg v (funext fun c => Fin.ext (by
    match c with
    | ⟨0, _⟩ => rfl
    | ⟨1, _⟩ => rfl))

theorem centred_apply (v : FVec Ideal ⟨2, ![1024, N]⟩ .f32) (p : Fin 1024) (n : Fin N) :
    centred hred hφ hacc hsc hbc v (ix2 p n) = v (ix2 p n) - colDiv hred hφ hacc hsc v (ix2 (0 : Fin 1) n) := by
  unfold centred
  rw [subf_apply, broadcastTo_1b_ab_apply]

theorem invStd_apply (c : FVec Ideal ⟨2, ![1024, N]⟩ .f32) (u : Fin 1) (n : Fin N) :
    invStd hred hφ hacc hsc c (ix2 u n)
      = Ideal.rsqrt (max (colDiv hred hφ hacc hsc (mulf c c) (ix2 u n)) 0 + epsE) := by
  unfold invStd
  show Ideal.rsqrt (max (colDiv hred hφ hacc hsc (mulf c c) (ix2 u n)) (Ideal.ofBits .f32 0x00000000#32)
    + Ideal.ofBits .f32 0x3727C5AC#32) = _
  rw [Ideal.ofBits_zero_f32]

/-- Scale by gamma, shift by beta, relu, of a centred value c already multiplied by the column's factor r. -/
def affineRelu (cr G Bt : FVec Ideal ⟨2, ![1024, N]⟩ .f32) : FVec Ideal ⟨2, ![1024, N]⟩ .f32 :=
  maximumf (addf (mulf cr G) Bt) (broadcast ⟨2, ![1024, N]⟩ (Scalar.ofBits (F := Ideal) .f32 0x00000000#32))

/-- Centred value times the column's 1 / sqrt (max var 0 + eps), times gamma, plus beta, relu: when column n of the
    values is real, entry (p, n) is the real normalisation. -/
theorem normRelu_apply (v G Bt : FVec Ideal ⟨2, ![1024, N]⟩ .f32)
    (H : Fin 1024 → Fin N → ℝ) (g β : Fin N → ℝ) (p : Fin 1024) (n : Fin N)
    (hv : ∀ b', v (ix2 b' n) = ((H b' n : ℝ) : EReal))
    (hG : G (ix2 p n) = ((g n : ℝ) : EReal)) (hB : Bt (ix2 p n) = ((β n : ℝ) : EReal)) :
    affineRelu (mulf (centred hred hφ hacc hsc hbc v)
        (broadcastTo ⟨2, ![1024, N]⟩ (invStd hred hφ hacc hsc (centred hred hφ hacc hsc hbc v)) hbc)) G Bt (ix2 p n)
      = ((normRelu H g β p n : ℝ) : EReal) := by
  unfold affineRelu
  have hμ : colDiv hred hφ hacc hsc v (ix2 (0 : Fin 1) n) = Ideal.div (∑ b', ((H b' n : ℝ) : EReal)) nbE := by
    rw [colDiv_apply]; simp only [hv]
  have hc : ∀ b', centred hred hφ hacc hsc hbc v (ix2 b' n)
      = ((H b' n : ℝ) : EReal) - colDiv hred hφ hacc hsc v (ix2 (0 : Fin 1) n) := fun b' => by
    rw [centred_apply, hv]
  have hvar : colDiv hred hφ hacc hsc (mulf (centred hred hφ hacc hsc hbc v) (centred hred hφ hacc hsc hbc v))
        (ix2 (0 : Fin 1) n)
      = Ideal.div (∑ b', (((H b' n : ℝ) : EReal) - colDiv hred hφ hacc hsc v (ix2 (0 : Fin 1) n))
          * (((H b' n : ℝ) : EReal) - colDiv hred hφ hacc hsc v (ix2 (0 : Fin 1) n))) nbE := by
    rw [colDiv_apply]; simp only [mulf_apply, hc]
  have hz : Scalar.ofBits (F := Ideal) .f32 0x00000000#32 = (0 : EReal) := Ideal.ofBits_zero_f32
  rw [maximumf_apply, addf_apply, mulf_apply, mulf_apply, broadcastTo_1b_ab_apply, broadcast_apply, invStd_apply, hc, hG,
    hB, hz]
  exact kernelNorm_coe H g β p n _ _ hμ hvar

end Norm

end Cert.KernelIdeal.BodyValue0

end
-- ==== Proof.BodyValue0.lean ====
/- What the body of the first head's kernel leaves at entry (b, j) of its output block, for one class.

   The block's nine inputs are: the batch x; the class's first-layer weights, gamma, beta; its second-layer weights,
   gamma, beta; its last-layer weights (padded to 128 rows) and bias (padded to 128).  When the entries read are real
   numbers, the body's single store holds, at (b, j), the last layer's output j of batch row b: the features of the two
   hidden layers against weight row j, plus bias j. Each dense layer is three products of split operands that
   collapse to one; each normalisation multiplies by 1 / sqrt (max var 0 + eps).

   The body's payloads are written in the three shapes of the module imported last (rows against rows, the split
   dense layer, the column statistics and factor), and the store is read at (b, j) layer by layer. -/
import proofs.«424157_j48696339202298_3_alg».proof.Proof.Gen.KernelIdeal.Frame
import proofs.«424157_j48696339202298_3_alg».proof.Proof.HeadNet
import proofs.«424157_j48696339202298_3_alg».proof.Proof.BodyValue0a
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue0

open Idealize.ShloMosaic Idealize.ShloMosaic.ValueIdx Cert.HeadNet Cert.KernelIdeal

/-! ## The body's payloads in those shapes -/

section Body

open Cert.KernelIdeal.Gen

theorem zeros2 : (![0, 0] : Fin 2 → Nat) = fun _ => 0 :=
  funext fun a => by match a with | ⟨0, _⟩ => rfl | ⟨1, _⟩ => rfl

theorem zeros3 : (![0, 0, 0] : Fin 3 → Nat) = fun _ => 0 :=
  funext fun a => by match a with | ⟨0, _⟩ => rfl | ⟨1, _⟩ => rfl | ⟨2, _⟩ => rfl

theorem f32Formats : FKind.Formats .f32 := .inl rfl

theorem zeroNeutral : (0x00000000#32 : BitVec (FTy.bits .f32)) = FKind.add.neutral .f32 f32Formats := rfl

/-! ### Gamma and beta: a unit axis dropped, and the one row repeated over the batch -/

theorem pay2_apply (v : Vec Ideal S1x1x1000 .f32) (q : Fin 1000) :
    k0_pay2 v (ix2 (0 : Fin 1) q) = v (ix3 (0 : Fin 1) (0 : Fin 1) q) := by
  unfold k0_pay2
  exact shapeCast_1ab_ab_apply v _ 0 q

theorem pay4_apply (v : Vec Ideal S1x1x1000 .f32) (p : Fin 1024) (q : Fin 1000) :
    k0_pay4 v (ix2 p q) = v (ix3 (0 : Fin 1) (0 : Fin 1) q) := by
  unfold k0_pay4
  exact (broadcastTo_1b_ab_apply _ _ p q).trans (shapeCast_1ab_ab_apply v _ 0 q)

theorem pay5_apply (v : Vec Ideal S1x1x500 .f32) (q : Fin 500) :
    k0_pay5 v (ix2 (0 : Fin 1) q) = v (ix3 (0 : Fin 1) (0 : Fin 1) q) := by
  unfold k0_pay5
  exact shapeCast_1ab_ab_apply v _ 0 q

theorem pay6_apply (v : Vec Ideal S1x1x500 .f32) (q : Fin 500) :
    k0_pay6 v (ix2 (0 : Fin 1) q) = v (ix3 (0 : Fin 1) (0 : Fin 1) q) := by
  unfold k0_pay6
  exact shapeCast_1ab_ab_apply v _ 0 q

/-! ### Layer 1 -/

/-- Layer 1 before its normalisation: the batch against the first-layer weights, as three split products. -/
def pre1 (x0 : Vec Ideal S1024x2048 .f32) (x1 : Vec Ideal S1x1000x2048 .f32) : FVec Ideal S1024x1000 .f32 :=
  splitDense dot_S1024x2048_S1000x2048_S1024x1000_1_1_0_0_n_n_wf bitsLt_bf16_f32 x0
    (shapeCast S1000x2048 x1 shapeCasts_S1x1000x2048_S1000x2048)

/-- The payload that ends layer 1's first part is the centred values times the column factor. -/
theorem pay3_eq (x0 : Vec Ideal S1024x2048 .f32) (x1 : Vec Ideal S1x1000x2048 .f32) :
    k0_pay3 x0 x1
      = mulf (centred reduces_S1024x1000_S1000 f32Formats zeroNeutral shapeCasts_S1000_S1x1000
            broadcasts_S1x1000_S1024x1000 (pre1 x0 x1))
          (broadcastTo S1024x1000 (invStd reduces_S1024x1000_S1000 f32Formats zeroNeutral shapeCasts_S1000_S1x1000
            (centred reduces_S1024x1000_S1000 f32Formats zeroNeutral shapeCasts_S1000_S1x1000
              broadcasts_S1x1000_S1024x1000 (pre1 x0 x1))) broadcasts_S1x1000_S1024x1000) := rfl

/-- Layer 1's activations as the body holds them. -/
def act1 (x0 : Vec Ideal S1024x2048 .f32) (x1 : Vec Ideal S1x1000x2048 .f32) (x2 x3 : Vec Ideal S1x1x1000 .f32) :
    FVec Ideal S1024x1000 .f32 :=
  affineRelu (k0_pay3 x0 x1) (k0_pay4 x2) (broadcastTo S1024x1000 (k0_pay2 x3) broadcasts_S1x1000_S1024x1000)

section Layers
variable (x : Fin 1024 → Fin 2048 → ℝ) (w1 : Fin 1000 → Fin 2048 → ℝ) (g1 b1 : Fin 1000 → ℝ)
  (w2 : Fin 500 → Fin 1000 → ℝ) (g2 b2 : Fin 500 → ℝ)
  (x0 : Vec Ideal S1024x2048 .f32) (x1 : Vec Ideal S1x1000x2048 .f32) (x2 x3 : Vec Ideal S1x1x1000 .f32)
  (x4 : Vec Ideal S1x500x1000 .f32) (x5 x6 : Vec Ideal S1x1x500 .f32)
  (h0 : ∀ p q, x0 (ix2 p q) = ((x p q : ℝ) : EReal))
  (h1 : ∀ p q, x1 (ix3 (0 : Fin 1) p q) = ((w1 p q : ℝ) : EReal))
  (h2 : ∀ q, x2 (ix3 (0 : Fin 1) (0 : Fin 1) q) = ((g1 q : ℝ) : EReal))
  (h3 : ∀ q, x3 (ix3 (0 : Fin 1) (0 : Fin 1) q) = ((b1 q : ℝ) : EReal))
  (h4 : ∀ p q, x4 (ix3 (0 : Fin 1) p q) = ((w2 p q : ℝ) : EReal))
  (h5 : ∀ q, x5 (ix3 (0 : Fin 1) (0 : Fin 1) q) = ((g2 q : ℝ) : EReal))
  (h6 : ∀ q, x6 (ix3 (0 : Fin 1) (0 : Fin 1) q) = ((b2 q : ℝ) : EReal))

include h0 h1 in
theorem pre1_apply (p : Fin 1024) (n : Fin 1000) : pre1 x0 x1 (ix2 p n) = ((dense x w1 p n : ℝ) : EReal) :=
  splitDense_apply _ _ x0 _ p n (x p) (w1 n) (h0 p) fun k => (shapeCast_1ab_ab_apply x1 _ n k).trans (h1 n k)

include h0 h1 h2 h3 in
theorem act1_apply (p : Fin 1024) (n : Fin 1000) :
    act1 x0 x1 x2 x3 (ix2 p n) = ((normRelu (dense x w1) g1 b1 p n : ℝ) : EReal) := by
  unfold act1
  rw [pay3_eq]
  exact normRelu_apply _ _ _ _ _ (pre1 x0 x1) _ _ (dense x w1) g1 b1 p n (fun b' => pre1_apply x w1 x0 x1 h0 h1 b' n)
    ((pay4_apply x2 p n).trans (h2 n))
    ((broadcastTo_1b_ab_apply _ _ p n).trans ((pay2_apply x3 n).trans (h3 n)))

/-! ### Layer 2 -/

/-- Layer 2 before its normalisation: layer 1's activations against the second-layer weights. -/
def pre2 : FVec Ideal S1024x500 .f32 :=
  splitDense dot_S1024x1000_S500x1000_S1024x500_1_1_0_0_n_n_wf bitsLt_bf16_f32 (act1 x0 x1 x2 x3)
    (shapeCast S500x1000 x4 shapeCasts_S1x500x1000_S500x1000)

/-- The payload of layer 2's centred values, -/
theorem pay7_eq :
    k0_pay7 (k0_pay2 x3) (k0_pay3 x0 x1) (k0_pay4 x2) x4
      = centred reduces_S1024x500_S500 f32Formats zeroNeutral shapeCasts_S500_S1x500 broadcasts_S1x500_S1024x500
          (pre2 x0 x1 x2 x3 x4) := rfl

/-- and of its column factor repeated over the batch. -/
theorem pay8_eq :
    k0_pay8 (k0_pay2 x3) (k0_pay3 x0 x1) (k0_pay4 x2) x4
      = broadcastTo S1024x500 (invStd reduces_S1024x500_S500 f32Formats zeroNeutral shapeCasts_S500_S1x500
          (k0_pay7 (k0_pay2 x3) (k0_pay3 x0 x1) (k0_pay4 x2) x4)) broadcasts_S1x500_S1024x500 := rfl

include h0 h1 h2 h3 h4 in
theorem pre2_apply (p : Fin 1024) (n : Fin 500) :
    pre2 x0 x1 x2 x3 x4 (ix2 p n) = ((dense (normRelu (dense x w1) g1 b1) w2 p n : ℝ) : EReal) :=
  splitDense_apply _ _ (act1 x0 x1 x2 x3) _ p n (normRelu (dense x w1) g1 b1 p) (w2 n)
    (fun k => act1_apply x w1 g1 b1 x0 x1 x2 x3 h0 h1 h2 h3 p k)
    fun k => (shapeCast_1ab_ab_apply x4 _ n k).trans (h4 n k)

/-- Layer 2's activations as the body holds them: the two hidden layers' features. -/
def act2 : FVec Ideal S1024x500 .f32 :=
  affineRelu
    (mulf (k0_pay7 (k0_pay2 x3) (k0_pay3 x0 x1) (k0_pay4 x2) x4) (k0_pay8 (k0_pay2 x3) (k0_pay3 x0 x1) (k0_pay4 x2) x4))
    (broadcastTo S1024x500 (k0_pay5 x5) broadcasts_S1x500_S1024x500)
    (broadcastTo S1024x500 (k0_pay6 x6) broadcasts_S1x500_S1024x500)

include h0 h1 h2 h3 h4 h5 h6 in
theorem act2_apply (p : Fin 1024) (n : Fin 500) :
    act2 x0 x1 x2 x3 x4 x5 x6 (ix2 p n) = ((feat x w1 g1 b1 w2 g2 b2 p n : ℝ) : EReal) := by
  unfold act2
  rw [pay8_eq, pay7_eq]
  exact normRelu_apply _ _ _ _ _ (pre2 x0 x1 x2 x3 x4) _ _ (dense (normRelu (dense x w1) g1 b1) w2) g2 b2 p n
    (fun b' => pre2_apply x w1 g1 b1 w2 x0 x1 x2 x3 x4 h0 h1 h2 h3 h4 b' n)
    ((broadcastTo_1b_ab_apply _ _ p n).trans ((pay5_apply x5 n).trans (h5 n)))
    ((broadcastTo_1b_ab_apply _ _ p n).trans ((pay6_apply x6 n).trans (h6 n)))

end Layers

/-! ### Layer 3 and the store -/

/-- The stored payload: layer 2's activations against the last-layer weights, plus the bias row, under a unit axis. -/
theorem pay1_eq (x0 : Vec Ideal S1024x2048 .f32) (x1 : Vec Ideal S1x1000x2048 .f32) (x2 x3 : Vec Ideal S1x1x1000 .f32)
    (x4 : Vec Ideal S1x500x1000 .f32) (x5 x6 : Vec Ideal S1x1x500 .f32) (x7 : Vec Ideal S1x128x500 .f32)
    (x8 : Vec Ideal S1x1x128 .f32) :
    k0_pay1 (k0_pay5 x5) (k0_pay6 x6) (k0_pay7 (k0_pay2 x3) (k0_pay3 x0 x1) (k0_pay4 x2) x4)
        (k0_pay8 (k0_pay2 x3) (k0_pay3 x0 x1) (k0_pay4 x2) x4) x7 x8
      = shapeCast S1x1024x128 (addf
          (splitDense dot_S1024x500_S128x500_S1024x128_1_1_0_0_n_n_wf bitsLt_bf16_f32 (act2 x0 x1 x2 x3 x4 x5 x6)
            (shapeCast S128x500 x7 shapeCasts_S1x128x500_S128x500))
          (broadcastTo S1024x128 (shapeCast S1x128 x8 shapeCasts_S1x1x128_S1x128) broadcasts_S1x128_S1024x128))
          shapeCasts_S1024x128_S1x1024x128 := rfl

end Body

theorem out_apply
    (x : Fin 1024 → Fin 2048 → ℝ) (w1 : Fin 1000 → Fin 2048 → ℝ) (g1 b1 : Fin 1000 → ℝ)
    (w2 : Fin 500 → Fin 1000 → ℝ) (g2 b2 : Fin 500 → ℝ) (wrow : Fin 500 → ℝ) (bias : ℝ)
    (x0 : Vec Ideal S1024x2048 .f32) (x1 : Vec Ideal S1x1000x2048 .f32) (x2 x3 : Vec Ideal S1x1x1000 .f32)
    (x4 : Vec Ideal S1x500x1000 .f32) (x5 x6 : Vec Ideal S1x1x500 .f32) (x7 : Vec Ideal S1x128x500 .f32)
    (x8 : Vec Ideal S1x1x128 .f32) (b : Fin 1024) (j : Fin 128)
    (h0 : ∀ p q, x0 (ix2 p q) = ((x p q : ℝ) : EReal))
    (h1 : ∀ p q, x1 (ix3 (0 : Fin 1) p q) = ((w1 p q : ℝ) : EReal))
    (h2 : ∀ q, x2 (ix3 (0 : Fin 1) (0 : Fin 1) q) = ((g1 q : ℝ) : EReal))
    (h3 : ∀ q, x3 (ix3 (0 : Fin 1) (0 : Fin 1) q) = ((b1 q : ℝ) : EReal))
    (h4 : ∀ p q, x4 (ix3 (0 : Fin 1) p q) = ((w2 p q : ℝ) : EReal))
    (h5 : ∀ q, x5 (ix3 (0 : Fin 1) (0 : Fin 1) q) = ((g2 q : ℝ) : EReal))
    (h6 : ∀ q, x6 (ix3 (0 : Fin 1) (0 : Fin 1) q) = ((b2 q : ℝ) : EReal))
    (h7 : ∀ k, x7 (ix3 (0 : Fin 1) j k) = ((wrow k : ℝ) : EReal))
    (h8 : x8 (ix3 (0 : Fin 1) (0 : Fin 1) j) = ((bias : ℝ) : EReal)) :
    Gen.out0_9 x0 x1 x2 x3 x4 x5 x6 x7 x8 (ix3 (0 : Fin 1) b j)
      = ((logit (feat x w1 g1 b1 w2 g2 b2) wrow bias b : ℝ) : EReal) := by
  unfold Gen.out0_9
  -- the one store covers the block, and every load reads a whole block
  rw [View.canon_unit_zero zeros3, View.ld_unit_zero zeros2 _ x0, View.ld_unit_zero zeros3 _ x1,
    View.ld_unit_zero zeros3 _ x2, View.ld_unit_zero zeros3 _ x3, View.ld_unit_zero zeros3 _ x4,
    View.ld_unit_zero zeros3 _ x5, View.ld_unit_zero zeros3 _ x6, View.ld_unit_zero zeros3 _ x7,
    View.ld_unit_zero zeros3 _ x8]
  rw [pay1_eq, shapeCast_ab_1ab_apply, addf_apply,
    splitDense_apply _ _ (act2 x0 x1 x2 x3 x4 x5 x6) _ b j (feat x w1 g1 b1 w2 g2 b2 b) wrow
      (fun k => act2_apply x w1 g1 b1 w2 g2 b2 x0 x1 x2 x3 x4 x5 x6 h0 h1 h2 h3 h4 h5 h6 b k)
      (fun k => (shapeCast_1ab_ab_apply x7 _ j k).trans (h7 k)),
    broadcastTo_1b_ab_apply, shapeCast_1ab_ab_apply, h8, ← EReal.coe_add]
  rfl

end Cert.KernelIdeal.BodyValue0

end
-- ==== Proof.Spec.lean ====
/- The value both programs leave, before the final selection by label: for each class c, batch row b and output j,
   the real network of HeadNet at the real readings of the argument arrays, coerced to an extended real.

   An array all of whose entries are real numbers is read as a real function of its coordinates; the spec array of a
   head with O outputs is entry (c, b, j) ↦ net … c b j. -/
import proofs.«424157_j48696339202298_3_alg».proof.Proof.HeadNet
import Idealize.ShloMosaic.Lib.ValueIdx

noncomputable section

namespace Cert.Spec

open Idealize.ShloMosaic Idealize.ShloMosaic.ValueIdx Cert.HeadNet

/-- Every entry of the array is a real number (neither infinity). -/
def IsReal {S : Shape} (A : S.Idx → EReal) : Prop := ∀ i, A i ≠ ⊤ ∧ A i ≠ ⊥

theorem IsReal.coe_toReal {S : Shape} {A : S.Idx → EReal} (h : IsReal A) (i : S.Idx) : ((A i).toReal : EReal) = A i :=
  EReal.coe_toReal (h i).1 (h i).2

/-- A matrix read as a real function of its two coordinates. -/
def re2 {n0 n1 : ℕ} (A : (⟨2, ![n0, n1]⟩ : Shape).Idx → EReal) : Fin n0 → Fin n1 → ℝ := fun p q => (A (ix2 p q)).toReal
/-- A three-axis array read as a real function of its three coordinates. -/
def re3 {n0 n1 n2 : ℕ} (A : (⟨3, ![n0, n1, n2]⟩ : Shape).Idx → EReal) : Fin n0 → Fin n1 → Fin n2 → ℝ :=
  fun p q r => (A (ix3 p q r)).toReal

theorem re2_coe {n0 n1 : ℕ} {A : (⟨2, ![n0, n1]⟩ : Shape).Idx → EReal} (h : IsReal A) (p : Fin n0) (q : Fin n1) :
    A (ix2 p q) = ((re2 A p q : ℝ) : EReal) := (h.coe_toReal _).symm
theorem re3_coe {n0 n1 n2 : ℕ} {A : (⟨3, ![n0, n1, n2]⟩ : Shape).Idx → EReal} (h : IsReal A) (p : Fin n0) (q : Fin n1)
    (r : Fin n2) : A (ix3 p q r) = ((re3 A p q r : ℝ) : EReal) := (h.coe_toReal _).symm

/-- The spec array of a head with O outputs, from its nine argument arrays: x, then per class the first layer's
    weights, gamma, beta, the second layer's, and the last layer's weights and bias. -/
def specY {O : ℕ} (x : (⟨2, ![1024, 2048]⟩ : Shape).Idx → EReal)
    (W1 : (⟨3, ![12, 1000, 2048]⟩ : Shape).Idx → EReal) (G1 B1 : (⟨2, ![12, 1000]⟩ : Shape).Idx → EReal)
    (W2 : (⟨3, ![12, 500, 1000]⟩ : Shape).Idx → EReal) (G2 B2 : (⟨2, ![12, 500]⟩ : Shape).Idx → EReal)
    (W3 : (⟨3, ![12, O, 500]⟩ : Shape).Idx → EReal) (B3 : (⟨2, ![12, O]⟩ : Shape).Idx → EReal) :
    (⟨3, ![12, 1024, O]⟩ : Shape).Idx → EReal :=
  fun i => ((net (re2 x) (re3 W1) (re2 G1) (re2 B1) (re3 W2) (re2 G2) (re2 B2) (re3 W3) (re2 B3) (i 0) (i 1) (i 2) : ℝ) : EReal)

/-- An array that agrees with the network entry by entry IS the spec array. -/
theorem eq_specY {O : ℕ} (x : (⟨2, ![1024, 2048]⟩ : Shape).Idx → EReal)
    (W1 : (⟨3, ![12, 1000, 2048]⟩ : Shape).Idx → EReal) (G1 B1 : (⟨2, ![12, 1000]⟩ : Shape).Idx → EReal)
    (W2 : (⟨3, ![12, 500, 1000]⟩ : Shape).Idx → EReal) (G2 B2 : (⟨2, ![12, 500]⟩ : Shape).Idx → EReal)
    (W3 : (⟨3, ![12, O, 500]⟩ : Shape).Idx → EReal) (B3 : (⟨2, ![12, O]⟩ : Shape).Idx → EReal)
    (Y : (⟨3, ![12, 1024, O]⟩ : Shape).Idx → EReal)
    (h : ∀ (c : Fin 12) (b : Fin 1024) (j : Fin O), Y (ix3 c b j)
      = ((net (re2 x) (re3 W1) (re2 G1) (re2 B1) (re3 W2) (re2 G2) (re2 B2) (re3 W3) (re2 B3) c b j : ℝ) : EReal)) :
    Y = specY x W1 G1 B1 W2 G2 B2 W3 B3 := by
  funext i
  rw [eq_ix3 i]
  exact h _ _ _

end Cert.Spec

end
-- ==== Proof.RegionValue0.lean ====
/- The first head's kernel, all twelve grid points: what its output array holds at entry (k, b, j).

   Grid point k stages class k's block of each per-class operand (the batch x is the same block at every point), runs
   the body, and writes back block k of the output; the blocks tile the output, so entry (k, b, j) of the final array
   is entry (b, j) of what the body left at point k.  With real data in the operands as the region finds them, that is
   the network's output j of batch row b for class k.

   The steps: the printed index maps over the grid (the batch's window at block (0, 0), every other window at block
   (t, 0, 0) at point t); each input block read as a slab of its operand (a block's coordinate is index × size + the
   coordinate inside the block); the output as ONE function G of the operands, entry (k, b, j) ↦ entry (0, b, j) of
   what point k leaves; what point t writes back is block t of G; the blocks cover the output; so the array is G; and
   G at (k, b, j) is the body's value over class k's slabs, which hold the real data. -/
import proofs.«424157_j48696339202298_3_alg».proof.Proof.BodyValue0
import proofs.«424157_j48696339202298_3_alg».proof.Proof.Spec

set_option maxRecDepth 16384

noncomputable section

namespace Cert.KernelIdeal.RegionValue0

open Idealize.ShloMosaic Idealize.ShloMosaic.TcCoe Idealize.ShloMosaic.ValueIdx Idealize.SL.Sem Cert.HeadNet Cert.Spec Cert.KernelIdeal Cert.KernelIdeal.Gen
open Idealize.ShloMosaic.Pipeline (Dat Cfg Window)

section Blocks

variable {F : FTy → Type} [FloatOps F]
variable (V : (c : Dev nD) → (b : Ref sig .tc) → Buf (Elt F) ((c : Thread nD τ).loc b))

/-- The grid has one point per class: class k's point. -/
def pt (k : Fin 12) : Fin cfg0.N := ⟨k.val, by have := k.isLt; show k.val < grid0.N; rw [N_0]; exact this⟩

/-- The printed index maps over the grid: the batch's window sits at block (0, 0) at every point, and every other
    window, the output's included, at block (t, 0, 0) at point t. -/
theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The batch's block is the whole batch at every point. -/
theorem blk0_apply (c : Dev nD) (t : Fin cfg0.N) (p : Fin 1024) (q : Fin 2048) :
    (iblk0 V c 0 t : Vec F S1024x2048 .f32) (ix2 p q) = (V c main_arg0 : Vec F S1024x2048 .f32) (ix2 p q) := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * p.val = p.val; rw [e0]; omega
  | ⟨1, _⟩ => show win0_0.index t (1 : Fin 2) * 2048 + 1 * q.val = q.val; rw [e1]; omega

/-- Window 1's block at point t is class t's slab of its operand: entry (0, p, q) of the block is entry (t, p, q) of the array. -/
theorem blk1_apply (c : Dev nD) (t : Fin cfg0.N) (k : Fin 12) (hk : k.val = t.val) (p : Fin 1000) (q : Fin 2048) :
    (iblk0 V c 1 t : Vec F S1x1000x2048 .f32) (ix3 (0 : Fin 1) p q) = (V c main_arg2 : Vec F S12x1000x2048 .f32) (ix3 k p q) := by
  obtain ⟨-, ⟨e0, e1, e2⟩, -, -, -, -, -, -, -, -⟩ := idx_facts t
  unfold iblk0
  rw [View.read_apply]
  show V c main_arg2 _ = V c main_arg2 _
  congr 1
  funext a
  apply Fin.ext
  match a with
  | ⟨0, _⟩ => show win0_1.index t (0 : Fin 3) * 1 + 1 * (0 : Fin 1).val = k.val; rw [e0, hk]; simp
  | ⟨1, _⟩ => show win0_1.index t (1 : Fin 3) * 1000 + 1 * p.val = p.val; rw [e1]; omega
  | ⟨2, _⟩ => show win0_1.index t (2 : Fin 3) * 2048 + 1 * q.val = q.val; rw [e2]; omega

/-- Window 2's block at point t is class t's slab of its operand: entry (0, p, q) of the block is entry (t, p, q) of the array. -/
theorem blk2_apply (c : Dev nD) (t : Fin cfg0.N) (k : Fin 12) (hk : k.val = t.val) (p : Fin 1) (q : Fin 1000) :
    (iblk0 V c 2 t : Vec F S1x1x1000 .f32) (ix3 (0 : Fin 1) p q) = (V c main_v6 : Vec F S12x1x1000 .f32) (ix3 k p q) := by
  obtain ⟨-, -, ⟨e0, e1, e2⟩, -, -, -, -, -, -, -⟩ := idx_facts t
  unfold iblk0
  rw [View.read_apply]
  show V c main_v6 _ = V c main_v6 _
  congr 1
  funext a
  apply Fin.ext
  match a with
  | ⟨0, _⟩ => show win0_2.index t (0 : Fin 3) * 1 + 1 * (0 : Fin 1).val = k.val; rw [e0, hk]; simp
  | ⟨1, _⟩ => show win0_2.index t (1 : Fin 3) * 1 + 1 * p.val = p.val; rw [e1]; omega
  | ⟨2, _⟩ => show win0_2.index t (2 : Fin 3) * 1000 + 1 * q.val = q.val; rw [e2]; omega

/-- Window 3's block at point t is class t's slab of its operand: entry (0, p, q) of the block is entry (t, p, q) of the array. -/
theorem blk3_apply (c : Dev nD) (t : Fin cfg0.N) (k : Fin 12) (hk : k.val = t.val) (p : Fin 1) (q : Fin 1000) :
    (iblk0 V c 3 t : Vec F S1x1x1000 .f32) (ix3 (0 : Fin 1) p q) = (V c main_v7 : Vec F S12x1x1000 .f32) (ix3 k p q) := by
  obtain ⟨-, -, -, ⟨e0, e1, e2⟩, -, -, -, -, -, -⟩ := idx_facts t
  unfold iblk0
  rw [View.read_apply]
  show V c main_v7 _ = V c main_v7 _
  congr 1
  funext a
  apply Fin.ext
  match a with
  | ⟨0, _⟩ => show win0_3.index t (0 : Fin 3) * 1 + 1 * (0 : Fin 1).val = k.val; rw [e0, hk]; simp
  | ⟨1, _⟩ => show win0_3.index t (1 : Fin 3) * 1 + 1 * p.val = p.val; rw [e1]; omega
  | ⟨2, _⟩ => show win0_3.index t (2 : Fin 3) * 1000 + 1 * q.val = q.val; rw [e2]; omega

/-- Window 4's block at point t is class t's slab of its operand: entry (0, p, q) of the block is entry (t, p, q) of the array. -/
theorem blk4_apply (c : Dev nD) (t : Fin cfg0.N) (k : Fin 12) (hk : k.val = t.val) (p : Fin 500) (q : Fin 1000) :
    (iblk0 V c 4 t : Vec F S1x500x1000 .f32) (ix3 (0 : Fin 1) p q) = (V c main_arg5 : Vec F S12x500x1000 .f32) (ix3 k p q) := by
  obtain ⟨-, -, -, -, ⟨e0, e1, e2⟩, -, -, -, -, -⟩ := idx_facts t
  unfold iblk0
  rw [View.read_apply]
  show V c main_arg5 _ = V c main_arg5 _
  congr 1
  funext a
  apply Fin.ext
  match a with
  | ⟨0, _⟩ => show win0_4.index t (0 : Fin 3) * 1 + 1 * (0 : Fin 1).val = k.val; rw [e0, hk]; simp
  | ⟨1, _⟩ => show win0_4.index t (1 : Fin 3) * 500 + 1 * p.val = p.val; rw [e1]; omega
  | ⟨2, _⟩ => show win0_4.index t (2 : Fin 3) * 1000 + 1 * q.val = q.val; rw [e2]; omega

/-- Window 5's block at point t is class t's slab of its operand: entry (0, p, q) of the block is entry (t, p, q) of the array. -/
theorem blk5_apply (c : Dev nD) (t : Fin cfg0.N) (k : Fin 12) (hk : k.val = t.val) (p : Fin 1) (q : Fin 500) :
    (iblk0 V c 5 t : Vec F S1x1x500 .f32) (ix3 (0 : Fin 1) p q) = (V c main_v8 : Vec F S12x1x500 .f32) (ix3 k p q) := by
  obtain ⟨-, -, -, -, -, ⟨e0, e1, e2⟩, -, -, -, -⟩ := idx_facts t
  unfold iblk0
  rw [View.read_apply]
  show V c main_v8 _ = V c main_v8 _
  congr 1
  funext a
  apply Fin.ext
  match a with
  | ⟨0, _⟩ => show win0_5.index t (0 : Fin 3) * 1 + 1 * (0 : Fin 1).val = k.val; rw [e0, hk]; simp
  | ⟨1, _⟩ => show win0_5.index t (1 : Fin 3) * 1 + 1 * p.val = p.val; rw [e1]; omega
  | ⟨2, _⟩ => show win0_5.index t (2 : Fin 3) * 500 + 1 * q.val = q.val; rw [e2]; omega

/-- Window 6's block at point t is class t's slab of its operand: entry (0, p, q) of the block is entry (t, p, q) of the array. -/
theorem blk6_apply (c : Dev nD) (t : Fin cfg0.N) (k : Fin 12) (hk : k.val = t.val) (p : Fin 1) (q : Fin 500) :
    (iblk0 V c 6 t : Vec F S1x1x500 .f32) (ix3 (0 : Fin 1) p q) = (V c main_v9 : Vec F S12x1x500 .f32) (ix3 k p q) := by
  obtain ⟨-, -, -, -, -, -, ⟨e0, e1, e2⟩, -, -, -⟩ := idx_facts t
  unfold iblk0
  rw [View.read_apply]
  show V c main_v9 _ = V c main_v9 _
  congr 1
  funext a
  apply Fin.ext
  match a with
  | ⟨0, _⟩ => show win0_6.index t (0 : Fin 3) * 1 + 1 * (0 : Fin 1).val = k.val; rw [e0, hk]; simp
  | ⟨1, _⟩ => show win0_6.index t (1 : Fin 3) * 1 + 1 * p.val = p.val; rw [e1]; omega
  | ⟨2, _⟩ => show win0_6.index t (2 : Fin 3) * 500 + 1 * q.val = q.val; rw [e2]; omega

/-- Window 7's block at point t is class t's slab of its operand: entry (0, p, q) of the block is entry (t, p, q) of the array. -/
theorem blk7_apply (c : Dev nD) (t : Fin cfg0.N) (k : Fin 12) (hk : k.val = t.val) (p : Fin 128) (q : Fin 500) :
    (iblk0 V c 7 t : Vec F S1x128x500 .f32) (ix3 (0 : Fin 1) p q) = (V c main_v2 : Vec F S12x128x500 .f32) (ix3 k p q) := by
  obtain ⟨-, -, -, -, -, -, -, ⟨e0, e1, e2⟩, -, -⟩ := idx_facts t
  unfold iblk0
  rw [View.read_apply]
  show V c main_v2 _ = V c main_v2 _
  congr 1
  funext a
  apply Fin.ext
  match a with
  | ⟨0, _⟩ => show win0_7.index t (0 : Fin 3) * 1 + 1 * (0 : Fin 1).val = k.val; rw [e0, hk]; simp
  | ⟨1, _⟩ => show win0_7.index t (1 : Fin 3) * 128 + 1 * p.val = p.val; rw [e1]; omega
  | ⟨2, _⟩ => show win0_7.index t (2 : Fin 3) * 500 + 1 * q.val = q.val; rw [e2]; omega

/-- Window 8's block at point t is class t's slab of its operand: entry (0, p, q) of the block is entry (t, p, q) of the array. -/
theorem blk8_apply (c : Dev nD) (t : Fin cfg0.N) (k : Fin 12) (hk : k.val = t.val) (p : Fin 1) (q : Fin 128) :
    (iblk0 V c 8 t : Vec F S1x1x128 .f32) (ix3 (0 : Fin 1) p q) = (V c main_v10 : Vec F S12x1x128 .f32) (ix3 k p q) := by
  obtain ⟨-, -, -, -, -, -, -, -, ⟨e0, e1, e2⟩, -⟩ := idx_facts t
  unfold iblk0
  rw [View.read_apply]
  show V c main_v10 _ = V c main_v10 _
  congr 1
  funext a
  apply Fin.ext
  match a with
  | ⟨0, _⟩ => show win0_8.index t (0 : Fin 3) * 1 + 1 * (0 : Fin 1).val = k.val; rw [e0, hk]; simp
  | ⟨1, _⟩ => show win0_8.index t (1 : Fin 3) * 1 + 1 * p.val = p.val; rw [e1]; omega
  | ⟨2, _⟩ => show win0_8.index t (2 : Fin 3) * 128 + 1 * q.val = q.val; rw [e2]; omega

/-- What grid point t leaves in the output's staging buffer: the body's one store, over the point's nine input blocks. -/
def leaves (c : Dev nD) (t : Fin cfg0.N) : Vec F S1x1024x128 .f32 :=
  out0_9 (iblk0 V c 0 t) (iblk0 V c 1 t) (iblk0 V c 2 t) (iblk0 V c 3 t) (iblk0 V c 4 t) (iblk0 V c 5 t)
    (iblk0 V c 6 t) (iblk0 V c 7 t) (iblk0 V c 8 t)

/-- The whole output as one function of the operands: entry (k, b, j) is entry (0, b, j) of what class k's point leaves. -/
def G (c : Dev nD) : Vec F S12x1024x128 .f32 :=
  fun i => leaves V c (pt (i 0)) (ix3 (0 : Fin 1) (i 1) (i 2))

/-- G at an entry of point t's block, named by its coordinates. -/
theorem G_at (c : Dev nD) (t : Fin cfg0.N) (y : S1x1024x128.Idx) (i : S12x1024x128.Idx)
    (h0 : (i 0).val = t.val) (h1 : (i 1).val = (y 1).val) (h2 : (i 2).val = (y 2).val) :
    G V c i = leaves V c t y := by
  have ht : pt (i 0) = t := Fin.ext h0
  have hy : ix3 (0 : Fin 1) (i 1) (i 2) = y := by
    funext a
    apply Fin.ext
    match a with
    | ⟨0, _⟩ => show (0 : Fin 1).val = (y 0).val; have : (y 0).val < 1 := (y 0).isLt; omega
    | ⟨1, _⟩ => exact h1
    | ⟨2, _⟩ => exact h2
  exact congrArg₂ (leaves V c) ht hy

/-- What point t writes back is block t of G: the write-back moves the whole staging buffer, and entry y of the block
    sits in the array at (t, y 1, y 2). -/
theorem flushed_eq (c : Dev nD) (t : Fin cfg0.N) :
    (dat0 V c).flushed 9 t = ((cfg0.win 9).blk t).view.read (Elt F) (G V c) := by
  show (cfg0.win 9).cut (grid0.coords t) ((dat0 V c).after 9 t) = _
  rw [after0_9]
  obtain ⟨-, -, -, -, -, -, -, -, -, ⟨e0, e1, e2⟩⟩ := idx_facts t
  funext y
  rw [View.read_apply]
  refine Eq.trans ?_ (cast_eq _ _).symm
  show leaves V c t ((cfg0.win 9).xinj (grid0.coords t) y) = _
  refine (G_at V c t ((cfg0.win 9).xinj (grid0.coords t) y) _ ?_ ?_ ?_).symm
  · show win0_9.index t (0 : Fin 3) * 1 + 1 * (y 0).val = t.val
    have : (y 0).val < 1 := (y 0).isLt
    rw [e0]; omega
  · show win0_9.index t (1 : Fin 3) * 1024 + 1 * (y 1).val = (y 1).val
    rw [e1]; omega
  · show win0_9.index t (2 : Fin 3) * 128 + 1 * (y 2).val = (y 2).val
    rw [e2]; omega

/-- An entry of the output is in point t's block iff each coordinate is in the block's range on its axis. -/
theorem mem_blk (t : Fin cfg0.N) (i : S12x1024x128.Idx) :
    i ∈ ((cfg0.win 9).blk t).view.set ↔ ∀ a : Fin 3, win0_9.index t a * S1x1024x128.size a ≤ (i a).val
      ∧ (i a).val < win0_9.index t a * S1x1024x128.size a + S1x1024x128.size a := by
  show i ∈ ((View.whole main_v11).slice (win0_9.rect t)).set ↔ _
  rw [View.set_slice_whole, Rect.mem_set_unit]
  exact Iff.rfl

/-- The twelve blocks tile the output: entry (k, b, j) is in class k's point's block, and every point writes back. -/
theorem cover (i : S12x1024x128.Idx) :
    ∃ t : Fin cfg0.N, (cfg0.win 9).flush t = true ∧ i ∈ ((cfg0.win 9).blk t).view.set := by
  obtain ⟨-, -, -, -, -, -, -, -, -, ⟨e0, e1, e2⟩⟩ := idx_facts (pt (i 0))
  have hp : (pt (i 0)).val = (i 0).val := rfl
  have h0 : (i 0).val < 12 := (i 0).isLt
  have h1 : (i 1).val < 1024 := (i 1).isLt
  have h2 : (i 2).val < 128 := (i 2).isLt
  refine ⟨pt (i 0), flush0_9 _, ?_⟩
  rw [mem_blk]
  intro a
  match a with
  | ⟨0, _⟩ =>
    show win0_9.index (pt (i 0)) (0 : Fin 3) * 1 ≤ (i 0).val ∧ (i 0).val < win0_9.index (pt (i 0)) (0 : Fin 3) * 1 + 1
    rw [e0, hp]; omega
  | ⟨1, _⟩ =>
    show win0_9.index (pt (i 0)) (1 : Fin 3) * 1024 ≤ (i 1).val ∧ (i 1).val < win0_9.index (pt (i 0)) (1 : Fin 3) * 1024 + 1024
    rw [e1]; omega
  | ⟨2, _⟩ =>
    show win0_9.index (pt (i 0)) (2 : Fin 3) * 128 ≤ (i 2).val ∧ (i 2).val < win0_9.index (pt (i 0)) (2 : Fin 3) * 128 + 128
    rw [e2]; omega

/-- So the output array after the last point is G. -/
theorem final (c : Dev nD) : (dat0 V c).arrAt 9 cfg0.N = G V c :=
  (dat0 V c).arrAt_eq_of_cover 9 (G V c) (fun t _ => flushed_eq V c t) cover

/-- G at entry (k, b, j) is entry (0, b, j) of what class k's point leaves. -/
theorem G_ix3 (c : Dev nD) (k : Fin 12) (b : Fin 1024) (j : Fin 128) :
    G V c (ix3 k b j) = leaves V c (pt k) (ix3 (0 : Fin 1) b j) :=
  G_at V c (pt k) (ix3 (0 : Fin 1) b j) (ix3 k b j) rfl rfl rfl

end Blocks

/-- The output array after the last grid point, at entry (k, b, j) with j among the first O columns: the real network's
    output j of batch row b for class k.  The padded columns (j ≥ O) and rows of the last layer are never read here. -/
theorem arr_apply (V : (c : Dev nD) → (b : Ref sig .tc) → Buf (Elt Ideal) ((c : Thread nD τ).loc b)) (c : Dev nD)
    (x : Fin 1024 → Fin 2048 → ℝ) (W1 : Fin 12 → Fin 1000 → Fin 2048 → ℝ) (G1 B1 : Fin 12 → Fin 1000 → ℝ)
    (W2 : Fin 12 → Fin 500 → Fin 1000 → ℝ) (G2 B2 : Fin 12 → Fin 500 → ℝ) {O : ℕ} (hO : O ≤ 128)
    (W3 : Fin 12 → Fin O → Fin 500 → ℝ) (B3 : Fin 12 → Fin O → ℝ)
    (hx : ∀ p q, (V c main_arg0 : FVec Ideal S1024x2048 .f32) (ix2 p q) = ((x p q : ℝ) : EReal))
    (hW1 : ∀ k p q, (V c main_arg2 : FVec Ideal S12x1000x2048 .f32) (ix3 k p q) = ((W1 k p q : ℝ) : EReal))
    (hG1 : ∀ k q, (V c main_v6 : FVec Ideal S12x1x1000 .f32) (ix3 k (0 : Fin 1) q) = ((G1 k q : ℝ) : EReal))
    (hB1 : ∀ k q, (V c main_v7 : FVec Ideal S12x1x1000 .f32) (ix3 k (0 : Fin 1) q) = ((B1 k q : ℝ) : EReal))
    (hW2 : ∀ k p q, (V c main_arg5 : FVec Ideal S12x500x1000 .f32) (ix3 k p q) = ((W2 k p q : ℝ) : EReal))
    (hG2 : ∀ k q, (V c main_v8 : FVec Ideal S12x1x500 .f32) (ix3 k (0 : Fin 1) q) = ((G2 k q : ℝ) : EReal))
    (hB2 : ∀ k q, (V c main_v9 : FVec Ideal S12x1x500 .f32) (ix3 k (0 : Fin 1) q) = ((B2 k q : ℝ) : EReal))
    (hW3 : ∀ k (j : Fin O) q, (V c main_v2 : FVec Ideal S12x128x500 .f32) (ix3 k (Fin.castLE hO j) q)
      = ((W3 k j q : ℝ) : EReal))
    (hB3 : ∀ k (j : Fin O), (V c main_v10 : FVec Ideal S12x1x128 .f32) (ix3 k (0 : Fin 1) (Fin.castLE hO j))
      = ((B3 k j : ℝ) : EReal))
    (k : Fin 12) (b : Fin 1024) (j : Fin O) :
    ((dat0 V c).arrAt 9 cfg0.N : FVec Ideal S12x1024x128 .f32) (ix3 k b (Fin.castLE hO j))
      = ((net x W1 G1 B1 W2 G2 B2 W3 B3 k b j : ℝ) : EReal) := by
  -- the array is G; G at (k, b, j) is what class k's point leaves at (0, b, j)
  refine (congrFun (final V c) (ix3 k b (Fin.castLE hO j))).trans ?_
  refine (G_ix3 V c k b (Fin.castLE hO j)).trans ?_
  -- the network at (k, b, j) is one class's last layer over that class's features
  show _ = ((logit (feat x (W1 k) (G1 k) (B1 k) (W2 k) (G2 k) (B2 k)) (W3 k j) (B3 k j) b : ℝ) : EReal)
  unfold leaves
  -- class k's point stages class k's slabs, which hold the real data
  exact BodyValue0.out_apply x (W1 k) (G1 k) (B1 k) (W2 k) (G2 k) (B2 k) (W3 k j) (B3 k j)
    (iblk0 V c 0 (pt k)) (iblk0 V c 1 (pt k)) (iblk0 V c 2 (pt k)) (iblk0 V c 3 (pt k)) (iblk0 V c 4 (pt k))
    (iblk0 V c 5 (pt k)) (iblk0 V c 6 (pt k)) (iblk0 V c 7 (pt k)) (iblk0 V c 8 (pt k)) b (Fin.castLE hO j)
    (fun p q => (blk0_apply V c (pt k) p q).trans (hx p q))
    (fun p q => (blk1_apply V c (pt k) k rfl p q).trans (hW1 k p q))
    (fun q => (blk2_apply V c (pt k) k rfl (0 : Fin 1) q).trans (hG1 k q))
    (fun q => (blk3_apply V c (pt k) k rfl (0 : Fin 1) q).trans (hB1 k q))
    (fun p q => (blk4_apply V c (pt k) k rfl p q).trans (hW2 k p q))
    (fun q => (blk5_apply V c (pt k) k rfl (0 : Fin 1) q).trans (hG2 k q))
    (fun q => (blk6_apply V c (pt k) k rfl (0 : Fin 1) q).trans (hB2 k q))
    (fun q => (blk7_apply V c (pt k) k rfl (Fin.castLE hO j) q).trans (hW3 k j q))
    ((blk8_apply V c (pt k) k rfl (0 : Fin 1) (Fin.castLE hO j)).trans (hB3 k j))

end Cert.KernelIdeal.RegionValue0

end
-- ==== Proof.BodyValue1.lean ====
/- What the body of the second head's kernel leaves at entry (b, j) of its output block, for one class.

   The block's nine inputs are: the batch x; the class's first-layer weights, gamma, beta; its second-layer weights,
   gamma, beta; its last-layer weights (padded to 128 rows) and bias (padded to 128).  When the entries read are real
   numbers, the body's single store holds, at (b, j), the last layer's output j of batch row b: the features of the two
   hidden layers against weight row j, plus bias j. Each dense layer is three products of split operands that
   collapse to one; each normalisation multiplies by 1 / sqrt (max var 0 + eps).

   The body's payloads are written in the three shapes of the module imported last (rows against rows, the split
   dense layer, the column statistics and factor), and the store is read at (b, j) layer by layer. -/
import proofs.«424157_j48696339202298_3_alg».proof.Proof.Gen.KernelIdeal.Frame
import proofs.«424157_j48696339202298_3_alg».proof.Proof.HeadNet
import proofs.«424157_j48696339202298_3_alg».proof.Proof.BodyValue0a
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue1

open Idealize.ShloMosaic Idealize.ShloMosaic.ValueIdx Cert.HeadNet Cert.KernelIdeal Cert.KernelIdeal.BodyValue0

/-! ## The body's payloads in those shapes -/

section Body

open Cert.KernelIdeal.Gen

theorem zeros2 : (![0, 0] : Fin 2 → Nat) = fun _ => 0 :=
  funext fun a => by match a with | ⟨0, _⟩ => rfl | ⟨1, _⟩ => rfl

theorem zeros3 : (![0, 0, 0] : Fin 3 → Nat) = fun _ => 0 :=
  funext fun a => by match a with | ⟨0, _⟩ => rfl | ⟨1, _⟩ => rfl | ⟨2, _⟩ => rfl

theorem f32Formats : FKind.Formats .f32 := .inl rfl

theorem zeroNeutral : (0x00000000#32 : BitVec (FTy.bits .f32)) = FKind.add.neutral .f32 f32Formats := rfl

/-! ### Gamma and beta: a unit axis dropped, and the one row repeated over the batch -/

theorem pay2_apply (v : Vec Ideal S1x1x1000 .f32) (q : Fin 1000) :
    k1_pay2 v (ix2 (0 : Fin 1) q) = v (ix3 (0 : Fin 1) (0 : Fin 1) q) := by
  unfold k1_pay2
  exact shapeCast_1ab_ab_apply v _ 0 q

theorem pay4_apply (v : Vec Ideal S1x1x1000 .f32) (p : Fin 1024) (q : Fin 1000) :
    k1_pay4 v (ix2 p q) = v (ix3 (0 : Fin 1) (0 : Fin 1) q) := by
  unfold k1_pay4
  exact (broadcastTo_1b_ab_apply _ _ p q).trans (shapeCast_1ab_ab_apply v _ 0 q)

theorem pay5_apply (v : Vec Ideal S1x1x500 .f32) (q : Fin 500) :
    k1_pay5 v (ix2 (0 : Fin 1) q) = v (ix3 (0 : Fin 1) (0 : Fin 1) q) := by
  unfold k1_pay5
  exact shapeCast_1ab_ab_apply v _ 0 q

theorem pay6_apply (v : Vec Ideal S1x1x500 .f32) (q : Fin 500) :
    k1_pay6 v (ix2 (0 : Fin 1) q) = v (ix3 (0 : Fin 1) (0 : Fin 1) q) := by
  unfold k1_pay6
  exact shapeCast_1ab_ab_apply v _ 0 q

/-! ### Layer 1 -/

/-- Layer 1 before its normalisation: the batch against the first-layer weights, as three split products. -/
def pre1 (x0 : Vec Ideal S1024x2048 .f32) (x1 : Vec Ideal S1x1000x2048 .f32) : FVec Ideal S1024x1000 .f32 :=
  splitDense dot_S1024x2048_S1000x2048_S1024x1000_1_1_0_0_n_n_wf bitsLt_bf16_f32 x0
    (shapeCast S1000x2048 x1 shapeCasts_S1x1000x2048_S1000x2048)

/-- The payload that ends layer 1's first part is the centred values times the column factor. -/
theorem pay3_eq (x0 : Vec Ideal S1024x2048 .f32) (x1 : Vec Ideal S1x1000x2048 .f32) :
    k1_pay3 x0 x1
      = mulf (centred reduces_S1024x1000_S1000 f32Formats zeroNeutral shapeCasts_S1000_S1x1000
            broadcasts_S1x1000_S1024x1000 (pre1 x0 x1))
          (broadcastTo S1024x1000 (invStd reduces_S1024x1000_S1000 f32Formats zeroNeutral shapeCasts_S1000_S1x1000
            (centred reduces_S1024x1000_S1000 f32Formats zeroNeutral shapeCasts_S1000_S1x1000
              broadcasts_S1x1000_S1024x1000 (pre1 x0 x1))) broadcasts_S1x1000_S1024x1000) := rfl

/-- Layer 1's activations as the body holds them. -/
def act1 (x0 : Vec Ideal S1024x2048 .f32) (x1 : Vec Ideal S1x1000x2048 .f32) (x2 x3 : Vec Ideal S1x1x1000 .f32) :
    FVec Ideal S1024x1000 .f32 :=
  affineRelu (k1_pay3 x0 x1) (k1_pay4 x2) (broadcastTo S1024x1000 (k1_pay2 x3) broadcasts_S1x1000_S1024x1000)

section Layers
variable (x : Fin 1024 → Fin 2048 → ℝ) (w1 : Fin 1000 → Fin 2048 → ℝ) (g1 b1 : Fin 1000 → ℝ)
  (w2 : Fin 500 → Fin 1000 → ℝ) (g2 b2 : Fin 500 → ℝ)
  (x0 : Vec Ideal S1024x2048 .f32) (x1 : Vec Ideal S1x1000x2048 .f32) (x2 x3 : Vec Ideal S1x1x1000 .f32)
  (x4 : Vec Ideal S1x500x1000 .f32) (x5 x6 : Vec Ideal S1x1x500 .f32)
  (h0 : ∀ p q, x0 (ix2 p q) = ((x p q : ℝ) : EReal))
  (h1 : ∀ p q, x1 (ix3 (0 : Fin 1) p q) = ((w1 p q : ℝ) : EReal))
  (h2 : ∀ q, x2 (ix3 (0 : Fin 1) (0 : Fin 1) q) = ((g1 q : ℝ) : EReal))
  (h3 : ∀ q, x3 (ix3 (0 : Fin 1) (0 : Fin 1) q) = ((b1 q : ℝ) : EReal))
  (h4 : ∀ p q, x4 (ix3 (0 : Fin 1) p q) = ((w2 p q : ℝ) : EReal))
  (h5 : ∀ q, x5 (ix3 (0 : Fin 1) (0 : Fin 1) q) = ((g2 q : ℝ) : EReal))
  (h6 : ∀ q, x6 (ix3 (0 : Fin 1) (0 : Fin 1) q) = ((b2 q : ℝ) : EReal))

include h0 h1 in
theorem pre1_apply (p : Fin 1024) (n : Fin 1000) : pre1 x0 x1 (ix2 p n) = ((dense x w1 p n : ℝ) : EReal) :=
  splitDense_apply _ _ x0 _ p n (x p) (w1 n) (h0 p) fun k => (shapeCast_1ab_ab_apply x1 _ n k).trans (h1 n k)

include h0 h1 h2 h3 in
theorem act1_apply (p : Fin 1024) (n : Fin 1000) :
    act1 x0 x1 x2 x3 (ix2 p n) = ((normRelu (dense x w1) g1 b1 p n : ℝ) : EReal) := by
  unfold act1
  rw [pay3_eq]
  exact normRelu_apply _ _ _ _ _ (pre1 x0 x1) _ _ (dense x w1) g1 b1 p n (fun b' => pre1_apply x w1 x0 x1 h0 h1 b' n)
    ((pay4_apply x2 p n).trans (h2 n))
    ((broadcastTo_1b_ab_apply _ _ p n).trans ((pay2_apply x3 n).trans (h3 n)))

/-! ### Layer 2 -/

/-- Layer 2 before its normalisation: layer 1's activations against the second-layer weights. -/
def pre2 : FVec Ideal S1024x500 .f32 :=
  splitDense dot_S1024x1000_S500x1000_S1024x500_1_1_0_0_n_n_wf bitsLt_bf16_f32 (act1 x0 x1 x2 x3)
    (shapeCast S500x1000 x4 shapeCasts_S1x500x1000_S500x1000)

/-- The payload of layer 2's centred values, -/
theorem pay7_eq :
    k1_pay7 (k1_pay2 x3) (k1_pay3 x0 x1) (k1_pay4 x2) x4
      = centred reduces_S1024x500_S500 f32Formats zeroNeutral shapeCasts_S500_S1x500 broadcasts_S1x500_S1024x500
          (pre2 x0 x1 x2 x3 x4) := rfl

/-- and of its column factor repeated over the batch. -/
theorem pay8_eq :
    k1_pay8 (k1_pay2 x3) (k1_pay3 x0 x1) (k1_pay4 x2) x4
      = broadcastTo S1024x500 (invStd reduces_S1024x500_S500 f32Formats zeroNeutral shapeCasts_S500_S1x500
          (k1_pay7 (k1_pay2 x3) (k1_pay3 x0 x1) (k1_pay4 x2) x4)) broadcasts_S1x500_S1024x500 := rfl

include h0 h1 h2 h3 h4 in
theorem pre2_apply (p : Fin 1024) (n : Fin 500) :
    pre2 x0 x1 x2 x3 x4 (ix2 p n) = ((dense (normRelu (dense x w1) g1 b1) w2 p n : ℝ) : EReal) :=
  splitDense_apply _ _ (act1 x0 x1 x2 x3) _ p n (normRelu (dense x w1) g1 b1 p) (w2 n)
    (fun k => act1_apply x w1 g1 b1 x0 x1 x2 x3 h0 h1 h2 h3 p k)
    fun k => (shapeCast_1ab_ab_apply x4 _ n k).trans (h4 n k)

/-- Layer 2's activations as the body holds them: the two hidden layers' features. -/
def act2 : FVec Ideal S1024x500 .f32 :=
  affineRelu
    (mulf (k1_pay7 (k1_pay2 x3) (k1_pay3 x0 x1) (k1_pay4 x2) x4) (k1_pay8 (k1_pay2 x3) (k1_pay3 x0 x1) (k1_pay4 x2) x4))
    (broadcastTo S1024x500 (k1_pay5 x5) broadcasts_S1x500_S1024x500)
    (broadcastTo S1024x500 (k1_pay6 x6) broadcasts_S1x500_S1024x500)

include h0 h1 h2 h3 h4 h5 h6 in
theorem act2_apply (p : Fin 1024) (n : Fin 500) :
    act2 x0 x1 x2 x3 x4 x5 x6 (ix2 p n) = ((feat x w1 g1 b1 w2 g2 b2 p n : ℝ) : EReal) := by
  unfold act2
  rw [pay8_eq, pay7_eq]
  exact normRelu_apply _ _ _ _ _ (pre2 x0 x1 x2 x3 x4) _ _ (dense (normRelu (dense x w1) g1 b1) w2) g2 b2 p n
    (fun b' => pre2_apply x w1 g1 b1 w2 x0 x1 x2 x3 x4 h0 h1 h2 h3 h4 b' n)
    ((broadcastTo_1b_ab_apply _ _ p n).trans ((pay5_apply x5 n).trans (h5 n)))
    ((broadcastTo_1b_ab_apply _ _ p n).trans ((pay6_apply x6 n).trans (h6 n)))

end Layers

/-! ### Layer 3 and the store -/

/-- The stored payload: layer 2's activations against the last-layer weights, plus the bias row, under a unit axis. -/
theorem pay1_eq (x0 : Vec Ideal S1024x2048 .f32) (x1 : Vec Ideal S1x1000x2048 .f32) (x2 x3 : Vec Ideal S1x1x1000 .f32)
    (x4 : Vec Ideal S1x500x1000 .f32) (x5 x6 : Vec Ideal S1x1x500 .f32) (x7 : Vec Ideal S1x128x500 .f32)
    (x8 : Vec Ideal S1x1x128 .f32) :
    k1_pay1 (k1_pay5 x5) (k1_pay6 x6) (k1_pay7 (k1_pay2 x3) (k1_pay3 x0 x1) (k1_pay4 x2) x4)
        (k1_pay8 (k1_pay2 x3) (k1_pay3 x0 x1) (k1_pay4 x2) x4) x7 x8
      = shapeCast S1x1024x128 (addf
          (splitDense dot_S1024x500_S128x500_S1024x128_1_1_0_0_n_n_wf bitsLt_bf16_f32 (act2 x0 x1 x2 x3 x4 x5 x6)
            (shapeCast S128x500 x7 shapeCasts_S1x128x500_S128x500))
          (broadcastTo S1024x128 (shapeCast S1x128 x8 shapeCasts_S1x1x128_S1x128) broadcasts_S1x128_S1024x128))
          shapeCasts_S1024x128_S1x1024x128 := rfl

end Body

theorem out_apply
    (x : Fin 1024 → Fin 2048 → ℝ) (w1 : Fin 1000 → Fin 2048 → ℝ) (g1 b1 : Fin 1000 → ℝ)
    (w2 : Fin 500 → Fin 1000 → ℝ) (g2 b2 : Fin 500 → ℝ) (wrow : Fin 500 → ℝ) (bias : ℝ)
    (x0 : Vec Ideal S1024x2048 .f32) (x1 : Vec Ideal S1x1000x2048 .f32) (x2 x3 : Vec Ideal S1x1x1000 .f32)
    (x4 : Vec Ideal S1x500x1000 .f32) (x5 x6 : Vec Ideal S1x1x500 .f32) (x7 : Vec Ideal S1x128x500 .f32)
    (x8 : Vec Ideal S1x1x128 .f32) (b : Fin 1024) (j : Fin 128)
    (h0 : ∀ p q, x0 (ix2 p q) = ((x p q : ℝ) : EReal))
    (h1 : ∀ p q, x1 (ix3 (0 : Fin 1) p q) = ((w1 p q : ℝ) : EReal))
    (h2 : ∀ q, x2 (ix3 (0 : Fin 1) (0 : Fin 1) q) = ((g1 q : ℝ) : EReal))
    (h3 : ∀ q, x3 (ix3 (0 : Fin 1) (0 : Fin 1) q) = ((b1 q : ℝ) : EReal))
    (h4 : ∀ p q, x4 (ix3 (0 : Fin 1) p q) = ((w2 p q : ℝ) : EReal))
    (h5 : ∀ q, x5 (ix3 (0 : Fin 1) (0 : Fin 1) q) = ((g2 q : ℝ) : EReal))
    (h6 : ∀ q, x6 (ix3 (0 : Fin 1) (0 : Fin 1) q) = ((b2 q : ℝ) : EReal))
    (h7 : ∀ k, x7 (ix3 (0 : Fin 1) j k) = ((wrow k : ℝ) : EReal))
    (h8 : x8 (ix3 (0 : Fin 1) (0 : Fin 1) j) = ((bias : ℝ) : EReal)) :
    Gen.out1_9 x0 x1 x2 x3 x4 x5 x6 x7 x8 (ix3 (0 : Fin 1) b j)
      = ((logit (feat x w1 g1 b1 w2 g2 b2) wrow bias b : ℝ) : EReal) := by
  unfold Gen.out1_9
  -- the one store covers the block, and every load reads a whole block
  rw [View.canon_unit_zero zeros3, View.ld_unit_zero zeros2 _ x0, View.ld_unit_zero zeros3 _ x1,
    View.ld_unit_zero zeros3 _ x2, View.ld_unit_zero zeros3 _ x3, View.ld_unit_zero zeros3 _ x4,
    View.ld_unit_zero zeros3 _ x5, View.ld_unit_zero zeros3 _ x6, View.ld_unit_zero zeros3 _ x7,
    View.ld_unit_zero zeros3 _ x8]
  rw [pay1_eq, shapeCast_ab_1ab_apply, addf_apply,
    splitDense_apply _ _ (act2 x0 x1 x2 x3 x4 x5 x6) _ b j (feat x w1 g1 b1 w2 g2 b2 b) wrow
      (fun k => act2_apply x w1 g1 b1 w2 g2 b2 x0 x1 x2 x3 x4 x5 x6 h0 h1 h2 h3 h4 h5 h6 b k)
      (fun k => (shapeCast_1ab_ab_apply x7 _ j k).trans (h7 k)),
    broadcastTo_1b_ab_apply, shapeCast_1ab_ab_apply, h8, ← EReal.coe_add]
  rfl

end Cert.KernelIdeal.BodyValue1

end
-- ==== Proof.RegionValue1.lean ====
/- The second head's kernel, all twelve grid points: what its output array holds at entry (k, b, j).

   Grid point k stages class k's block of each per-class operand (the batch x is the same block at every point), runs
   the body, and writes back block k of the output; the blocks tile the output, so entry (k, b, j) of the final array
   is entry (b, j) of what the body left at point k.  With real data in the operands as the region finds them, that is
   the network's output j of batch row b for class k.

   The steps: the printed index maps over the grid (the batch's window at block (0, 0), every other window at block
   (t, 0, 0) at point t); each input block read as a slab of its operand (a block's coordinate is index × size + the
   coordinate inside the block); the output as ONE function G of the operands, entry (k, b, j) ↦ entry (0, b, j) of
   what point k leaves; what point t writes back is block t of G; the blocks cover the output; so the array is G; and
   G at (k, b, j) is the body's value over class k's slabs, which hold the real data. -/
import proofs.«424157_j48696339202298_3_alg».proof.Proof.BodyValue1
import proofs.«424157_j48696339202298_3_alg».proof.Proof.Spec

set_option maxRecDepth 16384

noncomputable section

namespace Cert.KernelIdeal.RegionValue1

open Idealize.ShloMosaic Idealize.ShloMosaic.TcCoe Idealize.ShloMosaic.ValueIdx Idealize.SL.Sem Cert.HeadNet Cert.Spec Cert.KernelIdeal Cert.KernelIdeal.Gen
open Idealize.ShloMosaic.Pipeline (Dat Cfg Window)

section Blocks

variable {F : FTy → Type} [FloatOps F]
variable (V : (c : Dev nD) → (b : Ref sig .tc) → Buf (Elt F) ((c : Thread nD τ).loc b))

/-- The grid has one point per class: class k's point. -/
def pt (k : Fin 12) : Fin cfg1.N := ⟨k.val, by have := k.isLt; show k.val < grid1.N; rw [N_1]; exact this⟩

/-- The printed index maps over the grid: the batch's window sits at block (0, 0) at every point, and every other
    window, the output's included, at block (t, 0, 0) at point t. -/
theorem idx_facts : ∀ t : Fin cfg1.N,
    (win1_0.index t (0 : Fin 2) = 0 ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0)
    ∧ (win1_7.index t (0 : Fin 3) = t.val ∧ win1_7.index t (1 : Fin 3) = 0 ∧ win1_7.index t (2 : Fin 3) = 0)
    ∧ (win1_8.index t (0 : Fin 3) = t.val ∧ win1_8.index t (1 : Fin 3) = 0 ∧ win1_8.index t (2 : Fin 3) = 0)
    ∧ (win1_9.index t (0 : Fin 3) = t.val ∧ win1_9.index t (1 : Fin 3) = 0 ∧ win1_9.index t (2 : Fin 3) = 0) :=
  (by decide +kernel : ∀ t : Fin grid1.N, _)

/-- The batch's block is the whole batch at every point. -/
theorem blk0_apply (c : Dev nD) (t : Fin cfg1.N) (p : Fin 1024) (q : Fin 2048) :
    (iblk1 V c 0 t : Vec F S1024x2048 .f32) (ix2 p q) = (V c main_arg0 : Vec F S1024x2048 .f32) (ix2 p q) := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t (0 : Fin 2) * 1024 + 1 * p.val = p.val; rw [e0]; omega
  | ⟨1, _⟩ => show win1_0.index t (1 : Fin 2) * 2048 + 1 * q.val = q.val; rw [e1]; omega

/-- Window 1's block at point t is class t's slab of its operand: entry (0, p, q) of the block is entry (t, p, q) of the array. -/
theorem blk1_apply (c : Dev nD) (t : Fin cfg1.N) (k : Fin 12) (hk : k.val = t.val) (p : Fin 1000) (q : Fin 2048) :
    (iblk1 V c 1 t : Vec F S1x1000x2048 .f32) (ix3 (0 : Fin 1) p q) = (V c main_arg10 : Vec F S12x1000x2048 .f32) (ix3 k p q) := by
  obtain ⟨-, ⟨e0, e1, e2⟩, -, -, -, -, -, -, -, -⟩ := idx_facts t
  unfold iblk1
  rw [View.read_apply]
  show V c main_arg10 _ = V c main_arg10 _
  congr 1
  funext a
  apply Fin.ext
  match a with
  | ⟨0, _⟩ => show win1_1.index t (0 : Fin 3) * 1 + 1 * (0 : Fin 1).val = k.val; rw [e0, hk]; simp
  | ⟨1, _⟩ => show win1_1.index t (1 : Fin 3) * 1000 + 1 * p.val = p.val; rw [e1]; omega
  | ⟨2, _⟩ => show win1_1.index t (2 : Fin 3) * 2048 + 1 * q.val = q.val; rw [e2]; omega

/-- Window 2's block at point t is class t's slab of its operand: entry (0, p, q) of the block is entry (t, p, q) of the array. -/
theorem blk2_apply (c : Dev nD) (t : Fin cfg1.N) (k : Fin 12) (hk : k.val = t.val) (p : Fin 1) (q : Fin 1000) :
    (iblk1 V c 2 t : Vec F S1x1x1000 .f32) (ix3 (0 : Fin 1) p q) = (V c main_v19 : Vec F S12x1x1000 .f32) (ix3 k p q) := by
  obtain ⟨-, -, ⟨e0, e1, e2⟩, -, -, -, -, -, -, -⟩ := idx_facts t
  unfold iblk1
  rw [View.read_apply]
  show V c main_v19 _ = V c main_v19 _
  congr 1
  funext a
  apply Fin.ext
  match a with
  | ⟨0, _⟩ => show win1_2.index t (0 : Fin 3) * 1 + 1 * (0 : Fin 1).val = k.val; rw [e0, hk]; simp
  | ⟨1, _⟩ => show win1_2.index t (1 : Fin 3) * 1 + 1 * p.val = p.val; rw [e1]; omega
  | ⟨2, _⟩ => show win1_2.index t (2 : Fin 3) * 1000 + 1 * q.val = q.val; rw [e2]; omega

/-- Window 3's block at point t is class t's slab of its operand: entry (0, p, q) of the block is entry (t, p, q) of the array. -/
theorem blk3_apply (c : Dev nD) (t : Fin cfg1.N) (k : Fin 12) (hk : k.val = t.val) (p : Fin 1) (q : Fin 1000) :
    (iblk1 V c 3 t : Vec F S1x1x1000 .f32) (ix3 (0 : Fin 1) p q) = (V c main_v20 : Vec F S12x1x1000 .f32) (ix3 k p q) := by
  obtain ⟨-, -, -, ⟨e0, e1, e2⟩, -, -, -, -, -, -⟩ := idx_facts t
  unfold iblk1
  rw [View.read_apply]
  show V c main_v20 _ = V c main_v20 _
  congr 1
  funext a
  apply Fin.ext
  match a with
  | ⟨0, _⟩ => show win1_3.index t (0 : Fin 3) * 1 + 1 * (0 : Fin 1).val = k.val; rw [e0, hk]; simp
  | ⟨1, _⟩ => show win1_3.index t (1 : Fin 3) * 1 + 1 * p.val = p.val; rw [e1]; omega
  | ⟨2, _⟩ => show win1_3.index t (2 : Fin 3) * 1000 + 1 * q.val = q.val; rw [e2]; omega

/-- Window 4's block at point t is class t's slab of its operand: entry (0, p, q) of the block is entry (t, p, q) of the array. -/
theorem blk4_apply (c : Dev nD) (t : Fin cfg1.N) (k : Fin 12) (hk : k.val = t.val) (p : Fin 500) (q : Fin 1000) :
    (iblk1 V c 4 t : Vec F S1x500x1000 .f32) (ix3 (0 : Fin 1) p q) = (V c main_arg13 : Vec F S12x500x1000 .f32) (ix3 k p q) := by
  obtain ⟨-, -, -, -, ⟨e0, e1, e2⟩, -, -, -, -, -⟩ := idx_facts t
  unfold iblk1
  rw [View.read_apply]
  show V c main_arg13 _ = V c main_arg13 _
  congr 1
  funext a
  apply Fin.ext
  match a with
  | ⟨0, _⟩ => show win1_4.index t (0 : Fin 3) * 1 + 1 * (0 : Fin 1).val = k.val; rw [e0, hk]; simp
  | ⟨1, _⟩ => show win1_4.index t (1 : Fin 3) * 500 + 1 * p.val = p.val; rw [e1]; omega
  | ⟨2, _⟩ => show win1_4.index t (2 : Fin 3) * 1000 + 1 * q.val = q.val; rw [e2]; omega

/-- Window 5's block at point t is class t's slab of its operand: entry (0, p, q) of the block is entry (t, p, q) of the array. -/
theorem blk5_apply (c : Dev nD) (t : Fin cfg1.N) (k : Fin 12) (hk : k.val = t.val) (p : Fin 1) (q : Fin 500) :
    (iblk1 V c 5 t : Vec F S1x1x500 .f32) (ix3 (0 : Fin 1) p q) = (V c main_v21 : Vec F S12x1x500 .f32) (ix3 k p q) := by
  obtain ⟨-, -, -, -, -, ⟨e0, e1, e2⟩, -, -, -, -⟩ := idx_facts t
  unfold iblk1
  rw [View.read_apply]
  show V c main_v21 _ = V c main_v21 _
  congr 1
  funext a
  apply Fin.ext
  match a with
  | ⟨0, _⟩ => show win1_5.index t (0 : Fin 3) * 1 + 1 * (0 : Fin 1).val = k.val; rw [e0, hk]; simp
  | ⟨1, _⟩ => show win1_5.index t (1 : Fin 3) * 1 + 1 * p.val = p.val; rw [e1]; omega
  | ⟨2, _⟩ => show win1_5.index t (2 : Fin 3) * 500 + 1 * q.val = q.val; rw [e2]; omega

/-- Window 6's block at point t is class t's slab of its operand: entry (0, p, q) of the block is entry (t, p, q) of the array. -/
theorem blk6_apply (c : Dev nD) (t : Fin cfg1.N) (k : Fin 12) (hk : k.val = t.val) (p : Fin 1) (q : Fin 500) :
    (iblk1 V c 6 t : Vec F S1x1x500 .f32) (ix3 (0 : Fin 1) p q) = (V c main_v22 : Vec F S12x1x500 .f32) (ix3 k p q) := by
  obtain ⟨-, -, -, -, -, -, ⟨e0, e1, e2⟩, -, -, -⟩ := idx_facts t
  unfold iblk1
  rw [View.read_apply]
  show V c main_v22 _ = V c main_v22 _
  congr 1
  funext a
  apply Fin.ext
  match a with
  | ⟨0, _⟩ => show win1_6.index t (0 : Fin 3) * 1 + 1 * (0 : Fin 1).val = k.val; rw [e0, hk]; simp
  | ⟨1, _⟩ => show win1_6.index t (1 : Fin 3) * 1 + 1 * p.val = p.val; rw [e1]; omega
  | ⟨2, _⟩ => show win1_6.index t (2 : Fin 3) * 500 + 1 * q.val = q.val; rw [e2]; omega

/-- Window 7's block at point t is class t's slab of its operand: entry (0, p, q) of the block is entry (t, p, q) of the array. -/
theorem blk7_apply (c : Dev nD) (t : Fin cfg1.N) (k : Fin 12) (hk : k.val = t.val) (p : Fin 128) (q : Fin 500) :
    (iblk1 V c 7 t : Vec F S1x128x500 .f32) (ix3 (0 : Fin 1) p q) = (V c main_v15 : Vec F S12x128x500 .f32) (ix3 k p q) := by
  obtain ⟨-, -, -, -, -, -, -, ⟨e0, e1, e2⟩, -, -⟩ := idx_facts t
  unfold iblk1
  rw [View.read_apply]
  show V c main_v15 _ = V c main_v15 _
  congr 1
  funext a
  apply Fin.ext
  match a with
  | ⟨0, _⟩ => show win1_7.index t (0 : Fin 3) * 1 + 1 * (0 : Fin 1).val = k.val; rw [e0, hk]; simp
  | ⟨1, _⟩ => show win1_7.index t (1 : Fin 3) * 128 + 1 * p.val = p.val; rw [e1]; omega
  | ⟨2, _⟩ => show win1_7.index t (2 : Fin 3) * 500 + 1 * q.val = q.val; rw [e2]; omega

/-- Window 8's block at point t is class t's slab of its operand: entry (0, p, q) of the block is entry (t, p, q) of the array. -/
theorem blk8_apply (c : Dev nD) (t : Fin cfg1.N) (k : Fin 12) (hk : k.val = t.val) (p : Fin 1) (q : Fin 128) :
    (iblk1 V c 8 t : Vec F S1x1x128 .f32) (ix3 (0 : Fin 1) p q) = (V c main_v23 : Vec F S12x1x128 .f32) (ix3 k p q) := by
  obtain ⟨-, -, -, -, -, -, -, -, ⟨e0, e1, e2⟩, -⟩ := idx_facts t
  unfold iblk1
  rw [View.read_apply]
  show V c main_v23 _ = V c main_v23 _
  congr 1
  funext a
  apply Fin.ext
  match a with
  | ⟨0, _⟩ => show win1_8.index t (0 : Fin 3) * 1 + 1 * (0 : Fin 1).val = k.val; rw [e0, hk]; simp
  | ⟨1, _⟩ => show win1_8.index t (1 : Fin 3) * 1 + 1 * p.val = p.val; rw [e1]; omega
  | ⟨2, _⟩ => show win1_8.index t (2 : Fin 3) * 128 + 1 * q.val = q.val; rw [e2]; omega

/-- What grid point t leaves in the output's staging buffer: the body's one store, over the point's nine input blocks. -/
def leaves (c : Dev nD) (t : Fin cfg1.N) : Vec F S1x1024x128 .f32 :=
  out1_9 (iblk1 V c 0 t) (iblk1 V c 1 t) (iblk1 V c 2 t) (iblk1 V c 3 t) (iblk1 V c 4 t) (iblk1 V c 5 t)
    (iblk1 V c 6 t) (iblk1 V c 7 t) (iblk1 V c 8 t)

/-- The whole output as one function of the operands: entry (k, b, j) is entry (0, b, j) of what class k's point leaves. -/
def G (c : Dev nD) : Vec F S12x1024x128 .f32 :=
  fun i => leaves V c (pt (i 0)) (ix3 (0 : Fin 1) (i 1) (i 2))

/-- G at an entry of point t's block, named by its coordinates. -/
theorem G_at (c : Dev nD) (t : Fin cfg1.N) (y : S1x1024x128.Idx) (i : S12x1024x128.Idx)
    (h0 : (i 0).val = t.val) (h1 : (i 1).val = (y 1).val) (h2 : (i 2).val = (y 2).val) :
    G V c i = leaves V c t y := by
  have ht : pt (i 0) = t := Fin.ext h0
  have hy : ix3 (0 : Fin 1) (i 1) (i 2) = y := by
    funext a
    apply Fin.ext
    match a with
    | ⟨0, _⟩ => show (0 : Fin 1).val = (y 0).val; have : (y 0).val < 1 := (y 0).isLt; omega
    | ⟨1, _⟩ => exact h1
    | ⟨2, _⟩ => exact h2
  exact congrArg₂ (leaves V c) ht hy

/-- What point t writes back is block t of G: the write-back moves the whole staging buffer, and entry y of the block
    sits in the array at (t, y 1, y 2). -/
theorem flushed_eq (c : Dev nD) (t : Fin cfg1.N) :
    (dat1 V c).flushed 9 t = ((cfg1.win 9).blk t).view.read (Elt F) (G V c) := by
  show (cfg1.win 9).cut (grid1.coords t) ((dat1 V c).after 9 t) = _
  rw [after1_9]
  obtain ⟨-, -, -, -, -, -, -, -, -, ⟨e0, e1, e2⟩⟩ := idx_facts t
  funext y
  rw [View.read_apply]
  refine Eq.trans ?_ (cast_eq _ _).symm
  show leaves V c t ((cfg1.win 9).xinj (grid1.coords t) y) = _
  refine (G_at V c t ((cfg1.win 9).xinj (grid1.coords t) y) _ ?_ ?_ ?_).symm
  · show win1_9.index t (0 : Fin 3) * 1 + 1 * (y 0).val = t.val
    have : (y 0).val < 1 := (y 0).isLt
    rw [e0]; omega
  · show win1_9.index t (1 : Fin 3) * 1024 + 1 * (y 1).val = (y 1).val
    rw [e1]; omega
  · show win1_9.index t (2 : Fin 3) * 128 + 1 * (y 2).val = (y 2).val
    rw [e2]; omega

/-- An entry of the output is in point t's block iff each coordinate is in the block's range on its axis. -/
theorem mem_blk (t : Fin cfg1.N) (i : S12x1024x128.Idx) :
    i ∈ ((cfg1.win 9).blk t).view.set ↔ ∀ a : Fin 3, win1_9.index t a * S1x1024x128.size a ≤ (i a).val
      ∧ (i a).val < win1_9.index t a * S1x1024x128.size a + S1x1024x128.size a := by
  show i ∈ ((View.whole main_v24).slice (win1_9.rect t)).set ↔ _
  rw [View.set_slice_whole, Rect.mem_set_unit]
  exact Iff.rfl

/-- The twelve blocks tile the output: entry (k, b, j) is in class k's point's block, and every point writes back. -/
theorem cover (i : S12x1024x128.Idx) :
    ∃ t : Fin cfg1.N, (cfg1.win 9).flush t = true ∧ i ∈ ((cfg1.win 9).blk t).view.set := by
  obtain ⟨-, -, -, -, -, -, -, -, -, ⟨e0, e1, e2⟩⟩ := idx_facts (pt (i 0))
  have hp : (pt (i 0)).val = (i 0).val := rfl
  have h0 : (i 0).val < 12 := (i 0).isLt
  have h1 : (i 1).val < 1024 := (i 1).isLt
  have h2 : (i 2).val < 128 := (i 2).isLt
  refine ⟨pt (i 0), flush1_9 _, ?_⟩
  rw [mem_blk]
  intro a
  match a with
  | ⟨0, _⟩ =>
    show win1_9.index (pt (i 0)) (0 : Fin 3) * 1 ≤ (i 0).val ∧ (i 0).val < win1_9.index (pt (i 0)) (0 : Fin 3) * 1 + 1
    rw [e0, hp]; omega
  | ⟨1, _⟩ =>
    show win1_9.index (pt (i 0)) (1 : Fin 3) * 1024 ≤ (i 1).val ∧ (i 1).val < win1_9.index (pt (i 0)) (1 : Fin 3) * 1024 + 1024
    rw [e1]; omega
  | ⟨2, _⟩ =>
    show win1_9.index (pt (i 0)) (2 : Fin 3) * 128 ≤ (i 2).val ∧ (i 2).val < win1_9.index (pt (i 0)) (2 : Fin 3) * 128 + 128
    rw [e2]; omega

/-- So the output array after the last point is G. -/
theorem final (c : Dev nD) : (dat1 V c).arrAt 9 cfg1.N = G V c :=
  (dat1 V c).arrAt_eq_of_cover 9 (G V c) (fun t _ => flushed_eq V c t) cover

/-- G at entry (k, b, j) is entry (0, b, j) of what class k's point leaves. -/
theorem G_ix3 (c : Dev nD) (k : Fin 12) (b : Fin 1024) (j : Fin 128) :
    G V c (ix3 k b j) = leaves V c (pt k) (ix3 (0 : Fin 1) b j) :=
  G_at V c (pt k) (ix3 (0 : Fin 1) b j) (ix3 k b j) rfl rfl rfl

end Blocks

/-- The output array after the last grid point, at entry (k, b, j) with j among the first O columns: the real network's
    output j of batch row b for class k.  The padded columns (j ≥ O) and rows of the last layer are never read here. -/
theorem arr_apply (V : (c : Dev nD) → (b : Ref sig .tc) → Buf (Elt Ideal) ((c : Thread nD τ).loc b)) (c : Dev nD)
    (x : Fin 1024 → Fin 2048 → ℝ) (W1 : Fin 12 → Fin 1000 → Fin 2048 → ℝ) (G1 B1 : Fin 12 → Fin 1000 → ℝ)
    (W2 : Fin 12 → Fin 500 → Fin 1000 → ℝ) (G2 B2 : Fin 12 → Fin 500 → ℝ) {O : ℕ} (hO : O ≤ 128)
    (W3 : Fin 12 → Fin O → Fin 500 → ℝ) (B3 : Fin 12 → Fin O → ℝ)
    (hx : ∀ p q, (V c main_arg0 : FVec Ideal S1024x2048 .f32) (ix2 p q) = ((x p q : ℝ) : EReal))
    (hW1 : ∀ k p q, (V c main_arg10 : FVec Ideal S12x1000x2048 .f32) (ix3 k p q) = ((W1 k p q : ℝ) : EReal))
    (hG1 : ∀ k q, (V c main_v19 : FVec Ideal S12x1x1000 .f32) (ix3 k (0 : Fin 1) q) = ((G1 k q : ℝ) : EReal))
    (hB1 : ∀ k q, (V c main_v20 : FVec Ideal S12x1x1000 .f32) (ix3 k (0 : Fin 1) q) = ((B1 k q : ℝ) : EReal))
    (hW2 : ∀ k p q, (V c main_arg13 : FVec Ideal S12x500x1000 .f32) (ix3 k p q) = ((W2 k p q : ℝ) : EReal))
    (hG2 : ∀ k q, (V c main_v21 : FVec Ideal S12x1x500 .f32) (ix3 k (0 : Fin 1) q) = ((G2 k q : ℝ) : EReal))
    (hB2 : ∀ k q, (V c main_v22 : FVec Ideal S12x1x500 .f32) (ix3 k (0 : Fin 1) q) = ((B2 k q : ℝ) : EReal))
    (hW3 : ∀ k (j : Fin O) q, (V c main_v15 : FVec Ideal S12x128x500 .f32) (ix3 k (Fin.castLE hO j) q)
      = ((W3 k j q : ℝ) : EReal))
    (hB3 : ∀ k (j : Fin O), (V c main_v23 : FVec Ideal S12x1x128 .f32) (ix3 k (0 : Fin 1) (Fin.castLE hO j))
      = ((B3 k j : ℝ) : EReal))
    (k : Fin 12) (b : Fin 1024) (j : Fin O) :
    ((dat1 V c).arrAt 9 cfg1.N : FVec Ideal S12x1024x128 .f32) (ix3 k b (Fin.castLE hO j))
      = ((net x W1 G1 B1 W2 G2 B2 W3 B3 k b j : ℝ) : EReal) := by
  -- the array is G; G at (k, b, j) is what class k's point leaves at (0, b, j)
  refine (congrFun (final V c) (ix3 k b (Fin.castLE hO j))).trans ?_
  refine (G_ix3 V c k b (Fin.castLE hO j)).trans ?_
  -- the network at (k, b, j) is one class's last layer over that class's features
  show _ = ((logit (feat x (W1 k) (G1 k) (B1 k) (W2 k) (G2 k) (B2 k)) (W3 k j) (B3 k j) b : ℝ) : EReal)
  unfold leaves
  -- class k's point stages class k's slabs, which hold the real data
  exact BodyValue1.out_apply x (W1 k) (G1 k) (B1 k) (W2 k) (G2 k) (B2 k) (W3 k j) (B3 k j)
    (iblk1 V c 0 (pt k)) (iblk1 V c 1 (pt k)) (iblk1 V c 2 (pt k)) (iblk1 V c 3 (pt k)) (iblk1 V c 4 (pt k))
    (iblk1 V c 5 (pt k)) (iblk1 V c 6 (pt k)) (iblk1 V c 7 (pt k)) (iblk1 V c 8 (pt k)) b (Fin.castLE hO j)
    (fun p q => (blk0_apply V c (pt k) p q).trans (hx p q))
    (fun p q => (blk1_apply V c (pt k) k rfl p q).trans (hW1 k p q))
    (fun q => (blk2_apply V c (pt k) k rfl (0 : Fin 1) q).trans (hG1 k q))
    (fun q => (blk3_apply V c (pt k) k rfl (0 : Fin 1) q).trans (hB1 k q))
    (fun p q => (blk4_apply V c (pt k) k rfl p q).trans (hW2 k p q))
    (fun q => (blk5_apply V c (pt k) k rfl (0 : Fin 1) q).trans (hG2 k q))
    (fun q => (blk6_apply V c (pt k) k rfl (0 : Fin 1) q).trans (hB2 k q))
    (fun q => (blk7_apply V c (pt k) k rfl (Fin.castLE hO j) q).trans (hW3 k j q))
    ((blk8_apply V c (pt k) k rfl (0 : Fin 1) (Fin.castLE hO j)).trans (hB3 k j))

end Cert.KernelIdeal.RegionValue1

end
-- ==== Proof.LibScatterWindow.lean ====
/- A scatter that writes a whole array as one window, read at one entry.

   `Host.scatter` is a left fold, over all update entries in row-major order, of single-entry overwrites: update entry
   `j` lands on the result entry `resultIdx? j` (window start plus window coordinate, when inside the operand) and
   replaces what is there by the body's value. Read at ONE result entry, such a fold is decided by which items land
   there, by induction on the list; the fold is never evaluated.

   * `overwriteStep`, `foldl_overwriteStep_of_not_land`, `foldl_overwriteStep_set`: the fold of single-entry overwrites
     over any list, for any index and element types: an entry no item lands on is unchanged; when the step keeps the
     item's value, an entry exactly one item lands on holds that item's value.
   * `Host.scatter_eq_foldl`, `Host.scatter_apply_of_not_land`, `Host.scatter_set_apply`: the same for `Host.scatter`,
     for any shapes and dimension numbers.
   * `ScatterDims.start_eq_zero`, `resultIdx?_eq_some_of_start_zero`, `window_of_resultIdx?_eq_some`,
     `window_of_identity`: the landing map when all scatter indices are zero (every window starts at 0) and, with no
     inserted axes, the window axes are the update's axes in order (the window coordinate is the update's coordinate).
   * `Host.scatter_corner_apply`, `Host.scatter_corner_apply_of_outside`: in any rank, such a scatter whose body
     returns the update writes the update array into the operand's corner: inside the update's extents the result holds
     the update's entry with the same coordinates, outside them the operand's. -/
import Idealize.ShloMosaic.PureOps.ShapeOps
import Mathlib.Data.List.FinRange

namespace Idealize.ShloMosaic
section OverwriteFold
variable {ι κ α : Type} [DecidableEq κ]

/-- One step of a fold of single-entry updates: item `n` lands on the entry `land n` (or on none) and replaces what
    is there by `f` of it and the item's value; every other entry is kept. -/
def overwriteStep (land : ι → Option κ) (f : α → α → α) (val : ι → α) (r : κ → α) (n : ι) : κ → α :=
  match land n with
  | some i => fun i' => if i' = i then f (r i) (val n) else r i'
  | none => r

/-- The step leaves alone an entry its item does not land on. -/
theorem overwriteStep_of_ne (land : ι → Option κ) (f : α → α → α) (val : ι → α) (r : κ → α) (n : ι) (i' : κ)
    (h : land n ≠ some i') : overwriteStep land f val r n i' = r i' := by
  unfold overwriteStep
  cases hn : land n with
  | none => rfl
  | some i =>
    have : i' ≠ i := fun e => h (by rw [hn, e])
    simp [this]

/-- The step puts `f` of the old entry and the item's value on the entry its item lands on. -/
theorem overwriteStep_of_eq (land : ι → Option κ) (f : α → α → α) (val : ι → α) (r : κ → α) (n : ι) (i' : κ)
    (h : land n = some i') : overwriteStep land f val r n i' = f (r i') (val n) := by
  unfold overwriteStep
  simp [h]

/-- An entry no item of the list lands on comes out of the fold as it went in. -/
theorem foldl_overwriteStep_of_not_land (land : ι → Option κ) (f : α → α → α) (val : ι → α) (i' : κ) :
    ∀ (l : List ι) (x : κ → α), (∀ n ∈ l, land n ≠ some i') → l.foldl (overwriteStep land f val) x i' = x i'
  | [], _, _ => rfl
  | a :: t, x, h => by
    rw [List.foldl_cons, foldl_overwriteStep_of_not_land land f val i' t _ fun n hn => h n (List.mem_cons_of_mem _ hn)]
    exact overwriteStep_of_ne land f val x a i' (h a List.mem_cons_self)

/-- When the step keeps the item's value (`f = fun _ b => b`): an entry on which exactly one item `n₀` of the list
    lands comes out of the fold holding that item's value. -/
theorem foldl_overwriteStep_set (land : ι → Option κ) (val : ι → α) (i' : κ) (n₀ : ι) (hland : land n₀ = some i') :
    ∀ (l : List ι) (x : κ → α), n₀ ∈ l → (∀ n ∈ l, land n = some i' → n = n₀) →
      l.foldl (overwriteStep land (fun _ b => b) val) x i' = val n₀
  | [], _, hm, _ => absurd hm (List.not_mem_nil)
  | a :: t, x, hm, hu => by
    rw [List.foldl_cons]
    by_cases ht : n₀ ∈ t
    · exact foldl_overwriteStep_set land val i' n₀ hland t _ ht fun n hn => hu n (List.mem_cons_of_mem _ hn)
    · have ha : a = n₀ := by
        rcases List.mem_cons.1 hm with h | h
        · exact h.symm
        · exact absurd h ht
      subst ha
      rw [foldl_overwriteStep_of_not_land land _ val i' t _ fun n hn e => ht (hu n (List.mem_cons_of_mem _ hn) e ▸ hn)]
      exact overwriteStep_of_eq land _ val x a i' hland

end OverwriteFold

section Scatter
variable {s si u : Shape} {α : Type} {w : Nat}

/-- `Host.scatter` is the fold of `overwriteStep` over the update positions in row-major order. -/
theorem Host.scatter_eq_foldl (d : ScatterDims s si u) (f : α → α → α) (x : s.Idx → α) (idx : IVec si w) (upd : u.Idx → α) :
    Host.scatter d f x idx upd
      = (List.finRange u.numel).foldl
          (overwriteStep (fun n => d.resultIdx? (u.rowMajor.symm n) idx) f (fun n => upd (u.rowMajor.symm n))) x := by
  unfold Host.scatter
  congr 1
  funext r n
  unfold overwriteStep
  beta_reduce
  cases d.resultIdx? (u.rowMajor.symm n) idx <;> rfl

/-- A result entry no update entry lands on holds the operand's entry. -/
theorem Host.scatter_apply_of_not_land (d : ScatterDims s si u) (f : α → α → α) (x : s.Idx → α) (idx : IVec si w)
    (upd : u.Idx → α) (i' : s.Idx) (h : ∀ j, d.resultIdx? j idx ≠ some i') : Host.scatter d f x idx upd i' = x i' := by
  rw [Host.scatter_eq_foldl]
  exact foldl_overwriteStep_of_not_land _ f _ i' _ x fun n _ => h _

/-- A scatter whose body returns the update: a result entry on which exactly one update entry `j₀` lands holds the
    update's entry `j₀`. -/
theorem Host.scatter_set_apply (d : ScatterDims s si u) (x : s.Idx → α) (idx : IVec si w) (upd : u.Idx → α)
    (i' : s.Idx) (j₀ : u.Idx) (hland : d.resultIdx? j₀ idx = some i')
    (huniq : ∀ j, d.resultIdx? j idx = some i' → j = j₀) :
    Host.scatter d (fun _ b => b) x idx upd i' = upd j₀ := by
  rw [Host.scatter_eq_foldl]
  have := foldl_overwriteStep_set (fun n => d.resultIdx? (u.rowMajor.symm n) idx) (fun n => upd (u.rowMajor.symm n)) i'
    (u.rowMajor j₀) (by simpa using hland) (List.finRange u.numel) x (List.mem_finRange _)
    (fun n _ hn => (Equiv.symm_apply_eq _).1 (huniq _ hn))
  simpa using this

namespace ScatterDims
variable (d : ScatterDims s si u)

/-- Scatter indices that are all zero start every window at `0` on every operand axis. -/
theorem start_eq_zero (j : u.Idx) (idx : IVec si w) (hidx : ∀ i, idx i = 0#w) (a : Fin s.rank) : d.start j idx a = 0 := by
  unfold start
  split
  · rw [hidx]; exact BitVec.toInt_zero
  · rfl

/-- With the window starting at `0`, an update entry whose window coordinates are those of `i` lands on `i`. -/
theorem resultIdx?_eq_some_of_start_zero (j : u.Idx) (idx : IVec si w) (hs : ∀ a, d.start j idx a = 0) (i : s.Idx)
    (hi : ∀ a, d.window j a = (i a).val) : d.resultIdx? j idx = some i := by
  unfold resultIdx?
  have h : ∀ a, 0 ≤ d.start j idx a + d.window j a ∧ d.start j idx a + d.window j a < s.size a := by
    intro a; rw [hs a, hi a]; have := (i a).isLt; omega
  rw [dif_pos h]
  congr 1; funext a; apply Fin.ext; simp [hs a, hi a]

/-- With the window starting at `0`, an update entry that lands on `i` has `i`'s coordinates as window coordinates. -/
theorem window_of_resultIdx?_eq_some (j : u.Idx) (idx : IVec si w) (hs : ∀ a, d.start j idx a = 0) (i : s.Idx)
    (h : d.resultIdx? j idx = some i) (a : Fin s.rank) : d.window j a = (i a).val := by
  unfold resultIdx? at h
  split at h
  · have := congrFun (Option.some.inj h) a
    rw [← this]; simp [hs a]
  · exact absurd h (by simp)

/-- No inserted axes and the update's axes, in order, as window axes: the window coordinate on an operand axis is the
    update index's coordinate on the same axis. -/
theorem window_of_identity (hr : u.rank = s.rank) (hins : d.insertedWindowDims = [])
    (huw : d.updateWindowDims = List.finRange u.rank) (j : u.Idx) (a : Fin s.rank) :
    d.window j a = (j (a.cast hr.symm)).val := by
  have hk : d.sKept = List.finRange s.rank := by
    show s.kept d.insertedWindowDims = _
    rw [hins]; unfold Shape.kept
    exact List.filter_eq_self.2 fun x _ => by simp
  have ha : a ∈ d.sKept := by rw [hk]; exact List.mem_finRange a
  have hx : ∀ h, d.updateWindowDims[d.sKept.idxOf a]'h = a.cast hr.symm := by
    intro h
    apply Fin.ext
    have e1 : d.sKept.idxOf a = a.val := by rw [hk]; exact List.idxOf_finRange a
    rw [List.getElem_of_eq huw, List.getElem_finRange]
    simpa using e1
  unfold window
  rw [dif_pos ha, hx]

end ScatterDims

/-- A WHOLE-ARRAY WINDOW AT THE CORNER. A scatter whose body returns the update, with no inserted axes, the update's
    axes in order as window axes and all scatter indices zero, writes the update array into the operand's corner: the
    result's entry at an index whose coordinates are those of the update index `j₀` is the update's entry `j₀`. -/
theorem Host.scatter_corner_apply (d : ScatterDims s si u) (hr : u.rank = s.rank) (hins : d.insertedWindowDims = [])
    (huw : d.updateWindowDims = List.finRange u.rank) (x : s.Idx → α) (idx : IVec si w) (hidx : ∀ i, idx i = 0#w)
    (upd : u.Idx → α) (i' : s.Idx) (j₀ : u.Idx) (hc : ∀ a : Fin s.rank, (i' a).val = (j₀ (a.cast hr.symm)).val) :
    Host.scatter d (fun _ b => b) x idx upd i' = upd j₀ := by
  have hs : ∀ j a, d.start j idx a = 0 := fun j a => d.start_eq_zero j idx hidx a
  refine Host.scatter_set_apply d x idx upd i' j₀ ?_ ?_
  · exact d.resultIdx?_eq_some_of_start_zero j₀ idx (hs j₀) i' fun a => by rw [d.window_of_identity hr hins huw, hc]
  · intro j hj
    funext b
    apply Fin.ext
    have h1 := d.window_of_resultIdx?_eq_some j idx (hs j) i' hj (b.cast hr)
    rw [d.window_of_identity hr hins huw, hc] at h1
    simpa using h1

end Scatter

end Idealize.ShloMosaic

namespace Idealize.ShloMosaic
section
variable {s si u : Shape} {α : Type} {w : Nat}

/-- OUTSIDE THE CORNER. Under the same dimension numbers and zero scatter indices, a result entry with a coordinate at or
    past the update's extent on that axis is met by no update entry and holds the operand's entry, whatever the body. -/
theorem Host.scatter_corner_apply_of_outside (d : ScatterDims s si u) (hr : u.rank = s.rank)
    (hins : d.insertedWindowDims = []) (huw : d.updateWindowDims = List.finRange u.rank) (f : α → α → α)
    (x : s.Idx → α) (idx : IVec si w) (hidx : ∀ i, idx i = 0#w) (upd : u.Idx → α) (i' : s.Idx) (a : Fin s.rank)
    (ha : u.size (a.cast hr.symm) ≤ (i' a).val) : Host.scatter d f x idx upd i' = x i' := by
  refine Host.scatter_apply_of_not_land d f x idx upd i' fun j hj => ?_
  have h1 := d.window_of_resultIdx?_eq_some j idx (fun b => d.start_eq_zero j idx hidx b) i' hj a
  rw [d.window_of_identity hr hins huw] at h1
  have := (j (a.cast hr.symm)).isLt
  omega

end
end Idealize.ShloMosaic
-- ==== Proof.PadRead.lean ====
/- Zero-padding by a scatter, read back inside the window.

   The wrapper pads the last layer's weights [12, O, 500] and bias [12, O] to 128 rows by writing the whole array as one
   update window into an array of zeros, at start 0 on the padded axis.  A scatter whose body returns the update is a
   fold of single-entry overwrites over all update entries; each update entry lands on its own entry of the result
   (start 0 plus its window coordinate), distinct entries land apart, so inside the window the result holds the
   update's entry: `Host.scatter_corner_apply`, of which the program's four scatters are instances (no inserted axes,
   the update's axes in order as window axes; the coordinates of the entry read are those of the update's entry). -/
import proofs.«424157_j48696339202298_3_alg».proof.KernelIdeal
import proofs.«424157_j48696339202298_3_alg».proof.Proof.LibScatterWindow
import Idealize.ShloMosaic.Lib.ValueIdx

noncomputable section

namespace Cert.KernelIdeal.PadRead

open Idealize.ShloMosaic Idealize.ShloMosaic.ValueIdx Cert.KernelIdeal

variable [Facts]
open Facts₀ Facts

theorem weights100 (z : FVec Ideal S12x128x500 .f32) (idx : IVec S1 32) (hidx : ∀ i, idx i = 0#32)
    (u : FVec Ideal S12x100x500 .f32) (k : Fin 12) (j : Fin 100) (q : Fin 500) :
    Host.scatter scatter_S12x128x500_S1_S12x100x500_012_n_1_0 (fun _ b => b) z idx u
        (ix3 k (Fin.castLE (by decide : 100 ≤ 128) j) q) = u (ix3 k j q) :=
  Host.scatter_corner_apply scatter_S12x128x500_S1_S12x100x500_012_n_1_0 rfl rfl rfl z idx hidx u _ _ fun a => match a with
    | ⟨0, _⟩ => rfl | ⟨1, _⟩ => rfl | ⟨2, _⟩ => rfl

theorem bias100 (z : FVec Ideal S12x128 .f32) (idx : IVec S1 32) (hidx : ∀ i, idx i = 0#32)
    (u : FVec Ideal S12x100 .f32) (k : Fin 12) (j : Fin 100) :
    Host.scatter scatter_S12x128_S1_S12x100_01_n_1_0 (fun _ b => b) z idx u
        (ix2 k (Fin.castLE (by decide : 100 ≤ 128) j)) = u (ix2 k j) :=
  Host.scatter_corner_apply scatter_S12x128_S1_S12x100_01_n_1_0 rfl rfl rfl z idx hidx u _ _ fun a => match a with
    | ⟨0, _⟩ => rfl | ⟨1, _⟩ => rfl

theorem weights3 (z : FVec Ideal S12x128x500 .f32) (idx : IVec S1 32) (hidx : ∀ i, idx i = 0#32)
    (u : FVec Ideal S12x3x500 .f32) (k : Fin 12) (j : Fin 3) (q : Fin 500) :
    Host.scatter scatter_S12x128x500_S1_S12x3x500_012_n_1_0 (fun _ b => b) z idx u
        (ix3 k (Fin.castLE (by decide : 3 ≤ 128) j) q) = u (ix3 k j q) :=
  Host.scatter_corner_apply scatter_S12x128x500_S1_S12x3x500_012_n_1_0 rfl rfl rfl z idx hidx u _ _ fun a => match a with
    | ⟨0, _⟩ => rfl | ⟨1, _⟩ => rfl | ⟨2, _⟩ => rfl

theorem bias3 (z : FVec Ideal S12x128 .f32) (idx : IVec S1 32) (hidx : ∀ i, idx i = 0#32)
    (u : FVec Ideal S12x3 .f32) (k : Fin 12) (j : Fin 3) :
    Host.scatter scatter_S12x128_S1_S12x3_01_n_1_0 (fun _ b => b) z idx u
        (ix2 k (Fin.castLE (by decide : 3 ≤ 128) j)) = u (ix2 k j) :=
  Host.scatter_corner_apply scatter_S12x128_S1_S12x3_01_n_1_0 rfl rfl rfl z idx hidx u _ _ fun a => match a with
    | ⟨0, _⟩ => rfl | ⟨1, _⟩ => rfl

end Cert.KernelIdeal.PadRead

end
-- ==== Proof.KernelValue.lean ====
/- The kernel program's two results as functions of its arguments.

   Through @main's fold: the stretch before the first call pads the last layer's weights and bias with zeros and gives
   the per-class vectors a unit axis; the first call leaves the first head's padded outputs; the stretch between slices
   the first 100 columns and prepares the second head's operands; the second call; the last stretch slices 3 columns,
   turns the labels into (class, row) pairs and gathers one row per batch element from each head.  On real data each
   sliced array is the spec array of Spec.lean. -/
import proofs.«424157_j48696339202298_3_alg».proof.Proof.KernelRun
import proofs.«424157_j48696339202298_3_alg».proof.Proof.RegionValue0
import proofs.«424157_j48696339202298_3_alg».proof.Proof.RegionValue1
import proofs.«424157_j48696339202298_3_alg».proof.Proof.PadRead
import proofs.«424157_j48696339202298_3_alg».proof.Proof.Spec
import Idealize.ShloMosaic.Lib.StableHlo.Run
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem Cert.HeadNet Cert.Spec
open Cert.KernelIdeal Cert.KernelIdeal.Gen

/-- Per batch element, the pair (its label, wrapped by 12 when negative; its row number, wrapped by 1024). -/
def labelPairs (lab : IVec S1024x1 32) : IVec S1024x2 32 :=
  concatenate S1024x2 1
    [⟨S1024x1, broadcastInDim S1024x1 ![0] bcast_S1024_S1024x1_0
        (select (cmpi .slt (shapeCast S1024 lab shapeCasts_S1024x1_S1024)
            (broadcastInDim S1024 ![] bcast_S_S1024 (constantI S_ 32 0#32)))
          (addi (shapeCast S1024 lab shapeCasts_S1024x1_S1024)
            (broadcastInDim S1024 ![] bcast_S_S1024 (constantI S_ 32 12#32)))
          (shapeCast S1024 lab shapeCasts_S1024x1_S1024))⟩,
     ⟨S1024x1, broadcastInDim S1024x1 ![0] bcast_S1024_S1024x1_0
        (select (cmpi .slt (iotaInDim S1024 32 0) (broadcastInDim S1024 ![] bcast_S_S1024 (constantI S_ 32 0#32)))
          (addi (iotaInDim S1024 32 0) (broadcastInDim S1024 ![] bcast_S_S1024 (constantI S_ 32 1024#32)))
          (iotaInDim S1024 32 0))⟩]
    concatenates_S1024x1_S1024x1_S1024x2_d1

def pick100 (Y : FVec Ideal S12x1024x100 .f32) (lab : IVec S1024x1 32) : FVec Ideal S1024x100 .f32 :=
  Host.gather gather_S12x1024x100_S1024x2_S1024x100_1_01_n_n_01_1_11100 Y (labelPairs lab)

def pick3 (Y : FVec Ideal S12x1024x3 .f32) (lab : IVec S1024x1 32) : FVec Ideal S1024x3 .f32 :=
  Host.gather gather_S12x1024x3_S1024x2_S1024x3_1_01_n_n_01_1_113 Y (labelPairs lab)

variable (m : (ℓ : Loc nD τ sig) → Buf (Elt Ideal) ℓ) (ρ : Dev nD → PrngReg)

/-- The stretch writes only the result buffers of its operations, none of which is the named one. -/
local macro "nw" r:term : term => `(StableHlo.after_of_forall_not_mem (b := Proc.devRef .tc $r) _ _ (List.forall_iff_forall_mem.mp (by
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-! ## The first call's operands as the region finds them

Before the first call the wrapper leaves the batch and the two big weight arrays alone, gives each per-class vector a
unit middle axis, and pads the last layer's weights and bias with zeros. -/

theorem W1_arg0 (c : Dev nD) : W1 m ρ c (Proc.devRef .tc main_arg0) = m ((c : Thread nD τ).loc main_arg0) :=
  (nw main_arg0).trans rfl
theorem W1_arg2 (c : Dev nD) : W1 m ρ c (Proc.devRef .tc main_arg2) = m ((c : Thread nD τ).loc main_arg2) :=
  (nw main_arg2).trans rfl
theorem W1_arg5 (c : Dev nD) : W1 m ρ c (Proc.devRef .tc main_arg5) = m ((c : Thread nD τ).loc main_arg5) :=
  (nw main_arg5).trans rfl

theorem V1_v6 (c : Dev nD) : (V1 m ρ c main_v6 : FVec Ideal S12x1x1000 .f32)
    = broadcastInDim S12x1x1000 ![0, 2] bcast_S12x1000_S12x1x1000_0_2 (m ((c : Thread nD τ).loc main_arg3)) := by
  dsimp only [V1, W1, hostOps0]; after_results; all_goals rfl
theorem V1_v7 (c : Dev nD) : (V1 m ρ c main_v7 : FVec Ideal S12x1x1000 .f32)
    = broadcastInDim S12x1x1000 ![0, 2] bcast_S12x1000_S12x1x1000_0_2 (m ((c : Thread nD τ).loc main_arg4)) := by
  dsimp only [V1, W1, hostOps0]; after_results; all_goals rfl
theorem V1_v8 (c : Dev nD) : (V1 m ρ c main_v8 : FVec Ideal S12x1x500 .f32)
    = broadcastInDim S12x1x500 ![0, 2] bcast_S12x500_S12x1x500_0_2 (m ((c : Thread nD τ).loc main_arg6)) := by
  dsimp only [V1, W1, hostOps0]; after_results; all_goals rfl
theorem V1_v9 (c : Dev nD) : (V1 m ρ c main_v9 : FVec Ideal S12x1x500 .f32)
    = broadcastInDim S12x1x500 ![0, 2] bcast_S12x500_S12x1x500_0_2 (m ((c : Thread nD τ).loc main_arg7)) := by
  dsimp only [V1, W1, hostOps0]; after_results; all_goals rfl
theorem V1_v2 (c : Dev nD) : (V1 m ρ c main_v2 : FVec Ideal S12x128x500 .f32)
    = Host.scatter scatter_S12x128x500_S1_S12x100x500_012_n_1_0 (fun _ b => b)
        (broadcastInDim S12x128x500 ![] bcast_S_S12x128x500 (constant (F := Ideal) S_ .f32 0x00000000#32))
        (broadcastInDim S1 ![] bcast_S_S1 (constantI S_ 32 0#32))
        (m ((c : Thread nD τ).loc main_arg8)) := by
  dsimp only [V1, W1, hostOps0]; after_results; all_goals rfl
theorem V1_v10 (c : Dev nD) : (V1 m ρ c main_v10 : FVec Ideal S12x1x128 .f32)
    = broadcastInDim S12x1x128 ![0, 2] bcast_S12x128_S12x1x128_0_2
        (Host.scatter scatter_S12x128_S1_S12x100_01_n_1_0 (fun _ b => b)
          (broadcastInDim S12x128 ![] bcast_S_S12x128 (constant (F := Ideal) S_ .f32 0x00000000#32))
          (broadcastInDim S1 ![] bcast_S_S1 (constantI S_ 32 0#32))
          (m ((c : Thread nD τ).loc main_arg9))) := by
  dsimp only [V1, W1, hostOps0]; after_results; all_goals rfl

/-- The first 100 columns of the first call's output are the first head's spec array. -/
theorem Y0_eq (c : Dev nD)
    (h0 : IsReal (m ((c : Thread nD τ).loc main_arg0))) (h2 : IsReal (m ((c : Thread nD τ).loc main_arg2)))
    (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6)))
    (h7 : IsReal (m ((c : Thread nD τ).loc main_arg7))) (h8 : IsReal (m ((c : Thread nD τ).loc main_arg8)))
    (h9 : IsReal (m ((c : Thread nD τ).loc main_arg9))) :
    extractStridedSlice S12x1024x100 ![0, 0, 0] ((dat0 (V1 m ρ) c).arrAt 9 cfg0.N : FVec Ideal S12x1024x128 .f32)
        slices_S12x1024x128_S12x1024x100_0_0_0
      = specY (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) := by
  refine Spec.eq_specY _ _ _ _ _ _ _ _ _ _ fun k b j => ?_
  refine (extractStridedSlice_apply _ _ _ (ix3 k b j) (ix3 k b (Fin.castLE (by decide : 100 ≤ 128) j))
    (fun a => by fin_cases a <;> simp)).trans ?_
  exact RegionValue0.arr_apply (V1 m ρ) c _ _ _ _ _ _ _ (by decide) _ _
    (fun p q => (congrFun (W1_arg0 m ρ c) (ix2 p q)).trans (re2_coe h0 p q))
    (fun k p q => (congrFun (W1_arg2 m ρ c) (ix3 k p q)).trans (re3_coe h2 k p q))
    (fun k q => (congrFun (V1_v6 m ρ c) (ix3 k 0 q)).trans
      ((broadcastInDim_apply _ _ _ _ (ix2 k q) (fun a => by fin_cases a <;> rfl)).trans (re2_coe h3 k q)))
    (fun k q => (congrFun (V1_v7 m ρ c) (ix3 k 0 q)).trans
      ((broadcastInDim_apply _ _ _ _ (ix2 k q) (fun a => by fin_cases a <;> rfl)).trans (re2_coe h4 k q)))
    (fun k p q => (congrFun (W1_arg5 m ρ c) (ix3 k p q)).trans (re3_coe h5 k p q))
    (fun k q => (congrFun (V1_v8 m ρ c) (ix3 k 0 q)).trans
      ((broadcastInDim_apply _ _ _ _ (ix2 k q) (fun a => by fin_cases a <;> rfl)).trans (re2_coe h6 k q)))
    (fun k q => (congrFun (V1_v9 m ρ c) (ix3 k 0 q)).trans
      ((broadcastInDim_apply _ _ _ _ (ix2 k q) (fun a => by fin_cases a <;> rfl)).trans (re2_coe h7 k q)))
    (fun k j q => (congrFun (V1_v2 m ρ c) _).trans
      ((PadRead.weights100 _ _ (fun _ => rfl) _ k j q).trans (re3_coe h8 k j q)))
    (fun k j => (congrFun (V1_v10 m ρ c) _).trans
      ((broadcastInDim_apply _ _ _ _ (ix2 k (Fin.castLE (by decide : 100 ≤ 128) j)) (fun a => by fin_cases a <;> rfl)).trans
        ((PadRead.bias100 _ _ (fun _ => rfl) _ k j).trans (re2_coe h9 k j))))
    k b j

/-! ## The second call's operands as the region finds them

The first call leaves its input arrays as it found them and touches no other argument; the stretch between the calls
prepares the second head's operands the same way as the first's. -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg10 (c : Dev nD) : W2 m ρ c (Proc.devRef .tc main_arg10) = m ((c : Thread nD τ).loc main_arg10) :=
  (W2_of_ne m ρ c main_arg10 (by decide)).trans ((nw main_arg10).trans rfl)
theorem W2_arg11 (c : Dev nD) : W2 m ρ c (Proc.devRef .tc main_arg11) = m ((c : Thread nD τ).loc main_arg11) :=
  (W2_of_ne m ρ c main_arg11 (by decide)).trans ((nw main_arg11).trans rfl)
theorem W2_arg12 (c : Dev nD) : W2 m ρ c (Proc.devRef .tc main_arg12) = m ((c : Thread nD τ).loc main_arg12) :=
  (W2_of_ne m ρ c main_arg12 (by decide)).trans ((nw main_arg12).trans rfl)
theorem W2_arg13 (c : Dev nD) : W2 m ρ c (Proc.devRef .tc main_arg13) = m ((c : Thread nD τ).loc main_arg13) :=
  (W2_of_ne m ρ c main_arg13 (by decide)).trans ((nw main_arg13).trans rfl)
theorem W2_arg14 (c : Dev nD) : W2 m ρ c (Proc.devRef .tc main_arg14) = m ((c : Thread nD τ).loc main_arg14) :=
  (W2_of_ne m ρ c main_arg14 (by decide)).trans ((nw main_arg14).trans rfl)
theorem W2_arg15 (c : Dev nD) : W2 m ρ c (Proc.devRef .tc main_arg15) = m ((c : Thread nD τ).loc main_arg15) :=
  (W2_of_ne m ρ c main_arg15 (by decide)).trans ((nw main_arg15).trans rfl)
theorem W2_arg16 (c : Dev nD) : W2 m ρ c (Proc.devRef .tc main_arg16) = m ((c : Thread nD τ).loc main_arg16) :=
  (W2_of_ne m ρ c main_arg16 (by decide)).trans ((nw main_arg16).trans rfl)
theorem W2_arg17 (c : Dev nD) : W2 m ρ c (Proc.devRef .tc main_arg17) = m ((c : Thread nD τ).loc main_arg17) :=
  (W2_of_ne m ρ c main_arg17 (by decide)).trans ((nw main_arg17).trans rfl)

theorem W3_arg0 (c : Dev nD) : W3 m ρ c (Proc.devRef .tc main_arg0) = m ((c : Thread nD τ).loc main_arg0) :=
  (nw main_arg0).trans (W2_arg0 m ρ c)
theorem W3_arg10 (c : Dev nD) : W3 m ρ c (Proc.devRef .tc main_arg10) = m ((c : Thread nD τ).loc main_arg10) :=
  (nw main_arg10).trans (W2_arg10 m ρ c)
theorem W3_arg13 (c : Dev nD) : W3 m ρ c (Proc.devRef .tc main_arg13) = m ((c : Thread nD τ).loc main_arg13) :=
  (nw main_arg13).trans (W2_arg13 m ρ c)

theorem V3_v19 (c : Dev nD) : (V3 m ρ c main_v19 : FVec Ideal S12x1x1000 .f32)
    = broadcastInDim S12x1x1000 ![0, 2] bcast_S12x1000_S12x1x1000_0_2 (m ((c : Thread nD τ).loc main_arg11)) := by
  have e : (V3 m ρ c main_v19 : FVec Ideal S12x1x1000 .f32)
      = broadcastInDim S12x1x1000 ![0, 2] bcast_S12x1000_S12x1x1000_0_2 (W2 m ρ c (Proc.devRef .tc main_arg11)) := by
    dsimp only [V3, W3, hostOps1]; after_results; all_goals rfl
  exact e.trans (congrArg (broadcastInDim S12x1x1000 ![0, 2] bcast_S12x1000_S12x1x1000_0_2) (W2_arg11 m ρ c))
theorem V3_v20 (c : Dev nD) : (V3 m ρ c main_v20 : FVec Ideal S12x1x1000 .f32)
    = broadcastInDim S12x1x1000 ![0, 2] bcast_S12x1000_S12x1x1000_0_2 (m ((c : Thread nD τ).loc main_arg12)) := by
  have e : (V3 m ρ c main_v20 : FVec Ideal S12x1x1000 .f32)
      = broadcastInDim S12x1x1000 ![0, 2] bcast_S12x1000_S12x1x1000_0_2 (W2 m ρ c (Proc.devRef .tc main_arg12)) := by
    dsimp only [V3, W3, hostOps1]; after_results; all_goals rfl
  exact e.trans (congrArg (broadcastInDim S12x1x1000 ![0, 2] bcast_S12x1000_S12x1x1000_0_2) (W2_arg12 m ρ c))
theorem V3_v21 (c : Dev nD) : (V3 m ρ c main_v21 : FVec Ideal S12x1x500 .f32)
    = broadcastInDim S12x1x500 ![0, 2] bcast_S12x500_S12x1x500_0_2 (m ((c : Thread nD τ).loc main_arg14)) := by
  have e : (V3 m ρ c main_v21 : FVec Ideal S12x1x500 .f32)
      = broadcastInDim S12x1x500 ![0, 2] bcast_S12x500_S12x1x500_0_2 (W2 m ρ c (Proc.devRef .tc main_arg14)) := by
    dsimp only [V3, W3, hostOps1]; after_results; all_goals rfl
  exact e.trans (congrArg (broadcastInDim S12x1x500 ![0, 2] bcast_S12x500_S12x1x500_0_2) (W2_arg14 m ρ c))
theorem V3_v22 (c : Dev nD) : (V3 m ρ c main_v22 : FVec Ideal S12x1x500 .f32)
    = broadcastInDim S12x1x500 ![0, 2] bcast_S12x500_S12x1x500_0_2 (m ((c : Thread nD τ).loc main_arg15)) := by
  have e : (V3 m ρ c main_v22 : FVec Ideal S12x1x500 .f32)
      = broadcastInDim S12x1x500 ![0, 2] bcast_S12x500_S12x1x500_0_2 (W2 m ρ c (Proc.devRef .tc main_arg15)) := by
    dsimp only [V3, W3, hostOps1]; after_results; all_goals rfl
  exact e.trans (congrArg (broadcastInDim S12x1x500 ![0, 2] bcast_S12x500_S12x1x500_0_2) (W2_arg15 m ρ c))
theorem V3_v15 (c : Dev nD) : (V3 m ρ c main_v15 : FVec Ideal S12x128x500 .f32)
    = Host.scatter scatter_S12x128x500_S1_S12x3x500_012_n_1_0 (fun _ b => b)
        (broadcastInDim S12x128x500 ![] bcast_S_S12x128x500 (constant (F := Ideal) S_ .f32 0x00000000#32))
        (broadcastInDim S1 ![] bcast_S_S1 (constantI S_ 32 0#32))
        (m ((c : Thread nD τ).loc main_arg16)) := by
  have e : (V3 m ρ c main_v15 : FVec Ideal S12x128x500 .f32)
      = Host.scatter scatter_S12x128x500_S1_S12x3x500_012_n_1_0 (fun _ b => b)
        (broadcastInDim S12x128x500 ![] bcast_S_S12x128x500 (constant (F := Ideal) S_ .f32 0x00000000#32))
        (broadcastInDim S1 ![] bcast_S_S1 (constantI S_ 32 0#32))
        (W2 m ρ c (Proc.devRef .tc main_arg16)) := by
    dsimp only [V3, W3, hostOps1]; after_results; all_goals rfl
  exact e.trans (congrArg (Host.scatter scatter_S12x128x500_S1_S12x3x500_012_n_1_0 (fun _ b => b)
        (broadcastInDim S12x128x500 ![] bcast_S_S12x128x500 (constant (F := Ideal) S_ .f32 0x00000000#32))
        (broadcastInDim S1 ![] bcast_S_S1 (constantI S_ 32 0#32))) (W2_arg16 m ρ c))
theorem V3_v23 (c : Dev nD) : (V3 m ρ c main_v23 : FVec Ideal S12x1x128 .f32)
    = broadcastInDim S12x1x128 ![0, 2] bcast_S12x128_S12x1x128_0_2
        (Host.scatter scatter_S12x128_S1_S12x3_01_n_1_0 (fun _ b => b)
          (broadcastInDim S12x128 ![] bcast_S_S12x128 (constant (F := Ideal) S_ .f32 0x00000000#32))
          (broadcastInDim S1 ![] bcast_S_S1 (constantI S_ 32 0#32))
          (m ((c : Thread nD τ).loc main_arg17))) := by
  dsimp only [V3, W3, hostOps1]; after_results
  rw [W2_arg17]

/-- The first 3 columns of the second call's output are the second head's spec array. -/
theorem Y1_eq (c : Dev nD)
    (h0 : IsReal (m ((c : Thread nD τ).loc main_arg0))) (h10 : IsReal (m ((c : Thread nD τ).loc main_arg10)))
    (h11 : IsReal (m ((c : Thread nD τ).loc main_arg11))) (h12 : IsReal (m ((c : Thread nD τ).loc main_arg12)))
    (h13 : IsReal (m ((c : Thread nD τ).loc main_arg13))) (h14 : IsReal (m ((c : Thread nD τ).loc main_arg14)))
    (h15 : IsReal (m ((c : Thread nD τ).loc main_arg15))) (h16 : IsReal (m ((c : Thread nD τ).loc main_arg16)))
    (h17 : IsReal (m ((c : Thread nD τ).loc main_arg17))) :
    extractStridedSlice S12x1024x3 ![0, 0, 0] ((dat1 (V3 m ρ) c).arrAt 9 cfg1.N : FVec Ideal S12x1024x128 .f32)
        slices_S12x1024x128_S12x1024x3_0_0_0
      = specY (m ((c : Thread nD τ).loc main_arg0)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16))
          (m ((c : Thread nD τ).loc main_arg17)) := by
  refine Spec.eq_specY _ _ _ _ _ _ _ _ _ _ fun k b j => ?_
  refine (extractStridedSlice_apply _ _ _ (ix3 k b j) (ix3 k b (Fin.castLE (by decide : 3 ≤ 128) j))
    (fun a => by fin_cases a <;> simp)).trans ?_
  exact RegionValue1.arr_apply (V3 m ρ) c _ _ _ _ _ _ _ (by decide) _ _
    (fun p q => (congrFun (W3_arg0 m ρ c) (ix2 p q)).trans (re2_coe h0 p q))
    (fun k p q => (congrFun (W3_arg10 m ρ c) (ix3 k p q)).trans (re3_coe h10 k p q))
    (fun k q => (congrFun (V3_v19 m ρ c) (ix3 k 0 q)).trans
      ((broadcastInDim_apply _ _ _ _ (ix2 k q) (fun a => by fin_cases a <;> rfl)).trans (re2_coe h11 k q)))
    (fun k q => (congrFun (V3_v20 m ρ c) (ix3 k 0 q)).trans
      ((broadcastInDim_apply _ _ _ _ (ix2 k q) (fun a => by fin_cases a <;> rfl)).trans (re2_coe h12 k q)))
    (fun k p q => (congrFun (W3_arg13 m ρ c) (ix3 k p q)).trans (re3_coe h13 k p q))
    (fun k q => (congrFun (V3_v21 m ρ c) (ix3 k 0 q)).trans
      ((broadcastInDim_apply _ _ _ _ (ix2 k q) (fun a => by fin_cases a <;> rfl)).trans (re2_coe h14 k q)))
    (fun k q => (congrFun (V3_v22 m ρ c) (ix3 k 0 q)).trans
      ((broadcastInDim_apply _ _ _ _ (ix2 k q) (fun a => by fin_cases a <;> rfl)).trans (re2_coe h15 k q)))
    (fun k j q => (congrFun (V3_v15 m ρ c) _).trans
      ((PadRead.weights3 _ _ (fun _ => rfl) _ k j q).trans (re3_coe h16 k j q)))
    (fun k j => (congrFun (V3_v23 m ρ c) _).trans
      ((broadcastInDim_apply _ _ _ _ (ix2 k (Fin.castLE (by decide : 3 ≤ 128) j)) (fun a => by fin_cases a <;> rfl)).trans
        ((PadRead.bias3 _ _ (fun _ => rfl) _ k j).trans (re2_coe h17 k j))))
    k b j

/-! ## The two results' operands at the last boundary -/

/-- The labels reach the last stretch as launched: no stretch writes them and neither call has them as an array. -/
theorem W4_arg1 (c : Dev nD) : W4 m ρ c (Proc.devRef .tc main_arg1) = m ((c : Thread nD τ).loc main_arg1) :=
  (W4_of_ne m ρ c main_arg1 (by decide)).trans ((nw main_arg1).trans
    ((W2_of_ne m ρ c main_arg1 (by decide)).trans ((nw main_arg1).trans rfl)))

/-- The first head's sliced output, made between the calls, is what the second call (which does not have it as an
    array) leaves there: the first 100 columns of what the first call's write-backs leave. -/
theorem W4_v12 (c : Dev nD) : (W4 m ρ c (Proc.devRef .tc main_v12) : FVec Ideal S12x1024x100 .f32)
    = extractStridedSlice S12x1024x100 ![0, 0, 0] ((dat0 (V1 m ρ) c).arrAt 9 cfg0.N : FVec Ideal S12x1024x128 .f32)
        slices_S12x1024x128_S12x1024x100_0_0_0 := by
  have e : (W3 m ρ c (Proc.devRef .tc main_v12) : FVec Ideal S12x1024x100 .f32)
      = extractStridedSlice S12x1024x100 ![0, 0, 0] (W2 m ρ c (Proc.devRef .tc main_v11) : FVec Ideal S12x1024x128 .f32)
        slices_S12x1024x128_S12x1024x100_0_0_0 := by
    dsimp only [W3, hostOps1]; after_results; all_goals rfl
  exact (W4_of_ne m ρ c main_v12 (by decide)).trans (e.trans
    (congrArg (fun x : FVec Ideal S12x1024x128 .f32 => extractStridedSlice S12x1024x100 ![0, 0, 0] x slices_S12x1024x128_S12x1024x100_0_0_0)
      (W2_arr m ρ c 9)))

/-- The second call's output array at the last boundary is what its write-backs leave. -/
theorem W4_v24 (c : Dev nD) : (W4 m ρ c (Proc.devRef .tc main_v24) : FVec Ideal S12x1024x128 .f32)
    = (dat1 (V3 m ρ) c).arrAt 9 cfg1.N := W4_arr m ρ c 9

/-! ## The two results

The last stretch slices the second head's output, builds the (class, row) pairs from the labels twice over, and
gathers.  Read through the stretch, each result is the gather of its head's sliced output at the pairs made from the
labels as the stretch finds them. -/

/-- Gathers agree when their operands and the two columns of their index pairs agree. -/
theorem gather100_congr {A A' : FVec Ideal S12x1024x100 .f32} {x x' y y' : IVec S1024x1 32}
    (hA : A = A') (hx : x = x') (hy : y = y') :
    Host.gather gather_S12x1024x100_S1024x2_S1024x100_1_01_n_n_01_1_11100 A
        (concatenate S1024x2 1 [⟨S1024x1, x⟩, ⟨S1024x1, y⟩] concatenates_S1024x1_S1024x1_S1024x2_d1)
      = Host.gather gather_S12x1024x100_S1024x2_S1024x100_1_01_n_n_01_1_11100 A'
        (concatenate S1024x2 1 [⟨S1024x1, x'⟩, ⟨S1024x1, y'⟩] concatenates_S1024x1_S1024x1_S1024x2_d1) := by
  subst hA hx hy; rfl
theorem gather3_congr {A A' : FVec Ideal S12x1024x3 .f32} {x x' y y' : IVec S1024x1 32}
    (hA : A = A') (hx : x = x') (hy : y = y') :
    Host.gather gather_S12x1024x3_S1024x2_S1024x3_1_01_n_n_01_1_113 A
        (concatenate S1024x2 1 [⟨S1024x1, x⟩, ⟨S1024x1, y⟩] concatenates_S1024x1_S1024x1_S1024x2_d1)
      = Host.gather gather_S12x1024x3_S1024x2_S1024x3_1_01_n_n_01_1_113 A'
        (concatenate S1024x2 1 [⟨S1024x1, x'⟩, ⟨S1024x1, y'⟩] concatenates_S1024x1_S1024x1_S1024x2_d1) := by
  subst hA hx hy; rfl

set_option maxHeartbeats 1000000 in
theorem v41_W4 (c : Dev nD) : (W5 m ρ c (Proc.devRef .tc main_v41) : FVec Ideal S1024x100 .f32)
    = pick100 (W4 m ρ c (Proc.devRef .tc main_v12)) (W4 m ρ c (Proc.devRef .tc main_arg1)) := by
  unfold pick100 labelPairs
  dsimp only [W5, hostOps2]
  after_results_simp
  refine gather100_congr ?_ ?_ ?_
  · first | rfl | (after_results_simp <;> rfl)
  · after_results_simp <;> rfl
  · after_results_simp <;> rfl

set_option maxHeartbeats 1000000 in
theorem v55_W4 (c : Dev nD) : (W5 m ρ c (Proc.devRef .tc main_v55) : FVec Ideal S1024x3 .f32)
    = pick3 (extractStridedSlice S12x1024x3 ![0, 0, 0] (W4 m ρ c (Proc.devRef .tc main_v24) : FVec Ideal S12x1024x128 .f32)
        slices_S12x1024x128_S12x1024x3_0_0_0) (W4 m ρ c (Proc.devRef .tc main_arg1)) := by
  unfold pick3 labelPairs
  dsimp only [W5, hostOps2]
  after_results_simp
  refine gather3_congr ?_ ?_ ?_
  · first | rfl | (after_results_simp <;> rfl)
  · after_results_simp <;> rfl
  · after_results_simp <;> rfl

theorem v41_eq (c : Dev nD)
    (h0 : IsReal (m ((c : Thread nD τ).loc main_arg0))) (h2 : IsReal (m ((c : Thread nD τ).loc main_arg2)))
    (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6)))
    (h7 : IsReal (m ((c : Thread nD τ).loc main_arg7))) (h8 : IsReal (m ((c : Thread nD τ).loc main_arg8)))
    (h9 : IsReal (m ((c : Thread nD τ).loc main_arg9))) :
    (W5 m ρ c (Proc.devRef .tc main_v41) : FVec Ideal S1024x100 .f32)
      = pick100 (specY (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9))) (m ((c : Thread nD τ).loc main_arg1)) :=
  (v41_W4 m ρ c).trans (congrArg₂ pick100
    ((W4_v12 m ρ c).trans (Y0_eq m ρ c h0 h2 h3 h4 h5 h6 h7 h8 h9)) (W4_arg1 m ρ c))

theorem v55_eq (c : Dev nD)
    (h0 : IsReal (m ((c : Thread nD τ).loc main_arg0))) (h10 : IsReal (m ((c : Thread nD τ).loc main_arg10)))
    (h11 : IsReal (m ((c : Thread nD τ).loc main_arg11))) (h12 : IsReal (m ((c : Thread nD τ).loc main_arg12)))
    (h13 : IsReal (m ((c : Thread nD τ).loc main_arg13))) (h14 : IsReal (m ((c : Thread nD τ).loc main_arg14)))
    (h15 : IsReal (m ((c : Thread nD τ).loc main_arg15))) (h16 : IsReal (m ((c : Thread nD τ).loc main_arg16)))
    (h17 : IsReal (m ((c : Thread nD τ).loc main_arg17))) :
    (W5 m ρ c (Proc.devRef .tc main_v55) : FVec Ideal S1024x3 .f32)
      = pick3 (specY (m ((c : Thread nD τ).loc main_arg0)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16))
          (m ((c : Thread nD τ).loc main_arg17))) (m ((c : Thread nD τ).loc main_arg1)) :=
  (v55_W4 m ρ c).trans (congrArg₂ pick3
    ((congrArg (fun x : FVec Ideal S12x1024x128 .f32 => extractStridedSlice S12x1024x3 ![0, 0, 0] x slices_S12x1024x128_S12x1024x3_0_0_0)
      (W4_v24 m ρ c)).trans (Y1_eq m ρ c h0 h10 h11 h12 h13 h14 h15 h16 h17)) (W4_arg1 m ρ c))

end Cert.KernelIdeal.KernelValue

end
-- ==== Proof.Finite.lean ====
/- From the precondition to real numbers: the predicate "every float input is finite" is, per array, "|entry| < +inf for
   every entry", folded by a conjunction over all entries; it is all ones exactly when no entry of any float argument
   is an infinity. -/
import proofs.«424157_j48696339202298_3_alg».proof.Pre_finite_inputs
import proofs.«424157_j48696339202298_3_alg».proof.Proof.Spec
import Idealize.ShloMosaic.Lib.ReduceAll
import Idealize.ShloMosaic.Lib.ValueIdx

noncomputable section

namespace Cert.Finite

open Idealize.ShloMosaic Cert.Spec Cert.Pre_finite_inputs

/-- The rank-0 shape has exactly one index. -/
local instance : Subsingleton S_.Idx := ⟨fun a b => funext fun d => d.elim0⟩

/-- The word 0x7F800000 (sign 0, exponent all ones, fraction 0) denotes +inf. -/
theorem ofBits_inf : Ideal.ofBits .f32 0x7F800000#32 = (⊤ : EReal) := by
  simp [Ideal.ofBits, Ideal.ieee]

/-- |x| < +inf, with |x| = max x (-x), says that x is neither infinity: x < +inf excludes +inf, and -x < +inf
    excludes -inf, whose negation is +inf. -/
theorem real_of_abs_lt (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hn
    simp only [Ideal.cmp, decide_eq_false hn] at h
    exact absurd h (by decide)
  rw [max_lt_iff] at hlt
  refine ⟨ne_of_lt hlt.1, fun hx => ?_⟩
  rw [hx] at hlt
  exact absurd hlt.2 (by simp)

/-- One array's share of the predicate: if the conjunction over ALL entries of "|A i| < +inf" is 1, every entry of A
    is a real number. Generic in the array's shape and in the list of reduced axes (the result has one index, so
    every entry reduces into it). -/
theorem isReal_of_all {S : Shape} {axes : List (Fin S.rank)} (A : FVec Ideal S .f32)
    (hb : S_.BroadcastsInDim S (![] : Fin 0 → Fin S.rank)) (hr : S.ReducesTo axes S_) (hu : 0 < S_.numel)
    (j : S_.Idx)
    (e : Host.reduce IntOp.andi
          (cmpf .olt (Host.absf A) (broadcastInDim S ![] hb (constant (F := Ideal) S_ .f32 0x7F800000#32)))
          (constantI S_ 1 1#1) hr hu j = 1#1) : IsReal A := by
  intro i
  -- the entry of the compared array at i is 1, and that entry is the comparison |A i| < +inf
  have hi := Host.reduce_andi_all _ _ hr hu j e i
  exact real_of_abs_lt (A i) hi

variable [Cert.Pre_finite_inputs.Facts]

theorem isReal_of_fn (a0 : FVec Ideal S1024x2048 .f32) (a1 : IVec S1024x1 32) (a2 : FVec Ideal S12x1000x2048 .f32)
    (a3 a4 : FVec Ideal S12x1000 .f32) (a5 : FVec Ideal S12x500x1000 .f32) (a6 a7 : FVec Ideal S12x500 .f32)
    (a8 : FVec Ideal S12x100x500 .f32) (a9 : FVec Ideal S12x100 .f32) (a10 : FVec Ideal S12x1000x2048 .f32)
    (a11 a12 : FVec Ideal S12x1000 .f32) (a13 : FVec Ideal S12x500x1000 .f32) (a14 a15 : FVec Ideal S12x500 .f32)
    (a16 : FVec Ideal S12x3x500 .f32) (a17 : FVec Ideal S12x3 .f32)
    (h : Cert.Pre_finite_inputs.fn (F := Ideal) a0 a1 a2 a3 a4 a5 a6 a7 a8 a9 a10 a11 a12 a13 a14 a15 a16 a17
          = fun _ => 1#1) :
    IsReal a0 ∧ IsReal a2 ∧ IsReal a3 ∧ IsReal a4 ∧ IsReal a5 ∧ IsReal a6 ∧ IsReal a7 ∧ IsReal a8 ∧ IsReal a9
      ∧ IsReal a10 ∧ IsReal a11 ∧ IsReal a12 ∧ IsReal a13 ∧ IsReal a14 ∧ IsReal a15 ∧ IsReal a16 ∧ IsReal a17 := by
  -- the predicate at its one index: a left-nested conjunction of the seventeen per-array results
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩ := h0
  exact ⟨isReal_of_all a0 _ _ _ _ e0, isReal_of_all a2 _ _ _ _ e2, isReal_of_all a3 _ _ _ _ e3,
    isReal_of_all a4 _ _ _ _ e4, isReal_of_all a5 _ _ _ _ e5, isReal_of_all a6 _ _ _ _ e6,
    isReal_of_all a7 _ _ _ _ e7, isReal_of_all a8 _ _ _ _ e8, isReal_of_all a9 _ _ _ _ e9,
    isReal_of_all a10 _ _ _ _ e10, isReal_of_all a11 _ _ _ _ e11, isReal_of_all a12 _ _ _ _ e12,
    isReal_of_all a13 _ _ _ _ e13, isReal_of_all a14 _ _ _ _ e14, isReal_of_all a15 _ _ _ _ e15,
    isReal_of_all a16 _ _ _ _ e16, isReal_of_all a17 _ _ _ _ e17⟩

end Cert.Finite

end
-- ==== Proof.KernelHalf.lean ====
/- The kernel program's half of the certificate: its frames, the sanctioned idealisation, and its run with both results
   named as functions of the arguments. -/
import proofs.«424157_j48696339202298_3_alg».proof.Defs
import proofs.«424157_j48696339202298_3_alg».proof.Proof.Gen.Kernel
import proofs.«424157_j48696339202298_3_alg».proof.Proof.Gen.Kernel.Frame
import proofs.«424157_j48696339202298_3_alg».proof.Proof.Gen.KernelIdeal
import proofs.«424157_j48696339202298_3_alg».proof.Proof.Gen.KernelIdeal.Frame
import proofs.«424157_j48696339202298_3_alg».proof.Proof.Gen.Pre_finite_inputs
import proofs.«424157_j48696339202298_3_alg».proof.Proof.KernelRun
import proofs.«424157_j48696339202298_3_alg».proof.Proof.KernelValue
import proofs.«424157_j48696339202298_3_alg».proof.Proof.Finite

set_option maxRecDepth 16384

noncomputable section

namespace Cert.Proof

open Idealize.ShloMosaic Idealize.ShloMosaic.TcCoe Idealize.SL.Sem Cert.Spec

theorem frame_Kernel : Cert.frame_Kernel := fun m ρ _ => Cert.Kernel.Gen.frame m ρ

theorem frame_KernelIdeal : Cert.frame_KernelIdeal := fun m ρ _ => Cert.KernelIdeal.Gen.frame m ρ

theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

section KernelIdeal
open Cert.KernelIdeal Cert.KernelIdeal.Gen Cert.KernelIdeal.KernelValue

variable (m : (ℓ : Loc nD τ sig) → Buf (Elt Ideal) ℓ) (ρ : Dev nD → PrngReg)

/-- The first result: the first head's spec array, one row per batch element picked by its label. -/
def res100 (c : Dev nD) : FVec Ideal S1024x100 .f32 :=
  pick100 (specY (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))) (m ((c : Thread Cert.KernelIdeal.nD Cert.KernelIdeal.τ).loc Cert.KernelIdeal.main_arg1))

/-- The second result, from the second head. -/
def res3 (c : Dev nD) : FVec Ideal S1024x3 .f32 :=
  pick3 (specY (m ((c : Thread Cert.KernelIdeal.nD Cert.KernelIdeal.τ).loc Cert.KernelIdeal.main_arg0)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17))) (m ((c : Thread Cert.KernelIdeal.nD Cert.KernelIdeal.τ).loc Cert.KernelIdeal.main_arg1))

theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v41) = res100 m c
      ∧ r.2.mem ((c.tc : Thread nD τ).loc main_v55) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    obtain ⟨h0, h2, h3, h4, h5, h6, h7, h8, h9, h10, h11, h12, h13, h14, h15, h16, h17⟩ :=
      Cert.Finite.isReal_of_fn _ _ _ _ _ _ _ _ _ _ _ _ _ _ _ _ _ _ (hpre c)
    exact ⟨(h c _ (mem_uc main_v41 (by decide))).trans (v41_eq m ρ c h0 h2 h3 h4 h5 h6 h7 h8 h9),
      (h c _ (mem_uc main_v55 (by decide))).trans (v55_eq m ρ c h0 h10 h11 h12 h13 h14 h15 h16 h17),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c)⟩)
    (run_all m ρ)

end KernelIdeal

end Cert.Proof

end
-- ==== Proof.RefRun.lean ====
/- The reference's @main as a list of host operations, and its run.

   @main is 145 statements, eight of them calls of the module's own functions: the variance (twice at 1000 features,
   twice at 500; each itself calls the select-with-a-scalar function) and the maximum with zero (twice at each width).
   A call's meaning is its body run on the operands, so the callee's operations are listed at the call site over that
   call's own buffer record.  The list is cut where the computation is: the first head (everything up to the 100-wide
   logits), the second head (up to the 3-wide logits), and the selection of one row per batch element by its label.
   Every weakly fair execution of @main terminates with each buffer at the fold of the list over the launch contents;
   the eighteen argument arrays are written by no operation, so they keep their launch contents. -/
import proofs.«424157_j48696339202298_3_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-- The first head: the label column flattened, then x against the first layer, normalisation with relu at 1000
    features (the variance function's twenty-three operations and relu's three inline), the second layer, the same at
    500 features, the last layer of 100 outputs and its bias. -/
abbrev opsA : List (HloOp τ sig (Elt F)) :=
  [ reshape main_arg1 main_v0 rfl shapeCasts_S1024x1_S1024,
    binary main_arg2 main_arg0 main_v1 ((fun l r => Host.dotGeneral dot_S12x1000x2048_S1024x2048_S12x1000x1024_2_1_01_0_n_n none l r) : (⟨S12x1000x2048, .f32⟩ : BufTy).Contents (Elt F) → (⟨S1024x2048, .f32⟩ : BufTy).Contents (Elt F) → (⟨S12x1000x1024, .f32⟩ : BufTy).Contents (Elt F)),
    unary main_v1 main_v2 ((transpose S12x1024x1000 [0, 2, 1] · transposes_S12x1000x1024_S12x1024x1000_0_2_1) : (⟨S12x1000x1024, .f32⟩ : BufTy).Contents (Elt F) → (⟨S12x1024x1000, .f32⟩ : BufTy).Contents (Elt F)),
    nullary main_cst (constant S_ .f32 0x00000000#32),
    binary main_v2 main_cst main_v3 ((fun x v => Host.reduceAdd x v reducesTo_S12x1024x1000_S12x1000_d1 h_S_) : (⟨S12x1024x1000, .f32⟩ : BufTy).Contents (Elt F) → (⟨S_, .f32⟩ : BufTy).Contents (Elt F) → (⟨S12x1000, .f32⟩ : BufTy).Contents (Elt F)),
    unary main_v3 main_v4 (broadcastInDim S12x1x1000 ![0, 2] bcast_S12x1000_S12x1x1000_0_2 : (⟨S12x1000, .f32⟩ : BufTy).Contents (Elt F) → (⟨S12x1x1000, .f32⟩ : BufTy).Contents (Elt F)),
    nullary main_cst_0 (constant S_ .f32 0x44800000#32),
    unary main_cst_0 main_v5 (broadcastInDim S12x1x1000 ![] bcast_S_S12x1x1000 : (⟨S_, .f32⟩ : BufTy).Contents (Elt F) → (⟨S12x1x1000, .f32⟩ : BufTy).Contents (Elt F)),
    binary main_v4 main_v5 main_v6 (Host.divf : (⟨S12x1x1000, .f32⟩ : BufTy).Contents (Elt F) → (⟨S12x1x1000, .f32⟩ : BufTy).Contents (Elt F) → (⟨S12x1x1000, .f32⟩ : BufTy).Contents (Elt F)),
    nullary main_c (constantI S_ 32 0#32),
    TRef.nullary main_call0.cst (constant S_ .f32 0x00000000#32),
    TRef.binary (.of main_v2 : TRef sig ⟨S12x1024x1000, .f32⟩) main_call0.cst main_call0.v0 (fun x v => Host.reduceAdd x v reducesTo_S12x1024x1000_S12x1000_d1 h_S_),
    TRef.unary main_call0.v0 main_call0.v1 (broadcastInDim S12x1x1000 ![0, 2] bcast_S12x1000_S12x1x1000_0_2),
    TRef.nullary main_call0.cst_0 (constant S_ .f32 0x44800000#32),
    TRef.unary main_call0.cst_0 main_call0.v2 (broadcastInDim S12x1x1000 ![] bcast_S_S12x1x1000),
    TRef.binary main_call0.v1 main_call0.v2 main_call0.v3 Host.divf,
    TRef.unary main_call0.v3 main_call0.v4 (broadcastInDim S12x1024x1000 ![0, 1, 2] bcast_S12x1x1000_S12x1024x1000_0_1_2),
    TRef.binary (.of main_v2 : TRef sig ⟨S12x1024x1000, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S12x1024x1000_S12x1000_d1 h_S_),
    TRef.unary main_call0.v9 main_call0.v10 (broadcastInDim S12x1x1000 ![0, 2] bcast_S12x1000_S12x1x1000_0_2),
    TRef.unary main_call0.v8 main_call0.v11 (broadcastInDim S12x1x1000 ![] bcast_S_S12x1x1000),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S12x1x1000 ![] bcast_S_S12x1x1000),
    TRef.ternary main_call0.v13 main_call0.v12 main_call0.call0.v1 main_call0.call0.v2 (fun p a b => select (broadcastInDim S12x1x1000 ![] bcast_S_S12x1x1000 p) a b),
    unary main_v6 main_v8 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v2 main_v8 main_v9 (subf : (⟨S12x1024x1000, .f32⟩ : BufTy).Contents (Elt F) → (⟨S12x1024x1000, .f32⟩ : BufTy).Contents (Elt F) → (⟨S12x1024x1000, .f32⟩ : BufTy).Contents (Elt F)),
    nullary main_cst_1 (constant S_ .f32 0x3727C5AC#32),
    unary main_cst_1 main_v10 (broadcastInDim S12x1x1000 ![] bcast_S_S12x1x1000 : (⟨S_, .f32⟩ : BufTy).Contents (Elt F) → (⟨S12x1x1000, .f32⟩ : BufTy).Contents (Elt F)),
    binary main_v7 main_v10 main_v11 (addf : (⟨S12x1x1000, .f32⟩ : BufTy).Contents (Elt F) → (⟨S12x1x1000, .f32⟩ : BufTy).Contents (Elt F) → (⟨S12x1x1000, .f32⟩ : BufTy).Contents (Elt F)),
    unary main_v11 main_v12 (Host.sqrt : (⟨S12x1x1000, .f32⟩ : BufTy).Contents (Elt F) → (⟨S12x1x1000, .f32⟩ : BufTy).Contents (Elt F)),
    unary main_v12 main_v13 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v9 main_v13 main_v14 (Host.divf : (⟨S12x1024x1000, .f32⟩ : BufTy).Contents (Elt F) → (⟨S12x1024x1000, .f32⟩ : BufTy).Contents (Elt F) → (⟨S12x1024x1000, .f32⟩ : BufTy).Contents (Elt F)),
    unary main_arg3 main_v15 (broadcastInDim S12x1x1000 ![0, 2] bcast_S12x1000_S12x1x1000_0_2 : (⟨S12x1000, .f32⟩ : BufTy).Contents (Elt F) → (⟨S12x1x1000, .f32⟩ : BufTy).Contents (Elt F)),
    unary main_v15 main_v16 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v14 main_v16 main_v17 (mulf : (⟨S12x1024x1000, .f32⟩ : BufTy).Contents (Elt F) → (⟨S12x1024x1000, .f32⟩ : BufTy).Contents (Elt F) → (⟨S12x1024x1000, .f32⟩ : BufTy).Contents (Elt F)),
    unary main_arg4 main_v18 (broadcastInDim S12x1x1000 ![0, 2] bcast_S12x1000_S12x1x1000_0_2 : (⟨S12x1000, .f32⟩ : BufTy).Contents (Elt F) → (⟨S12x1x1000, .f32⟩ : BufTy).Contents (Elt F)),
    unary main_v18 main_v19 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v17 main_v19 main_v20 (addf : (⟨S12x1024x1000, .f32⟩ : BufTy).Contents (Elt F) → (⟨S12x1024x1000, .f32⟩ : BufTy).Contents (Elt F) → (⟨S12x1024x1000, .f32⟩ : BufTy).Contents (Elt F)),
    TRef.nullary main_call1.cst (constant S_ .f32 0x00000000#32),
    TRef.unary main_call1.cst main_call1.v0 (broadcastInDim S12x1024x1000 ![] bcast_S_S12x1024x1000),
    TRef.binary (.of main_v20 : TRef sig ⟨S12x1024x1000, .f32⟩) main_call1.v0 main_call1.v1 maximumf,
    binary main_v21 main_arg5 main_v22 ((fun l r => Host.dotGeneral dot_S12x1024x1000_S12x500x1000_S12x1024x500_2_2_1_1_0_0 none l r) : (⟨S12x1024x1000, .f32⟩ : BufTy).Contents (Elt F) → (⟨S12x500x1000, .f32⟩ : BufTy).Contents (Elt F) → (⟨S12x1024x500, .f32⟩ : BufTy).Contents (Elt F)),
    nullary main_cst_2 (constant S_ .f32 0x00000000#32),
    binary main_v22 main_cst_2 main_v23 ((fun x v => Host.reduceAdd x v reducesTo_S12x1024x500_S12x500_d1 h_S_) : (⟨S12x1024x500, .f32⟩ : BufTy).Contents (Elt F) → (⟨S_, .f32⟩ : BufTy).Contents (Elt F) → (⟨S12x500, .f32⟩ : BufTy).Contents (Elt F)),
    unary main_v23 main_v24 (broadcastInDim S12x1x500 ![0, 2] bcast_S12x500_S12x1x500_0_2 : (⟨S12x500, .f32⟩ : BufTy).Contents (Elt F) → (⟨S12x1x500, .f32⟩ : BufTy).Contents (Elt F)),
    nullary main_cst_3 (constant S_ .f32 0x44800000#32),
    unary main_cst_3 main_v25 (broadcastInDim S12x1x500 ![] bcast_S_S12x1x500 : (⟨S_, .f32⟩ : BufTy).Contents (Elt F) → (⟨S12x1x500, .f32⟩ : BufTy).Contents (Elt F)),
    binary main_v24 main_v25 main_v26 (Host.divf : (⟨S12x1x500, .f32⟩ : BufTy).Contents (Elt F) → (⟨S12x1x500, .f32⟩ : BufTy).Contents (Elt F) → (⟨S12x1x500, .f32⟩ : BufTy).Contents (Elt F)),
    nullary main_c_4 (constantI S_ 32 0#32),
    TRef.nullary main_call2.cst (constant S_ .f32 0x00000000#32),
    TRef.binary (.of main_v22 : TRef sig ⟨S12x1024x500, .f32⟩) main_call2.cst main_call2.v0 (fun x v => Host.reduceAdd x v reducesTo_S12x1024x500_S12x500_d1 h_S_),
    TRef.unary main_call2.v0 main_call2.v1 (broadcastInDim S12x1x500 ![0, 2] bcast_S12x500_S12x1x500_0_2),
    TRef.nullary main_call2.cst_0 (constant S_ .f32 0x44800000#32),
    TRef.unary main_call2.cst_0 main_call2.v2 (broadcastInDim S12x1x500 ![] bcast_S_S12x1x500),
    TRef.binary main_call2.v1 main_call2.v2 main_call2.v3 Host.divf,
    TRef.unary main_call2.v3 main_call2.v4 (broadcastInDim S12x1024x500 ![0, 1, 2] bcast_S12x1x500_S12x1024x500_0_1_2),
    TRef.binary (.of main_v22 : TRef sig ⟨S12x1024x500, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S12x1024x500_S12x500_d1 h_S_),
    TRef.unary main_call2.v9 main_call2.v10 (broadcastInDim S12x1x500 ![0, 2] bcast_S12x500_S12x1x500_0_2),
    TRef.unary main_call2.v8 main_call2.v11 (broadcastInDim S12x1x500 ![] bcast_S_S12x1x500),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S12x1x500 ![] bcast_S_S12x1x500),
    TRef.ternary main_call2.v13 main_call2.v12 main_call2.call0.v1 main_call2.call0.v2 (fun p a b => select (broadcastInDim S12x1x500 ![] bcast_S_S12x1x500 p) a b),
    unary main_v26 main_v28 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v22 main_v28 main_v29 (subf : (⟨S12x1024x500, .f32⟩ : BufTy).Contents (Elt F) → (⟨S12x1024x500, .f32⟩ : BufTy).Contents (Elt F) → (⟨S12x1024x500, .f32⟩ : BufTy).Contents (Elt F)),
    nullary main_cst_5 (constant S_ .f32 0x3727C5AC#32),
    unary main_cst_5 main_v30 (broadcastInDim S12x1x500 ![] bcast_S_S12x1x500 : (⟨S_, .f32⟩ : BufTy).Contents (Elt F) → (⟨S12x1x500, .f32⟩ : BufTy).Contents (Elt F)),
    binary main_v27 main_v30 main_v31 (addf : (⟨S12x1x500, .f32⟩ : BufTy).Contents (Elt F) → (⟨S12x1x500, .f32⟩ : BufTy).Contents (Elt F) → (⟨S12x1x500, .f32⟩ : BufTy).Contents (Elt F)),
    unary main_v31 main_v32 (Host.sqrt : (⟨S12x1x500, .f32⟩ : BufTy).Contents (Elt F) → (⟨S12x1x500, .f32⟩ : BufTy).Contents (Elt F)),
    unary main_v32 main_v33 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v29 main_v33 main_v34 (Host.divf : (⟨S12x1024x500, .f32⟩ : BufTy).Contents (Elt F) → (⟨S12x1024x500, .f32⟩ : BufTy).Contents (Elt F) → (⟨S12x1024x500, .f32⟩ : BufTy).Contents (Elt F)),
    unary main_arg6 main_v35 (broadcastInDim S12x1x500 ![0, 2] bcast_S12x500_S12x1x500_0_2 : (⟨S12x500, .f32⟩ : BufTy).Contents (Elt F) → (⟨S12x1x500, .f32⟩ : BufTy).Contents (Elt F)),
    unary main_v35 main_v36 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v34 main_v36 main_v37 (mulf : (⟨S12x1024x500, .f32⟩ : BufTy).Contents (Elt F) → (⟨S12x1024x500, .f32⟩ : BufTy).Contents (Elt F) → (⟨S12x1024x500, .f32⟩ : BufTy).Contents (Elt F)),
    unary main_arg7 main_v38 (broadcastInDim S12x1x500 ![0, 2] bcast_S12x500_S12x1x500_0_2 : (⟨S12x500, .f32⟩ : BufTy).Contents (Elt F) → (⟨S12x1x500, .f32⟩ : BufTy).Contents (Elt F)),
    unary main_v38 main_v39 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v37 main_v39 main_v40 (addf : (⟨S12x1024x500, .f32⟩ : BufTy).Contents (Elt F) → (⟨S12x1024x500, .f32⟩ : BufTy).Contents (Elt F) → (⟨S12x1024x500, .f32⟩ : BufTy).Contents (Elt F)),
    TRef.nullary main_call3.cst (constant S_ .f32 0x00000000#32),
    TRef.unary main_call3.cst main_call3.v0 (broadcastInDim S12x1024x500 ![] bcast_S_S12x1024x500),
    TRef.binary (.of main_v40 : TRef sig ⟨S12x1024x500, .f32⟩) main_call3.v0 main_call3.v1 maximumf,
    binary main_v41 main_arg8 main_v42 ((fun l r => Host.dotGeneral dot_S12x1024x500_S12x100x500_S12x1024x100_2_2_1_1_0_0 none l r) : (⟨S12x1024x500, .f32⟩ : BufTy).Contents (Elt F) → (⟨S12x100x500, .f32⟩ : BufTy).Contents (Elt F) → (⟨S12x1024x100, .f32⟩ : BufTy).Contents (Elt F)),
    unary main_arg9 main_v43 (broadcastInDim S12x1x100 ![0, 2] bcast_S12x100_S12x1x100_0_2 : (⟨S12x100, .f32⟩ : BufTy).Contents (Elt F) → (⟨S12x1x100, .f32⟩ : BufTy).Contents (Elt F)),
    unary main_v43 main_v44 (broadcastInDim S12x1024x100 ![0, 1, 2] bcast_S12x1x100_S12x1024x100_0_1_2 : (⟨S12x1x100, .f32⟩ : BufTy).Contents (Elt F) → (⟨S12x1024x100, .f32⟩ : BufTy).Contents (Elt F)),
    binary main_v42 main_v44 main_v45 (addf : (⟨S12x1024x100, .f32⟩ : BufTy).Contents (Elt F) → (⟨S12x1024x100, .f32⟩ : BufTy).Contents (Elt F) → (⟨S12x1024x100, .f32⟩ : BufTy).Contents (Elt F)) ]

/-- The second head: the same stretch over its own weights, ending at the 3-wide logits. -/
abbrev opsB : List (HloOp τ sig (Elt F)) :=
  [ binary main_arg10 main_arg0 main_v46 ((fun l r => Host.dotGeneral dot_S12x1000x2048_S1024x2048_S12x1000x1024_2_1_01_0_n_n none l r) : (⟨S12x1000x2048, .f32⟩ : BufTy).Contents (Elt F) → (⟨S1024x2048, .f32⟩ : BufTy).Contents (Elt F) → (⟨S12x1000x1024, .f32⟩ : BufTy).Contents (Elt F)),
    unary main_v46 main_v47 ((transpose S12x1024x1000 [0, 2, 1] · transposes_S12x1000x1024_S12x1024x1000_0_2_1) : (⟨S12x1000x1024, .f32⟩ : BufTy).Contents (Elt F) → (⟨S12x1024x1000, .f32⟩ : BufTy).Contents (Elt F)),
    nullary main_cst_6 (constant S_ .f32 0x00000000#32),
    binary main_v47 main_cst_6 main_v48 ((fun x v => Host.reduceAdd x v reducesTo_S12x1024x1000_S12x1000_d1 h_S_) : (⟨S12x1024x1000, .f32⟩ : BufTy).Contents (Elt F) → (⟨S_, .f32⟩ : BufTy).Contents (Elt F) → (⟨S12x1000, .f32⟩ : BufTy).Contents (Elt F)),
    unary main_v48 main_v49 (broadcastInDim S12x1x1000 ![0, 2] bcast_S12x1000_S12x1x1000_0_2 : (⟨S12x1000, .f32⟩ : BufTy).Contents (Elt F) → (⟨S12x1x1000, .f32⟩ : BufTy).Contents (Elt F)),
    nullary main_cst_7 (constant S_ .f32 0x44800000#32),
    unary main_cst_7 main_v50 (broadcastInDim S12x1x1000 ![] bcast_S_S12x1x1000 : (⟨S_, .f32⟩ : BufTy).Contents (Elt F) → (⟨S12x1x1000, .f32⟩ : BufTy).Contents (Elt F)),
    binary main_v49 main_v50 main_v51 (Host.divf : (⟨S12x1x1000, .f32⟩ : BufTy).Contents (Elt F) → (⟨S12x1x1000, .f32⟩ : BufTy).Contents (Elt F) → (⟨S12x1x1000, .f32⟩ : BufTy).Contents (Elt F)),
    nullary main_c_8 (constantI S_ 32 0#32),
    TRef.nullary main_call4.cst (constant S_ .f32 0x00000000#32),
    TRef.binary (.of main_v47 : TRef sig ⟨S12x1024x1000, .f32⟩) main_call4.cst main_call4.v0 (fun x v => Host.reduceAdd x v reducesTo_S12x1024x1000_S12x1000_d1 h_S_),
    TRef.unary main_call4.v0 main_call4.v1 (broadcastInDim S12x1x1000 ![0, 2] bcast_S12x1000_S12x1x1000_0_2),
    TRef.nullary main_call4.cst_0 (constant S_ .f32 0x44800000#32),
    TRef.unary main_call4.cst_0 main_call4.v2 (broadcastInDim S12x1x1000 ![] bcast_S_S12x1x1000),
    TRef.binary main_call4.v1 main_call4.v2 main_call4.v3 Host.divf,
    TRef.unary main_call4.v3 main_call4.v4 (broadcastInDim S12x1024x1000 ![0, 1, 2] bcast_S12x1x1000_S12x1024x1000_0_1_2),
    TRef.binary (.of main_v47 : TRef sig ⟨S12x1024x1000, .f32⟩) main_call4.v4 main_call4.v5 subf,
    TRef.binary main_call4.v5 main_call4.v5 main_call4.v6 mulf,
    TRef.unary (.of main_c_8 : TRef sig ⟨S_, .i32⟩) main_call4.v7 (sitofp .f32),
    TRef.nullary main_call4.cst_1 (constant S_ .f32 0x44800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S12x1024x1000_S12x1000_d1 h_S_),
    TRef.unary main_call4.v9 main_call4.v10 (broadcastInDim S12x1x1000 ![0, 2] bcast_S12x1000_S12x1x1000_0_2),
    TRef.unary main_call4.v8 main_call4.v11 (broadcastInDim S12x1x1000 ![] bcast_S_S12x1x1000),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S12x1x1000 ![] bcast_S_S12x1x1000),
    TRef.ternary main_call4.v13 main_call4.v12 main_call4.call0.v1 main_call4.call0.v2 (fun p a b => select (broadcastInDim S12x1x1000 ![] bcast_S_S12x1x1000 p) a b),
    unary main_v51 main_v53 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v47 main_v53 main_v54 (subf : (⟨S12x1024x1000, .f32⟩ : BufTy).Contents (Elt F) → (⟨S12x1024x1000, .f32⟩ : BufTy).Contents (Elt F) → (⟨S12x1024x1000, .f32⟩ : BufTy).Contents (Elt F)),
    nullary main_cst_9 (constant S_ .f32 0x3727C5AC#32),
    unary main_cst_9 main_v55 (broadcastInDim S12x1x1000 ![] bcast_S_S12x1x1000 : (⟨S_, .f32⟩ : BufTy).Contents (Elt F) → (⟨S12x1x1000, .f32⟩ : BufTy).Contents (Elt F)),
    binary main_v52 main_v55 main_v56 (addf : (⟨S12x1x1000, .f32⟩ : BufTy).Contents (Elt F) → (⟨S12x1x1000, .f32⟩ : BufTy).Contents (Elt F) → (⟨S12x1x1000, .f32⟩ : BufTy).Contents (Elt F)),
    unary main_v56 main_v57 (Host.sqrt : (⟨S12x1x1000, .f32⟩ : BufTy).Contents (Elt F) → (⟨S12x1x1000, .f32⟩ : BufTy).Contents (Elt F)),
    unary main_v57 main_v58 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v54 main_v58 main_v59 (Host.divf : (⟨S12x1024x1000, .f32⟩ : BufTy).Contents (Elt F) → (⟨S12x1024x1000, .f32⟩ : BufTy).Contents (Elt F) → (⟨S12x1024x1000, .f32⟩ : BufTy).Contents (Elt F)),
    unary main_arg11 main_v60 (broadcastInDim S12x1x1000 ![0, 2] bcast_S12x1000_S12x1x1000_0_2 : (⟨S12x1000, .f32⟩ : BufTy).Contents (Elt F) → (⟨S12x1x1000, .f32⟩ : BufTy).Contents (Elt F)),
    unary main_v60 main_v61 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v59 main_v61 main_v62 (mulf : (⟨S12x1024x1000, .f32⟩ : BufTy).Contents (Elt F) → (⟨S12x1024x1000, .f32⟩ : BufTy).Contents (Elt F) → (⟨S12x1024x1000, .f32⟩ : BufTy).Contents (Elt F)),
    unary main_arg12 main_v63 (broadcastInDim S12x1x1000 ![0, 2] bcast_S12x1000_S12x1x1000_0_2 : (⟨S12x1000, .f32⟩ : BufTy).Contents (Elt F) → (⟨S12x1x1000, .f32⟩ : BufTy).Contents (Elt F)),
    unary main_v63 main_v64 (broadcastInDim S12x1024x1000 ![0, 1, 2] bcast_S12x1x1000_S12x1024x1000_0_1_2 : (⟨S12x1x1000, .f32⟩ : BufTy).Contents (Elt F) → (⟨S12x1024x1000, .f32⟩ : BufTy).Contents (Elt F)),
    binary main_v62 main_v64 main_v65 (addf : (⟨S12x1024x1000, .f32⟩ : BufTy).Contents (Elt F) → (⟨S12x1024x1000, .f32⟩ : BufTy).Contents (Elt F) → (⟨S12x1024x1000, .f32⟩ : BufTy).Contents (Elt F)),
    TRef.nullary main_call5.cst (constant S_ .f32 0x00000000#32),
    TRef.unary main_call5.cst main_call5.v0 (broadcastInDim S12x1024x1000 ![] bcast_S_S12x1024x1000),
    TRef.binary (.of main_v65 : TRef sig ⟨S12x1024x1000, .f32⟩) main_call5.v0 main_call5.v1 maximumf,
    binary main_v66 main_arg13 main_v67 ((fun l r => Host.dotGeneral dot_S12x1024x1000_S12x500x1000_S12x1024x500_2_2_1_1_0_0 none l r) : (⟨S12x1024x1000, .f32⟩ : BufTy).Contents (Elt F) → (⟨S12x500x1000, .f32⟩ : BufTy).Contents (Elt F) → (⟨S12x1024x500, .f32⟩ : BufTy).Contents (Elt F)),
    nullary main_cst_10 (constant S_ .f32 0x00000000#32),
    binary main_v67 main_cst_10 main_v68 ((fun x v => Host.reduceAdd x v reducesTo_S12x1024x500_S12x500_d1 h_S_) : (⟨S12x1024x500, .f32⟩ : BufTy).Contents (Elt F) → (⟨S_, .f32⟩ : BufTy).Contents (Elt F) → (⟨S12x500, .f32⟩ : BufTy).Contents (Elt F)),
    unary main_v68 main_v69 (broadcastInDim S12x1x500 ![0, 2] bcast_S12x500_S12x1x500_0_2 : (⟨S12x500, .f32⟩ : BufTy).Contents (Elt F) → (⟨S12x1x500, .f32⟩ : BufTy).Contents (Elt F)),
    nullary main_cst_11 (constant S_ .f32 0x44800000#32),
    unary main_cst_11 main_v70 (broadcastInDim S12x1x500 ![] bcast_S_S12x1x500 : (⟨S_, .f32⟩ : BufTy).Contents (Elt F) → (⟨S12x1x500, .f32⟩ : BufTy).Contents (Elt F)),
    binary main_v69 main_v70 main_v71 (Host.divf : (⟨S12x1x500, .f32⟩ : BufTy).Contents (Elt F) → (⟨S12x1x500, .f32⟩ : BufTy).Contents (Elt F) → (⟨S12x1x500, .f32⟩ : BufTy).Contents (Elt F)),
    nullary main_c_12 (constantI S_ 32 0#32),
    TRef.nullary main_call6.cst (constant S_ .f32 0x00000000#32),
    TRef.binary (.of main_v67 : TRef sig ⟨S12x1024x500, .f32⟩) main_call6.cst main_call6.v0 (fun x v => Host.reduceAdd x v reducesTo_S12x1024x500_S12x500_d1 h_S_),
    TRef.unary main_call6.v0 main_call6.v1 (broadcastInDim S12x1x500 ![0, 2] bcast_S12x500_S12x1x500_0_2),
    TRef.nullary main_call6.cst_0 (constant S_ .f32 0x44800000#32),
    TRef.unary main_call6.cst_0 main_call6.v2 (broadcastInDim S12x1x500 ![] bcast_S_S12x1x500),
    TRef.binary main_call6.v1 main_call6.v2 main_call6.v3 Host.divf,
    TRef.unary main_call6.v3 main_call6.v4 (broadcastInDim S12x1024x500 ![0, 1, 2] bcast_S12x1x500_S12x1024x500_0_1_2),
    TRef.binary (.of main_v67 : TRef sig ⟨S12x1024x500, .f32⟩) main_call6.v4 main_call6.v5 subf,
    TRef.binary main_call6.v5 main_call6.v5 main_call6.v6 mulf,
    TRef.unary (.of main_c_12 : TRef sig ⟨S_, .i32⟩) main_call6.v7 (sitofp .f32),
    TRef.nullary main_call6.cst_1 (constant S_ .f32 0x44800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S12x1024x500_S12x500_d1 h_S_),
    TRef.unary main_call6.v9 main_call6.v10 (broadcastInDim S12x1x500 ![0, 2] bcast_S12x500_S12x1x500_0_2),
    TRef.unary main_call6.v8 main_call6.v11 (broadcastInDim S12x1x500 ![] bcast_S_S12x1x500),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S12x1x500 ![] bcast_S_S12x1x500),
    TRef.ternary main_call6.v13 main_call6.v12 main_call6.call0.v1 main_call6.call0.v2 (fun p a b => select (broadcastInDim S12x1x500 ![] bcast_S_S12x1x500 p) a b),
    unary main_v71 main_v73 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v67 main_v73 main_v74 (subf : (⟨S12x1024x500, .f32⟩ : BufTy).Contents (Elt F) → (⟨S12x1024x500, .f32⟩ : BufTy).Contents (Elt F) → (⟨S12x1024x500, .f32⟩ : BufTy).Contents (Elt F)),
    nullary main_cst_13 (constant S_ .f32 0x3727C5AC#32),
    unary main_cst_13 main_v75 (broadcastInDim S12x1x500 ![] bcast_S_S12x1x500 : (⟨S_, .f32⟩ : BufTy).Contents (Elt F) → (⟨S12x1x500, .f32⟩ : BufTy).Contents (Elt F)),
    binary main_v72 main_v75 main_v76 (addf : (⟨S12x1x500, .f32⟩ : BufTy).Contents (Elt F) → (⟨S12x1x500, .f32⟩ : BufTy).Contents (Elt F) → (⟨S12x1x500, .f32⟩ : BufTy).Contents (Elt F)),
    unary main_v76 main_v77 (Host.sqrt : (⟨S12x1x500, .f32⟩ : BufTy).Contents (Elt F) → (⟨S12x1x500, .f32⟩ : BufTy).Contents (Elt F)),
    unary main_v77 main_v78 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v74 main_v78 main_v79 (Host.divf : (⟨S12x1024x500, .f32⟩ : BufTy).Contents (Elt F) → (⟨S12x1024x500, .f32⟩ : BufTy).Contents (Elt F) → (⟨S12x1024x500, .f32⟩ : BufTy).Contents (Elt F)),
    unary main_arg14 main_v80 (broadcastInDim S12x1x500 ![0, 2] bcast_S12x500_S12x1x500_0_2 : (⟨S12x500, .f32⟩ : BufTy).Contents (Elt F) → (⟨S12x1x500, .f32⟩ : BufTy).Contents (Elt F)),
    unary main_v80 main_v81 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v79 main_v81 main_v82 (mulf : (⟨S12x1024x500, .f32⟩ : BufTy).Contents (Elt F) → (⟨S12x1024x500, .f32⟩ : BufTy).Contents (Elt F) → (⟨S12x1024x500, .f32⟩ : BufTy).Contents (Elt F)),
    unary main_arg15 main_v83 (broadcastInDim S12x1x500 ![0, 2] bcast_S12x500_S12x1x500_0_2 : (⟨S12x500, .f32⟩ : BufTy).Contents (Elt F) → (⟨S12x1x500, .f32⟩ : BufTy).Contents (Elt F)),
    unary main_v83 main_v84 (broadcastInDim S12x1024x500 ![0, 1, 2] bcast_S12x1x500_S12x1024x500_0_1_2 : (⟨S12x1x500, .f32⟩ : BufTy).Contents (Elt F) → (⟨S12x1024x500, .f32⟩ : BufTy).Contents (Elt F)),
    binary main_v82 main_v84 main_v85 (addf : (⟨S12x1024x500, .f32⟩ : BufTy).Contents (Elt F) → (⟨S12x1024x500, .f32⟩ : BufTy).Contents (Elt F) → (⟨S12x1024x500, .f32⟩ : BufTy).Contents (Elt F)),
    TRef.nullary main_call7.cst (constant S_ .f32 0x00000000#32),
    TRef.unary main_call7.cst main_call7.v0 (broadcastInDim S12x1024x500 ![] bcast_S_S12x1024x500),
    TRef.binary (.of main_v85 : TRef sig ⟨S12x1024x500, .f32⟩) main_call7.v0 main_call7.v1 maximumf,
    binary main_v86 main_arg16 main_v87 ((fun l r => Host.dotGeneral dot_S12x1024x500_S12x3x500_S12x1024x3_2_2_1_1_0_0 none l r) : (⟨S12x1024x500, .f32⟩ : BufTy).Contents (Elt F) → (⟨S12x3x500, .f32⟩ : BufTy).Contents (Elt F) → (⟨S12x1024x3, .f32⟩ : BufTy).Contents (Elt F)),
    unary main_arg17 main_v88 (broadcastInDim S12x1x3 ![0, 2] bcast_S12x3_S12x1x3_0_2 : (⟨S12x3, .f32⟩ : BufTy).Contents (Elt F) → (⟨S12x1x3, .f32⟩ : BufTy).Contents (Elt F)),
    unary main_v88 main_v89 (broadcastInDim S12x1024x3 ![0, 1, 2] bcast_S12x1x3_S12x1024x3_0_1_2 : (⟨S12x1x3, .f32⟩ : BufTy).Contents (Elt F) → (⟨S12x1024x3, .f32⟩ : BufTy).Contents (Elt F)),
    binary main_v87 main_v89 main_v90 (addf : (⟨S12x1024x3, .f32⟩ : BufTy).Contents (Elt F) → (⟨S12x1024x3, .f32⟩ : BufTy).Contents (Elt F) → (⟨S12x1024x3, .f32⟩ : BufTy).Contents (Elt F)) ]

/-- The selection by label, once per head: row numbers, labels and row numbers wrapped when negative, paired, gathered. -/
abbrev opsC : List (HloOp τ sig (Elt F)) :=
  [ nullary main_v91 (iotaInDim S1024 32 0),
    nullary main_c_14 (constantI S_ 32 0#32),
    unary main_c_14 main_v92 (broadcastInDim S1024 ![] bcast_S_S1024 : (⟨S_, .i32⟩ : BufTy).Contents (Elt F) → (⟨S1024, .i32⟩ : BufTy).Contents (Elt F)),
    binary main_v0 main_v92 main_v93 (cmpi .slt : (⟨S1024, .i32⟩ : BufTy).Contents (Elt F) → (⟨S1024, .i32⟩ : BufTy).Contents (Elt F) → (⟨S1024, .i1⟩ : BufTy).Contents (Elt F)),
    nullary main_c_15 (constantI S_ 32 12#32),
    unary main_c_15 main_v94 (broadcastInDim S1024 ![] bcast_S_S1024 : (⟨S_, .i32⟩ : BufTy).Contents (Elt F) → (⟨S1024, .i32⟩ : BufTy).Contents (Elt F)),
    binary main_v0 main_v94 main_v95 (addi : (⟨S1024, .i32⟩ : BufTy).Contents (Elt F) → (⟨S1024, .i32⟩ : BufTy).Contents (Elt F) → (⟨S1024, .i32⟩ : BufTy).Contents (Elt F)),
    ternary main_v93 main_v95 main_v0 main_v96 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_16 (constantI S_ 32 0#32),
    unary main_c_16 main_v97 (broadcastInDim S1024 ![] bcast_S_S1024 : (⟨S_, .i32⟩ : BufTy).Contents (Elt F) → (⟨S1024, .i32⟩ : BufTy).Contents (Elt F)),
    binary main_v91 main_v97 main_v98 (cmpi .slt : (⟨S1024, .i32⟩ : BufTy).Contents (Elt F) → (⟨S1024, .i32⟩ : BufTy).Contents (Elt F) → (⟨S1024, .i1⟩ : BufTy).Contents (Elt F)),
    nullary main_c_17 (constantI S_ 32 1024#32),
    unary main_c_17 main_v99 (broadcastInDim S1024 ![] bcast_S_S1024 : (⟨S_, .i32⟩ : BufTy).Contents (Elt F) → (⟨S1024, .i32⟩ : BufTy).Contents (Elt F)),
    binary main_v91 main_v99 main_v100 (addi : (⟨S1024, .i32⟩ : BufTy).Contents (Elt F) → (⟨S1024, .i32⟩ : BufTy).Contents (Elt F) → (⟨S1024, .i32⟩ : BufTy).Contents (Elt F)),
    ternary main_v98 main_v100 main_v91 main_v101 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v96 main_v102 (broadcastInDim S1024x1 ![0] bcast_S1024_S1024x1_0 : (⟨S1024, .i32⟩ : BufTy).Contents (Elt F) → (⟨S1024x1, .i32⟩ : BufTy).Contents (Elt F)),
    unary main_v101 main_v103 (broadcastInDim S1024x1 ![0] bcast_S1024_S1024x1_0 : (⟨S1024, .i32⟩ : BufTy).Contents (Elt F) → (⟨S1024x1, .i32⟩ : BufTy).Contents (Elt F)),
    binary main_v102 main_v103 main_v104 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_v45 main_v104 main_v105 ((fun x i => Host.gather gather_S12x1024x100_S1024x2_S1024x100_1_01_n_n_01_1_11100 x i) : (⟨S12x1024x100, .f32⟩ : BufTy).Contents (Elt F) → (⟨S1024x2, .i32⟩ : BufTy).Contents (Elt F) → (⟨S1024x100, .f32⟩ : BufTy).Contents (Elt F)),
    nullary main_c_18 (constantI S_ 32 0#32),
    unary main_c_18 main_v106 (broadcastInDim S1024 ![] bcast_S_S1024 : (⟨S_, .i32⟩ : BufTy).Contents (Elt F) → (⟨S1024, .i32⟩ : BufTy).Contents (Elt F)),
    binary main_v0 main_v106 main_v107 (cmpi .slt : (⟨S1024, .i32⟩ : BufTy).Contents (Elt F) → (⟨S1024, .i32⟩ : BufTy).Contents (Elt F) → (⟨S1024, .i1⟩ : BufTy).Contents (Elt F)),
    nullary main_c_19 (constantI S_ 32 12#32),
    unary main_c_19 main_v108 (broadcastInDim S1024 ![] bcast_S_S1024 : (⟨S_, .i32⟩ : BufTy).Contents (Elt F) → (⟨S1024, .i32⟩ : BufTy).Contents (Elt F)),
    binary main_v0 main_v108 main_v109 (addi : (⟨S1024, .i32⟩ : BufTy).Contents (Elt F) → (⟨S1024, .i32⟩ : BufTy).Contents (Elt F) → (⟨S1024, .i32⟩ : BufTy).Contents (Elt F)),
    ternary main_v107 main_v109 main_v0 main_v110 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_20 (constantI S_ 32 0#32),
    unary main_c_20 main_v111 (broadcastInDim S1024 ![] bcast_S_S1024 : (⟨S_, .i32⟩ : BufTy).Contents (Elt F) → (⟨S1024, .i32⟩ : BufTy).Contents (Elt F)),
    binary main_v91 main_v111 main_v112 (cmpi .slt : (⟨S1024, .i32⟩ : BufTy).Contents (Elt F) → (⟨S1024, .i32⟩ : BufTy).Contents (Elt F) → (⟨S1024, .i1⟩ : BufTy).Contents (Elt F)),
    nullary main_c_21 (constantI S_ 32 1024#32),
    unary main_c_21 main_v113 (broadcastInDim S1024 ![] bcast_S_S1024 : (⟨S_, .i32⟩ : BufTy).Contents (Elt F) → (⟨S1024, .i32⟩ : BufTy).Contents (Elt F)),
    binary main_v91 main_v113 main_v114 (addi : (⟨S1024, .i32⟩ : BufTy).Contents (Elt F) → (⟨S1024, .i32⟩ : BufTy).Contents (Elt F) → (⟨S1024, .i32⟩ : BufTy).Contents (Elt F)),
    ternary main_v112 main_v114 main_v91 main_v115 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v110 main_v116 (broadcastInDim S1024x1 ![0] bcast_S1024_S1024x1_0 : (⟨S1024, .i32⟩ : BufTy).Contents (Elt F) → (⟨S1024x1, .i32⟩ : BufTy).Contents (Elt F)),
    unary main_v115 main_v117 (broadcastInDim S1024x1 ![0] bcast_S1024_S1024x1_0 : (⟨S1024, .i32⟩ : BufTy).Contents (Elt F) → (⟨S1024x1, .i32⟩ : BufTy).Contents (Elt F)),
    binary main_v116 main_v117 main_v118 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_v90 main_v118 main_v119 ((fun x i => Host.gather gather_S12x1024x3_S1024x2_S1024x3_1_01_n_n_01_1_113 x i) : (⟨S12x1024x3, .f32⟩ : BufTy).Contents (Elt F) → (⟨S1024x2, .i32⟩ : BufTy).Contents (Elt F) → (⟨S1024x3, .f32⟩ : BufTy).Contents (Elt F)) ]

/-- @main's 240 operations in order, the calls unfolded. -/
abbrev ops : List (HloOp τ sig (Elt F)) := opsA ++ (opsB ++ opsC)

/-- The fold over two lists in a row is the fold over the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after opsC (after opsB (after opsA V)) := by
  show after (opsA ++ (opsB ++ opsC)) V = _
  rw [after_app, after_app]

-- 240 binds re-associated: the rewrite under the chain goes one level deeper per statement
set_option maxRecDepth 32768 in
set_option maxHeartbeats 4000000 in
/-- @main is that straight line: the three windows in order, the functions' definitions unfolded at their calls; both
    sides are the same chain of steps once sequencing is re-associated. -/
theorem main_eq (c : Dev nD) : main (F := F) c = seq ops := by
  show _ = seq (opsA ++ (opsB ++ opsC))
  rw [seq_append, seq_append]
  simp only [main, main_part0, main_part1, main_part2, fn_var.body, fn_var_0.body, fn_where.body, fn_where_1.body,
    fn_relu.body, fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨reshape_bufs_sub .., binary_bufs_sub .., unary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

theorem opsB_sub : (opsB : List (HloOp τ sig (Elt F))).Forall fun op => op.bufs ⊆ tcRefs τ sig :=
  ⟨binary_bufs_sub .., unary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩

theorem opsC_sub : (opsC : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

/-- On the one device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/- The reference's @main as a few named functions of arrays: what each stretch of its operations computes.

   A head is: x against the first layer's weights (one product batched over nothing, then transposed so that the class
   comes first), batch normalisation with relu over the 1024 rows (mean, the variance function with zero degrees of
   freedom removed, divide by the square root, scale, shift, maximum with 0), the second layer batched over the class,
   the same normalisation at 500 features, the last layer batched over the class plus its bias.  The selection by label
   wraps negative labels and row numbers, pairs them, and gathers one row per batch element. -/
import proofs.«424157_j48696339202298_3_alg».proof.ReferenceIdeal
import Idealize.ShloMosaic.PureOps.Ideal

noncomputable section

namespace Cert.ReferenceIdeal.Stages

open Idealize.ShloMosaic Cert.ReferenceIdeal

variable [Facts]
open Facts₀ Facts

local notation "𝕀" => Ideal

/-- x against every class's first-layer weights: entry (c, b, n). -/
def layer1 (W : FVec 𝕀 S12x1000x2048 .f32) (x : FVec 𝕀 S1024x2048 .f32) : FVec 𝕀 S12x1024x1000 .f32 :=
  transpose S12x1024x1000 [0, 2, 1]
    (Host.dotGeneral dot_S12x1000x2048_S1024x2048_S12x1000x1024_2_1_01_0_n_n none W x)
    transposes_S12x1000x1024_S12x1024x1000_0_2_1

/-! ### Normalisation at 1000 features -/

/-- The batch size the variance divides by: 1024 minus the (zero) degrees of freedom, converted. -/
def dofCount : FVec 𝕀 S_ .f32 :=
  subf (constant S_ .f32 0x44800000#32) (sitofp .f32 (constantI S_ 32 0#32))

def mean1000 (h : FVec 𝕀 S12x1024x1000 .f32) : FVec 𝕀 S12x1x1000 .f32 :=
  Host.divf
    (broadcastInDim S12x1x1000 ![0, 2] bcast_S12x1000_S12x1x1000_0_2
      (Host.reduceAdd h (constant S_ .f32 0x00000000#32) reducesTo_S12x1024x1000_S12x1000_d1 h_S_))
    (broadcastInDim S12x1x1000 ![] bcast_S_S12x1x1000 (constant S_ .f32 0x44800000#32))

def centred1000 (h : FVec 𝕀 S12x1024x1000 .f32) : FVec 𝕀 S12x1024x1000 .f32 :=
  subf h (broadcastInDim S12x1024x1000 ![0, 1, 2] bcast_S12x1x1000_S12x1024x1000_0_1_2 (mean1000 h))

def var1000 (h : FVec 𝕀 S12x1024x1000 .f32) : FVec 𝕀 S12x1x1000 .f32 :=
  select (broadcastInDim S12x1x1000 ![] bcast_S_S12x1x1000 (cmpf .ogt dofCount (constant S_ .f32 0x00000000#32)))
    (Host.divf
      (broadcastInDim S12x1x1000 ![0, 2] bcast_S12x1000_S12x1x1000_0_2
        (Host.reduceAdd (mulf (centred1000 h) (centred1000 h)) (constant S_ .f32 0x00000000#32)
          reducesTo_S12x1024x1000_S12x1000_d1 h_S_))
      (broadcastInDim S12x1x1000 ![] bcast_S_S12x1x1000 dofCount))
    (broadcastInDim S12x1x1000 ![] bcast_S_S12x1x1000 (id (constant S_ .f32 0x7FC00000#32)))

def normRelu1000 (h : FVec 𝕀 S12x1024x1000 .f32) (g β : FVec 𝕀 S12x1000 .f32) : FVec 𝕀 S12x1024x1000 .f32 :=
  maximumf
    (addf
      (mulf
        (Host.divf (centred1000 h)
          (broadcastInDim S12x1024x1000 ![0, 1, 2] bcast_S12x1x1000_S12x1024x1000_0_1_2
            (Host.sqrt (addf (var1000 h)
              (broadcastInDim S12x1x1000 ![] bcast_S_S12x1x1000 (constant S_ .f32 0x3727C5AC#32))))))
        (broadcastInDim S12x1024x1000 ![0, 1, 2] bcast_S12x1x1000_S12x1024x1000_0_1_2
          (broadcastInDim S12x1x1000 ![0, 2] bcast_S12x1000_S12x1x1000_0_2 g)))
      (broadcastInDim S12x1024x1000 ![0, 1, 2] bcast_S12x1x1000_S12x1024x1000_0_1_2
        (broadcastInDim S12x1x1000 ![0, 2] bcast_S12x1000_S12x1x1000_0_2 β)))
    (broadcastInDim S12x1024x1000 ![] bcast_S_S12x1024x1000 (constant S_ .f32 0x00000000#32))

/-! ### The second layer and normalisation at 500 features -/

def layer2 (a : FVec 𝕀 S12x1024x1000 .f32) (W : FVec 𝕀 S12x500x1000 .f32) : FVec 𝕀 S12x1024x500 .f32 :=
  Host.dotGeneral dot_S12x1024x1000_S12x500x1000_S12x1024x500_2_2_1_1_0_0 none a W

def mean500 (h : FVec 𝕀 S12x1024x500 .f32) : FVec 𝕀 S12x1x500 .f32 :=
  Host.divf
    (broadcastInDim S12x1x500 ![0, 2] bcast_S12x500_S12x1x500_0_2
      (Host.reduceAdd h (constant S_ .f32 0x00000000#32) reducesTo_S12x1024x500_S12x500_d1 h_S_))
    (broadcastInDim S12x1x500 ![] bcast_S_S12x1x500 (constant S_ .f32 0x44800000#32))

def centred500 (h : FVec 𝕀 S12x1024x500 .f32) : FVec 𝕀 S12x1024x500 .f32 :=
  subf h (broadcastInDim S12x1024x500 ![0, 1, 2] bcast_S12x1x500_S12x1024x500_0_1_2 (mean500 h))

def var500 (h : FVec 𝕀 S12x1024x500 .f32) : FVec 𝕀 S12x1x500 .f32 :=
  select (broadcastInDim S12x1x500 ![] bcast_S_S12x1x500 (cmpf .ogt dofCount (constant S_ .f32 0x00000000#32)))
    (Host.divf
      (broadcastInDim S12x1x500 ![0, 2] bcast_S12x500_S12x1x500_0_2
        (Host.reduceAdd (mulf (centred500 h) (centred500 h)) (constant S_ .f32 0x00000000#32)
          reducesTo_S12x1024x500_S12x500_d1 h_S_))
      (broadcastInDim S12x1x500 ![] bcast_S_S12x1x500 dofCount))
    (broadcastInDim S12x1x500 ![] bcast_S_S12x1x500 (id (constant S_ .f32 0x7FC00000#32)))

def normRelu500 (h : FVec 𝕀 S12x1024x500 .f32) (g β : FVec 𝕀 S12x500 .f32) : FVec 𝕀 S12x1024x500 .f32 :=
  maximumf
    (addf
      (mulf
        (Host.divf (centred500 h)
          (broadcastInDim S12x1024x500 ![0, 1, 2] bcast_S12x1x500_S12x1024x500_0_1_2
            (Host.sqrt (addf (var500 h)
              (broadcastInDim S12x1x500 ![] bcast_S_S12x1x500 (constant S_ .f32 0x3727C5AC#32))))))
        (broadcastInDim S12x1024x500 ![0, 1, 2] bcast_S12x1x500_S12x1024x500_0_1_2
          (broadcastInDim S12x1x500 ![0, 2] bcast_S12x500_S12x1x500_0_2 g)))
      (broadcastInDim S12x1024x500 ![0, 1, 2] bcast_S12x1x500_S12x1024x500_0_1_2
        (broadcastInDim S12x1x500 ![0, 2] bcast_S12x500_S12x1x500_0_2 β)))
    (broadcastInDim S12x1024x500 ![] bcast_S_S12x1024x500 (constant S_ .f32 0x00000000#32))

/-- The two hidden layers of all twelve classes: entry (c, b, k). -/
def hidden (x : FVec 𝕀 S1024x2048 .f32) (W1 : FVec 𝕀 S12x1000x2048 .f32) (G1 B1 : FVec 𝕀 S12x1000 .f32)
    (W2 : FVec 𝕀 S12x500x1000 .f32) (G2 B2 : FVec 𝕀 S12x500 .f32) : FVec 𝕀 S12x1024x500 .f32 :=
  normRelu500 (layer2 (normRelu1000 (layer1 W1 x) G1 B1) W2) G2 B2

/-! ### The last layer, 100 or 3 outputs -/

def last100 (a : FVec 𝕀 S12x1024x500 .f32) (W : FVec 𝕀 S12x100x500 .f32) (bias : FVec 𝕀 S12x100 .f32) :
    FVec 𝕀 S12x1024x100 .f32 :=
  addf (Host.dotGeneral dot_S12x1024x500_S12x100x500_S12x1024x100_2_2_1_1_0_0 none a W)
    (broadcastInDim S12x1024x100 ![0, 1, 2] bcast_S12x1x100_S12x1024x100_0_1_2
      (broadcastInDim S12x1x100 ![0, 2] bcast_S12x100_S12x1x100_0_2 bias))

def last3 (a : FVec 𝕀 S12x1024x500 .f32) (W : FVec 𝕀 S12x3x500 .f32) (bias : FVec 𝕀 S12x3 .f32) :
    FVec 𝕀 S12x1024x3 .f32 :=
  addf (Host.dotGeneral dot_S12x1024x500_S12x3x500_S12x1024x3_2_2_1_1_0_0 none a W)
    (broadcastInDim S12x1024x3 ![0, 1, 2] bcast_S12x1x3_S12x1024x3_0_1_2
      (broadcastInDim S12x1x3 ![0, 2] bcast_S12x3_S12x1x3_0_2 bias))

def head100 (x : FVec 𝕀 S1024x2048 .f32) (W1 : FVec 𝕀 S12x1000x2048 .f32) (G1 B1 : FVec 𝕀 S12x1000 .f32)
    (W2 : FVec 𝕀 S12x500x1000 .f32) (G2 B2 : FVec 𝕀 S12x500 .f32) (W3 : FVec 𝕀 S12x100x500 .f32)
    (B3 : FVec 𝕀 S12x100 .f32) : FVec 𝕀 S12x1024x100 .f32 :=
  last100 (hidden x W1 G1 B1 W2 G2 B2) W3 B3

def head3 (x : FVec 𝕀 S1024x2048 .f32) (W1 : FVec 𝕀 S12x1000x2048 .f32) (G1 B1 : FVec 𝕀 S12x1000 .f32)
    (W2 : FVec 𝕀 S12x500x1000 .f32) (G2 B2 : FVec 𝕀 S12x500 .f32) (W3 : FVec 𝕀 S12x3x500 .f32)
    (B3 : FVec 𝕀 S12x3 .f32) : FVec 𝕀 S12x1024x3 .f32 :=
  last3 (hidden x W1 G1 B1 W2 G2 B2) W3 B3

/-! ### The selection by label -/

/-- Per batch element, the pair (its label, wrapped by 12 when negative; its row number, wrapped by 1024). -/
def labelPairs (lab : IVec S1024x1 32) : IVec S1024x2 32 :=
  concatenate S1024x2 1
    [⟨S1024x1, broadcastInDim S1024x1 ![0] bcast_S1024_S1024x1_0
        (select (cmpi .slt (shapeCast S1024 lab shapeCasts_S1024x1_S1024)
            (broadcastInDim S1024 ![] bcast_S_S1024 (constantI S_ 32 0#32)))
          (addi (shapeCast S1024 lab shapeCasts_S1024x1_S1024)
            (broadcastInDim S1024 ![] bcast_S_S1024 (constantI S_ 32 12#32)))
          (shapeCast S1024 lab shapeCasts_S1024x1_S1024))⟩,
     ⟨S1024x1, broadcastInDim S1024x1 ![0] bcast_S1024_S1024x1_0
        (select (cmpi .slt (iotaInDim S1024 32 0) (broadcastInDim S1024 ![] bcast_S_S1024 (constantI S_ 32 0#32)))
          (addi (iotaInDim S1024 32 0) (broadcastInDim S1024 ![] bcast_S_S1024 (constantI S_ 32 1024#32)))
          (iotaInDim S1024 32 0))⟩]
    concatenates_S1024x1_S1024x1_S1024x2_d1

def pick100 (Y : FVec 𝕀 S12x1024x100 .f32) (lab : IVec S1024x1 32) : FVec 𝕀 S1024x100 .f32 :=
  Host.gather gather_S12x1024x100_S1024x2_S1024x100_1_01_n_n_01_1_11100 Y (labelPairs lab)

def pick3 (Y : FVec 𝕀 S12x1024x3 .f32) (lab : IVec S1024x1 32) : FVec 𝕀 S1024x3 .f32 :=
  Host.gather gather_S12x1024x3_S1024x2_S1024x3_1_01_n_n_01_1_113 Y (labelPairs lab)

end Cert.ReferenceIdeal.Stages

end
-- ==== Proof.RefOut.lean ====
/- What the reference's run leaves in the argument arrays and in its two results.

   No operation of @main writes an argument array, so each keeps its launch contents through the fold.  The first
   result is read stretch by stretch: the selection gathers the first head's logits at the index pairs made from the
   flattened labels; both were put in place by the first head's stretch and the second head writes neither; the first
   head's logits are the named stages composed.  The second result likewise, the second head reading only arguments,
   which the first head leaves alone. -/
import proofs.«424157_j48696339202298_3_alg».proof.Proof.RefRun
import proofs.«424157_j48696339202298_3_alg».proof.Proof.RefStages

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-! ## What no operation writes -/

/-- The eighteen argument arrays. -/
abbrev argRefs : List (Ref sig .tc) :=
  [main_arg0, main_arg1, main_arg2, main_arg3, main_arg4, main_arg5, main_arg6, main_arg7, main_arg8,
   main_arg9, main_arg10, main_arg11, main_arg12, main_arg13, main_arg14, main_arg15, main_arg16, main_arg17]

/-- Besides them, what the second head must leave alone for the selection: the flattened labels and the first head's logits. -/
abbrev keptB : List (Ref sig .tc) := main_v0 :: main_v45 :: argRefs

/-- A list of operations none of which writes any of the references `R` leaves each of them at its contents. -/
theorem keeps_of {l : List (HloOp τ sig (Elt F))} {R : List (Ref sig .tc)}
    (h : l.Forall fun op => ∀ r ∈ R, Proc.devRef (τ := τ) .tc r ∉ op.writes) (V : Valuation τ sig (Elt F)) (r : Ref sig .tc)
    (hr : r ∈ R) : after l V (Proc.devRef .tc r) = V (Proc.devRef .tc r) :=
  after_of_forall_not_mem l V fun op hop => List.forall_iff_forall_mem.mp h op hop r hr

set_option maxRecDepth 16384 in
set_option maxHeartbeats 4000000 in
/-- Each operation of the first head writes its one result buffer, which is none of the arguments. -/
theorem opsA_writes : (opsA : List (HloOp τ sig (Elt F))).Forall fun op => ∀ r ∈ argRefs, Proc.devRef (τ := τ) .tc r ∉ op.writes := by
  simp only [opsA, List.Forall, nullary_writes, unary_writes, binary_writes, ternary_writes, reshape_writes, Finset.mem_singleton]
  repeat' apply And.intro
  all_goals exact fun r hr => devRef_ne_of_ne ((by decide : ∀ r ∈ argRefs, r ≠ _) r hr)

set_option maxRecDepth 16384 in
set_option maxHeartbeats 4000000 in
theorem opsB_writes : (opsB : List (HloOp τ sig (Elt F))).Forall fun op => ∀ r ∈ keptB, Proc.devRef (τ := τ) .tc r ∉ op.writes := by
  simp only [opsB, List.Forall, nullary_writes, unary_writes, binary_writes, ternary_writes, reshape_writes, Finset.mem_singleton]
  repeat' apply And.intro
  all_goals exact fun r hr => devRef_ne_of_ne ((by decide : ∀ r ∈ keptB, r ≠ _) r hr)

set_option maxRecDepth 16384 in
set_option maxHeartbeats 4000000 in
theorem opsC_writes : (opsC : List (HloOp τ sig (Elt F))).Forall fun op => ∀ r ∈ argRefs, Proc.devRef (τ := τ) .tc r ∉ op.writes := by
  simp only [opsC, List.Forall, nullary_writes, unary_writes, binary_writes, ternary_writes, reshape_writes, Finset.mem_singleton]
  repeat' apply And.intro
  all_goals exact fun r hr => devRef_ne_of_ne ((by decide : ∀ r ∈ argRefs, r ≠ _) r hr)

theorem opsA_keep (V : Valuation τ sig (Elt F)) (r : Ref sig .tc) (hr : r ∈ argRefs) :
    after opsA V (Proc.devRef .tc r) = V (Proc.devRef .tc r) := keeps_of opsA_writes V r hr
theorem opsB_keep (V : Valuation τ sig (Elt F)) (r : Ref sig .tc) (hr : r ∈ keptB) :
    after opsB V (Proc.devRef .tc r) = V (Proc.devRef .tc r) := keeps_of opsB_writes V r hr
theorem opsC_keep (V : Valuation τ sig (Elt F)) (r : Ref sig .tc) (hr : r ∈ argRefs) :
    after opsC V (Proc.devRef .tc r) = V (Proc.devRef .tc r) := keeps_of opsC_writes V r hr

/-- An argument array keeps its contents through the whole list. -/
theorem arg_keep (V : Valuation τ sig (Elt F)) (r : Ref sig .tc) (hr : r ∈ argRefs) :
    after ops V (Proc.devRef .tc r) = V (Proc.devRef .tc r) := by
  rw [after_ops, opsC_keep _ r hr, opsB_keep _ r (List.mem_cons_of_mem _ (List.mem_cons_of_mem _ hr)), opsA_keep _ r hr]

theorem arg0_eq (V : Valuation τ sig (Elt F)) :
    after ops V (main_arg0 : DevRef τ sig) = V (main_arg0 : DevRef τ sig) := arg_keep V main_arg0 (by decide)
theorem arg1_eq (V : Valuation τ sig (Elt F)) :
    after ops V (main_arg1 : DevRef τ sig) = V (main_arg1 : DevRef τ sig) := arg_keep V main_arg1 (by decide)
theorem arg2_eq (V : Valuation τ sig (Elt F)) :
    after ops V (main_arg2 : DevRef τ sig) = V (main_arg2 : DevRef τ sig) := arg_keep V main_arg2 (by decide)
theorem arg3_eq (V : Valuation τ sig (Elt F)) :
    after ops V (main_arg3 : DevRef τ sig) = V (main_arg3 : DevRef τ sig) := arg_keep V main_arg3 (by decide)
theorem arg4_eq (V : Valuation τ sig (Elt F)) :
    after ops V (main_arg4 : DevRef τ sig) = V (main_arg4 : DevRef τ sig) := arg_keep V main_arg4 (by decide)
theorem arg5_eq (V : Valuation τ sig (Elt F)) :
    after ops V (main_arg5 : DevRef τ sig) = V (main_arg5 : DevRef τ sig) := arg_keep V main_arg5 (by decide)
theorem arg6_eq (V : Valuation τ sig (Elt F)) :
    after ops V (main_arg6 : DevRef τ sig) = V (main_arg6 : DevRef τ sig) := arg_keep V main_arg6 (by decide)
theorem arg7_eq (V : Valuation τ sig (Elt F)) :
    after ops V (main_arg7 : DevRef τ sig) = V (main_arg7 : DevRef τ sig) := arg_keep V main_arg7 (by decide)
theorem arg8_eq (V : Valuation τ sig (Elt F)) :
    after ops V (main_arg8 : DevRef τ sig) = V (main_arg8 : DevRef τ sig) := arg_keep V main_arg8 (by decide)
theorem arg9_eq (V : Valuation τ sig (Elt F)) :
    after ops V (main_arg9 : DevRef τ sig) = V (main_arg9 : DevRef τ sig) := arg_keep V main_arg9 (by decide)
theorem arg10_eq (V : Valuation τ sig (Elt F)) :
    after ops V (main_arg10 : DevRef τ sig) = V (main_arg10 : DevRef τ sig) := arg_keep V main_arg10 (by decide)
theorem arg11_eq (V : Valuation τ sig (Elt F)) :
    after ops V (main_arg11 : DevRef τ sig) = V (main_arg11 : DevRef τ sig) := arg_keep V main_arg11 (by decide)
theorem arg12_eq (V : Valuation τ sig (Elt F)) :
    after ops V (main_arg12 : DevRef τ sig) = V (main_arg12 : DevRef τ sig) := arg_keep V main_arg12 (by decide)
theorem arg13_eq (V : Valuation τ sig (Elt F)) :
    after ops V (main_arg13 : DevRef τ sig) = V (main_arg13 : DevRef τ sig) := arg_keep V main_arg13 (by decide)
theorem arg14_eq (V : Valuation τ sig (Elt F)) :
    after ops V (main_arg14 : DevRef τ sig) = V (main_arg14 : DevRef τ sig) := arg_keep V main_arg14 (by decide)
theorem arg15_eq (V : Valuation τ sig (Elt F)) :
    after ops V (main_arg15 : DevRef τ sig) = V (main_arg15 : DevRef τ sig) := arg_keep V main_arg15 (by decide)
theorem arg16_eq (V : Valuation τ sig (Elt F)) :
    after ops V (main_arg16 : DevRef τ sig) = V (main_arg16 : DevRef τ sig) := arg_keep V main_arg16 (by decide)
theorem arg17_eq (V : Valuation τ sig (Elt F)) :
    after ops V (main_arg17 : DevRef τ sig) = V (main_arg17 : DevRef τ sig) := arg_keep V main_arg17 (by decide)

/-! ## What each stretch computes -/

local notation "𝕀" => Ideal

/-- The labels as a row of 1024. -/
theorem A_v0 (V : Valuation τ sig (Elt 𝕀)) :
    after opsA V (main_v0 : DevRef τ sig) = shapeCast S1024 (V (main_arg1 : DevRef τ sig)) shapeCasts_S1024x1_S1024 := by
  after_results_simp
  rfl

attribute [local irreducible] Host.reduceAdd Host.gather in
set_option maxRecDepth 16384 in
set_option maxHeartbeats 4000000 in
/-- The first head's logits: each operation's result read at its own buffer, the composed term is the named stages'
    by unfolding. -/
theorem A_v45 (V : Valuation τ sig (Elt 𝕀)) :
    after opsA V (main_v45 : DevRef τ sig)
      = Stages.head100 (V (main_arg0 : DevRef τ sig)) (V (main_arg2 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig)) := by
  after_results_simp
  rfl

attribute [local irreducible] Host.reduceAdd Host.gather in
set_option maxRecDepth 16384 in
set_option maxHeartbeats 4000000 in
/-- The second head's logits, likewise. -/
theorem B_v90 (V : Valuation τ sig (Elt 𝕀)) :
    after opsB V (main_v90 : DevRef τ sig)
      = Stages.head3 (V (main_arg0 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig)) := by
  after_results_simp
  rfl

/-- The index pairs from the labels already flattened: (label, wrapped by 12 when negative; row number, wrapped by 1024). -/
def pairs (l : IVec S1024 32) : IVec S1024x2 32 :=
  concatenate S1024x2 1
    [⟨S1024x1, broadcastInDim S1024x1 ![0] bcast_S1024_S1024x1_0
        (select (cmpi .slt l (broadcastInDim S1024 ![] bcast_S_S1024 (constantI S_ 32 0#32)))
          (addi l (broadcastInDim S1024 ![] bcast_S_S1024 (constantI S_ 32 12#32))) l)⟩,
     ⟨S1024x1, broadcastInDim S1024x1 ![0] bcast_S1024_S1024x1_0
        (select (cmpi .slt (iotaInDim S1024 32 0) (broadcastInDim S1024 ![] bcast_S_S1024 (constantI S_ 32 0#32)))
          (addi (iotaInDim S1024 32 0) (broadcastInDim S1024 ![] bcast_S_S1024 (constantI S_ 32 1024#32)))
          (iotaInDim S1024 32 0))⟩]
    concatenates_S1024x1_S1024x1_S1024x2_d1

attribute [local irreducible] Host.gather in
set_option maxRecDepth 16384 in
set_option maxHeartbeats 4000000 in
/-- The first selection: the gather of the first head's logits at the pairs. -/
theorem C_v105 (W : Valuation τ sig (Elt 𝕀)) :
    after opsC W (main_v105 : DevRef τ sig)
      = Host.gather gather_S12x1024x100_S1024x2_S1024x100_1_01_n_n_01_1_11100 (W (main_v45 : DevRef τ sig))
          (pairs (W (main_v0 : DevRef τ sig))) := by
  after_results_simp
  rfl

attribute [local irreducible] Host.gather in
set_option maxRecDepth 16384 in
set_option maxHeartbeats 4000000 in
/-- The second selection: the gather of the second head's logits at the same pairs, computed again. -/
theorem C_v119 (W : Valuation τ sig (Elt 𝕀)) :
    after opsC W (main_v119 : DevRef τ sig)
      = Host.gather gather_S12x1024x3_S1024x2_S1024x3_1_01_n_n_01_1_113 (W (main_v90 : DevRef τ sig))
          (pairs (W (main_v0 : DevRef τ sig))) := by
  after_results_simp
  rfl

/-! ## The two results -/

attribute [local irreducible] Host.gather in
/-- The 100-wide result: the selection reads the first head's logits and the flattened labels, which the second head
    leaves where the first put them. -/
theorem out100 (V : Valuation τ sig (Elt 𝕀)) :
    after ops V (main_v105 : DevRef τ sig)
      = Stages.pick100 (Stages.head100 (V (main_arg0 : DevRef τ sig)) (V (main_arg2 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig))) (V (main_arg1 : DevRef τ sig)) := by
  rw [after_ops, C_v105, opsB_keep _ main_v45 (by decide), opsB_keep _ main_v0 (by decide), A_v45, A_v0]
  rfl

attribute [local irreducible] Host.gather in
/-- The 3-wide result: the second head reads only arguments, which the first head leaves alone. -/
theorem out3 (V : Valuation τ sig (Elt 𝕀)) :
    after ops V (main_v119 : DevRef τ sig)
      = Stages.pick3 (Stages.head3 (V (main_arg0 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))) (V (main_arg1 : DevRef τ sig)) := by
  rw [after_ops, C_v119, B_v90, opsB_keep _ main_v0 (by decide), A_v0,
    opsA_keep V main_arg0 (by decide), opsA_keep V main_arg10 (by decide), opsA_keep V main_arg11 (by decide), opsA_keep V main_arg12 (by decide), opsA_keep V main_arg13 (by decide), opsA_keep V main_arg14 (by decide), opsA_keep V main_arg15 (by decide), opsA_keep V main_arg16 (by decide), opsA_keep V main_arg17 (by decide)]
  rfl

end Cert.ReferenceIdeal.RefRun

end
-- ==== Proof.RefValueA.lean ====
/- The reference's four matrix products, read at an index.

   A dot_general at an output index is the sum, over the contracted axis, of the products of the two operands at the
   indices its dimension numbers name: the output's coordinates on the batch and kept axes, the summation variable on
   the contracted axis.  Each product here contracts one axis, so the sum runs over one coordinate.  Three of the four
   (the second layer and the two last layers) have the same dimension numbers at different sizes: batched over the
   leading axis, contracting the last axis of both operands; they are read by one lemma generic in the sizes. -/
import proofs.«424157_j48696339202298_3_alg».proof.Proof.RefStages
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal

/-! ### A product batched over the leading axis -/

/-- The dimension numbers of [m, b, K] against [m, n, K] giving [m, b, n]: batch axis 0 of both, contract axis 2 of
    both, keep axis 1 of each. -/
abbrev batchedDims (m b n K : ℕ)
    (wf : DotDims.WF ⟨3, ![m, b, K]⟩ ⟨3, ![m, n, K]⟩ ⟨3, ![m, b, n]⟩ [2] [2] [1] [1] [0] [0]) :
    DotDims ⟨3, ![m, b, K]⟩ ⟨3, ![m, n, K]⟩ ⟨3, ![m, b, n]⟩ where
  lhsContracting := [2]
  rhsContracting := [2]
  lhsNonContracting := [1]
  rhsNonContracting := [1]
  lhsBatch := [0]
  rhsBatch := [0]
  wf := wf

/-- Such a product at (c, r, j): row r of the left operand's slice c against row j of the right operand's slice c. -/
theorem batched_apply {m b n K : ℕ}
    (wf : DotDims.WF ⟨3, ![m, b, K]⟩ ⟨3, ![m, n, K]⟩ ⟨3, ![m, b, n]⟩ [2] [2] [1] [1] [0] [0])
    (A : FVec Ideal ⟨3, ![m, b, K]⟩ .f32) (W : FVec Ideal ⟨3, ![m, n, K]⟩ .f32) (c : Fin m) (r : Fin b) (j : Fin n) :
    Host.dotGeneral (batchedDims m b n K wf) none A W (ix3 c r j) = ∑ k : Fin K, A (ix3 c r k) * W (ix3 c j k) := by
  show FloatOps.dotGeneral (batchedDims m b n K wf) none .single A W (ix3 c r j) = _
  rw [Ideal.dotGeneral_apply, ← Equiv.sum_comp (contrEquiv1 (batchedDims m b n K wf) K rfl rfl).symm]
  refine Finset.sum_congr rfl fun k _ => ?_
  -- the contraction index built from k has k as its one coordinate
  have hk := contrEquiv1_symm_val (batchedDims m b n K wf) K rfl rfl k
  -- the left operand is read at (c, r, k): the output's coordinates on axes 0 and 1, k on the contracted axis
  have eL : (batchedDims m b n K wf).lhsIdx (ix3 c r j) ((contrEquiv1 (batchedDims m b n K wf) K rfl rfl).symm k)
      = ix3 c r k :=
    funext fun ax => Fin.ext (by
      match ax with
      | ⟨0, _⟩ => rfl
      | ⟨1, _⟩ => rfl
      | ⟨2, _⟩ => exact hk)
  -- the right operand is read at (c, j, k): the batch coordinate, the output's last coordinate, k
  have eR : (batchedDims m b n K wf).rhsIdx (ix3 c r j) ((contrEquiv1 (batchedDims m b n K wf) K rfl rfl).symm k)
      = ix3 c j k :=
    funext fun ax => Fin.ext (by
      match ax with
      | ⟨0, _⟩ => rfl
      | ⟨1, _⟩ => rfl
      | ⟨2, _⟩ => exact hk)
  rw [eL, eR]

variable [Facts]
open Facts₀ Facts

/-- The second layer at (c, b, n): row b of class c's activations against row n of its weights. -/
theorem layer2_apply (a : FVec Ideal S12x1024x1000 .f32) (W : FVec Ideal S12x500x1000 .f32) (c : Fin 12)
    (b : Fin 1024) (n : Fin 500) :
    Stages.layer2 a W (ix3 c b n) = ∑ k : Fin 1000, a (ix3 c b k) * W (ix3 c n k) :=
  batched_apply dot_S12x1024x1000_S12x500x1000_S12x1024x500_2_2_1_1_0_0_wf a W c b n

/-- The last layer's product with 100 outputs at (c, b, j). -/
theorem dot100_apply (a : FVec Ideal S12x1024x500 .f32) (W : FVec Ideal S12x100x500 .f32) (c : Fin 12)
    (b : Fin 1024) (j : Fin 100) :
    Host.dotGeneral dot_S12x1024x500_S12x100x500_S12x1024x100_2_2_1_1_0_0 none a W (ix3 c b j)
      = ∑ k : Fin 500, a (ix3 c b k) * W (ix3 c j k) :=
  batched_apply dot_S12x1024x500_S12x100x500_S12x1024x100_2_2_1_1_0_0_wf a W c b j

/-- The last layer's product with 3 outputs at (c, b, j). -/
theorem dot3_apply (a : FVec Ideal S12x1024x500 .f32) (W : FVec Ideal S12x3x500 .f32) (c : Fin 12)
    (b : Fin 1024) (j : Fin 3) :
    Host.dotGeneral dot_S12x1024x500_S12x3x500_S12x1024x3_2_2_1_1_0_0 none a W (ix3 c b j)
      = ∑ k : Fin 500, a (ix3 c b k) * W (ix3 c j k) :=
  batched_apply dot_S12x1024x500_S12x3x500_S12x1024x3_2_2_1_1_0_0_wf a W c b j

/-! ### The first layer: no batch axis, the class comes from the weights -/

/-- The first layer's product before its transposition, at (c, n, b): row n of class c's weights against row b of
    x.  The weights' axes 0 and 1 are kept, then x's axis 0; the weights' axis 2 is contracted with x's axis 1. -/
theorem dot1_apply (W : FVec Ideal S12x1000x2048 .f32) (x : FVec Ideal S1024x2048 .f32) (c : Fin 12)
    (n : Fin 1000) (b : Fin 1024) :
    Host.dotGeneral dot_S12x1000x2048_S1024x2048_S12x1000x1024_2_1_01_0_n_n none W x (ix3 c n b)
      = ∑ k : Fin 2048, W (ix3 c n k) * x (ix2 b k) := by
  show FloatOps.dotGeneral dot_S12x1000x2048_S1024x2048_S12x1000x1024_2_1_01_0_n_n none .single W x (ix3 c n b) = _
  rw [Ideal.dotGeneral_apply,
    ← Equiv.sum_comp (contrEquiv1 dot_S12x1000x2048_S1024x2048_S12x1000x1024_2_1_01_0_n_n 2048 rfl rfl).symm]
  refine Finset.sum_congr rfl fun k _ => ?_
  have hk := contrEquiv1_symm_val dot_S12x1000x2048_S1024x2048_S12x1000x1024_2_1_01_0_n_n 2048 rfl rfl k
  have eL : dot_S12x1000x2048_S1024x2048_S12x1000x1024_2_1_01_0_n_n.lhsIdx (ix3 c n b)
      ((contrEquiv1 dot_S12x1000x2048_S1024x2048_S12x1000x1024_2_1_01_0_n_n 2048 rfl rfl).symm k) = ix3 c n k :=
    funext fun ax => Fin.ext (by
      match ax with
      | ⟨0, _⟩ => rfl
      | ⟨1, _⟩ => rfl
      | ⟨2, _⟩ => exact hk)
  have eR : dot_S12x1000x2048_S1024x2048_S12x1000x1024_2_1_01_0_n_n.rhsIdx (ix3 c n b)
      ((contrEquiv1 dot_S12x1000x2048_S1024x2048_S12x1000x1024_2_1_01_0_n_n 2048 rfl rfl).symm k) = ix2 b k :=
    funext fun ax => Fin.ext (by
      match ax with
      | ⟨0, _⟩ => rfl
      | ⟨1, _⟩ => exact hk)
  rw [eL, eR]

/-- The first layer at (c, b, n): the transposition swaps the last two coordinates. -/
theorem layer1_apply (W : FVec Ideal S12x1000x2048 .f32) (x : FVec Ideal S1024x2048 .f32) (c : Fin 12)
    (b : Fin 1024) (n : Fin 1000) :
    Stages.layer1 W x (ix3 c b n) = ∑ k : Fin 2048, W (ix3 c n k) * x (ix2 b k) := by
  unfold Stages.layer1
  rw [transpose_ix3_021_apply, dot1_apply]

end Cert.ReferenceIdeal.RefValue

end
-- ==== Proof.RefValueB.lean ====
/- The reference's batch normalisation, read at an index.

   The mean and the variance are sums over the batch axis (axis 1 of a [12, 1024, N] array) divided by the batch-size
   word; they are kept as [12, 1, N] arrays and laid back over the batch by broadcasts, which read the unit axis at 0.
   The variance function divides by "1024 minus the degrees of freedom removed", here 1024 - 0 = 1024, and guards the
   quotient by "that count is positive", which holds, so the guarded branch is the quotient.  At real data the
   normalised entry is then the real network's, by HeadNet.refNorm_coe. -/
import proofs.«424157_j48696339202298_3_alg».proof.Proof.RefStages
import proofs.«424157_j48696339202298_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx Cert.HeadNet Cert.Spec Cert.ReferenceIdeal

/-! ### The operations the normalisation is made of, at an index (generic in the sizes) -/

/-- A [m, n] array laid out as [m, 1, n] reads (c, j) at (c, _, j). -/
theorem bcast02_apply {α : Type} {m n : ℕ}
    (h : (⟨2, ![m, n]⟩ : Shape).BroadcastsInDim ⟨3, ![m, 1, n]⟩ ![0, 2])
    (x : (⟨2, ![m, n]⟩ : Shape).Idx → α) (c : Fin m) (z : Fin 1) (j : Fin n) :
    broadcastInDim ⟨3, ![m, 1, n]⟩ ![0, 2] h x (ix3 c z j) = x (ix2 c j) :=
  broadcastInDim_apply _ h x _ (ix2 c j) fun a => by
    match a with
    | ⟨0, _⟩ =>
      show c.val = if m = 1 then 0 else c.val
      split
      · have := c.isLt; omega
      · rfl
    | ⟨1, _⟩ =>
      show j.val = if n = 1 then 0 else j.val
      split
      · have := j.isLt; omega
      · rfl

/-- A [m, 1, n] array laid over b rows reads (c, 0, j) at (c, r, j). -/
theorem bcast012_apply {α : Type} {m b n : ℕ}
    (h : (⟨3, ![m, 1, n]⟩ : Shape).BroadcastsInDim ⟨3, ![m, b, n]⟩ ![0, 1, 2])
    (x : (⟨3, ![m, 1, n]⟩ : Shape).Idx → α) (c : Fin m) (r : Fin b) (j : Fin n) :
    broadcastInDim ⟨3, ![m, b, n]⟩ ![0, 1, 2] h x (ix3 c r j) = x (ix3 c 0 j) :=
  broadcastInDim_apply _ h x _ (ix3 c 0 j) fun a => by
    match a with
    | ⟨0, _⟩ =>
      show c.val = if m = 1 then 0 else c.val
      split
      · have := c.isLt; omega
      · rfl
    | ⟨1, _⟩ => rfl
    | ⟨2, _⟩ =>
      show j.val = if n = 1 then 0 else j.val
      split
      · have := j.isLt; omega
      · rfl

/-- The host's sum over the batch axis of a [12, 1024, N] array from the zero word, at (c, n): the sum over the rows. -/
theorem batchSum_apply {N : ℕ} (hred : (⟨3, ![12, 1024, N]⟩ : Shape).ReducesTo [1] ⟨2, ![12, N]⟩)
    (hS : 0 < S_.numel) (A : FVec Ideal ⟨3, ![12, 1024, N]⟩ .f32) (c : Fin 12) (n : Fin N) :
    Host.reduceAdd A (constant (F := Ideal) S_ .f32 0x00000000#32) hred hS (ix2 c n)
      = ∑ b : Fin 1024, A (ix3 c b n) := by
  have hR : (⟨3, ![12, 1024, N]⟩ : Shape).Reduces [1] ⟨2, ![12, N]⟩ := by
    obtain ⟨h1, h2⟩ := hred
    exact ⟨h1, Nat.zero_lt_two, h2⟩
  rw [hostReduceAdd_apply, Ideal.hostReduceAdd_single hred hR, constant_apply, Ideal.ofBits_zero_f32, zero_add]
  refine Finset.sum_congr rfl fun b _ => congrArg A ?_
  -- the source index over (c, n) with b on the dropped axis is (c, b, n)
  funext ax
  apply Fin.ext
  match ax with
  | ⟨0, _⟩ => rfl
  | ⟨1, _⟩ => rfl
  | ⟨2, _⟩ => rfl

/-- The host's square root at an index. -/
theorem hostSqrt_apply {s : Shape} (a : FVec Ideal s .f32) (i : s.Idx) : Host.sqrt a i = Ideal.sqrt (a i) := rfl

/-! ### The variance function's corner: the count it divides by, and its guard -/

variable [Facts]
open Facts₀ Facts

/-- 1024 minus the converted integer 0 is the batch-size word itself. -/
theorem dofCount_apply (i : S_.Idx) : Stages.dofCount i = nbE := by
  unfold Stages.dofCount
  rw [subf_apply, constant_apply, sitofp_apply, constantI_apply]
  show nbE - (((0#32 : BitVec 32).toInt : ℝ) : EReal) = nbE
  rw [show (0#32 : BitVec 32).toInt = 0 by decide]
  simp

/-- The guard "the count is above zero" holds: 1024 > 0. -/
theorem dofGuard_apply (i : S_.Idx) :
    cmpf .ogt Stages.dofCount (constant (F := Ideal) S_ .f32 0x00000000#32) i = 1#1 := by
  rw [cmpf_apply, dofCount_apply, constant_apply, Ideal.ofBits_zero_f32, Ideal.cmpf_def]
  have hpos : (0 : EReal) < nbE := by rw [nbE_eq]; exact_mod_cast (by norm_num : (0 : ℝ) < 1024)
  simp [Ideal.cmp, hpos]

/-! ### Normalisation at 1000 features -/

/-- The mean of feature n of class c: the sum over the batch divided by the batch-size word. -/
theorem mean1000_apply (h : FVec Ideal S12x1024x1000 .f32) (c : Fin 12) (z : Fin 1) (n : Fin 1000) :
    Stages.mean1000 h (ix3 c z n) = Ideal.div (∑ b : Fin 1024, h (ix3 c b n)) nbE := by
  unfold Stages.mean1000
  rw [hostDivf_apply, bcast02_apply, batchSum_apply, broadcastInDim_scalar_apply, constant_apply]

/-- The centred entry: the entry minus its feature's mean. -/
theorem centred1000_apply (h : FVec Ideal S12x1024x1000 .f32) (c : Fin 12) (b : Fin 1024) (n : Fin 1000) :
    Stages.centred1000 h (ix3 c b n)
      = h (ix3 c b n) - Ideal.div (∑ b' : Fin 1024, h (ix3 c b' n)) nbE := by
  unfold Stages.centred1000
  rw [subf_apply, bcast012_apply, mean1000_apply]

/-- The variance of feature n of class c: the guard holds, so it is the sum of squared centred entries over the
    batch divided by the batch-size word. -/
theorem var1000_apply (h : FVec Ideal S12x1024x1000 .f32) (c : Fin 12) (z : Fin 1) (n : Fin 1000) :
    Stages.var1000 h (ix3 c z n)
      = Ideal.div (∑ b : Fin 1024, (h (ix3 c b n) - Ideal.div (∑ b' : Fin 1024, h (ix3 c b' n)) nbE)
          * (h (ix3 c b n) - Ideal.div (∑ b' : Fin 1024, h (ix3 c b' n)) nbE)) nbE := by
  unfold Stages.var1000
  rw [select_apply, broadcastInDim_scalar_apply, dofGuard_apply, select_one, hostDivf_apply, bcast02_apply,
    batchSum_apply, broadcastInDim_scalar_apply, dofCount_apply]
  simp only [mulf_apply, centred1000_apply]

/-- The normalised, scaled, shifted and clamped entry, in the reference's own form. -/
theorem normRelu1000_apply (h : FVec Ideal S12x1024x1000 .f32) (g β : FVec Ideal S12x1000 .f32) (c : Fin 12)
    (b : Fin 1024) (n : Fin 1000) :
    Stages.normRelu1000 h g β (ix3 c b n)
      = max ((Ideal.div (h (ix3 c b n) - Stages.mean1000 h (ix3 c 0 n))
            (Ideal.sqrt (Stages.var1000 h (ix3 c 0 n) + epsE)) * g (ix2 c n)) + β (ix2 c n)) 0 := by
  unfold Stages.normRelu1000
  rw [maximumf_apply, addf_apply, mulf_apply, hostDivf_apply, centred1000_apply, ← mean1000_apply h c 0 n,
    bcast012_apply, hostSqrt_apply, addf_apply, broadcastInDim_scalar_apply, constant_apply,
    bcast012_apply, bcast02_apply, bcast012_apply, bcast02_apply, broadcastInDim_scalar_apply, constant_apply,
    Ideal.ofBits_zero_f32]

/-- On real data the normalisation at 1000 features is the real network's. -/
theorem normRelu1000_real (h : FVec Ideal S12x1024x1000 .f32) (g β : FVec Ideal S12x1000 .f32)
    (hr : Fin 12 → Fin 1024 → Fin 1000 → ℝ) (hh : ∀ c b n, h (ix3 c b n) = ((hr c b n : ℝ) : EReal))
    (hg : IsReal g) (hβ : IsReal β) (c : Fin 12) (b : Fin 1024) (n : Fin 1000) :
    Stages.normRelu1000 h g β (ix3 c b n) = ((normRelu (hr c) (re2 g c) (re2 β c) b n : ℝ) : EReal) := by
  rw [normRelu1000_apply, re2_coe hg, re2_coe hβ, hh]
  refine refNorm_coe (hr c) (re2 g c) (re2 β c) b n _ _ ?_ ?_
  · rw [mean1000_apply]; simp only [hh]
  · rw [var1000_apply, mean1000_apply]; simp only [hh]

/-! ### Normalisation at 500 features (the same stages at the second layer's width) -/

/-- The mean of feature n of class c: the sum over the batch divided by the batch-size word. -/
theorem mean500_apply (h : FVec Ideal S12x1024x500 .f32) (c : Fin 12) (z : Fin 1) (n : Fin 500) :
    Stages.mean500 h (ix3 c z n) = Ideal.div (∑ b : Fin 1024, h (ix3 c b n)) nbE := by
  unfold Stages.mean500
  rw [hostDivf_apply, bcast02_apply, batchSum_apply, broadcastInDim_scalar_apply, constant_apply]

/-- The centred entry: the entry minus its feature's mean. -/
theorem centred500_apply (h : FVec Ideal S12x1024x500 .f32) (c : Fin 12) (b : Fin 1024) (n : Fin 500) :
    Stages.centred500 h (ix3 c b n)
      = h (ix3 c b n) - Ideal.div (∑ b' : Fin 1024, h (ix3 c b' n)) nbE := by
  unfold Stages.centred500
  rw [subf_apply, bcast012_apply, mean500_apply]

/-- The variance of feature n of class c: the guard holds, so it is the sum of squared centred entries over the
    batch divided by the batch-size word. -/
theorem var500_apply (h : FVec Ideal S12x1024x500 .f32) (c : Fin 12) (z : Fin 1) (n : Fin 500) :
    Stages.var500 h (ix3 c z n)
      = Ideal.div (∑ b : Fin 1024, (h (ix3 c b n) - Ideal.div (∑ b' : Fin 1024, h (ix3 c b' n)) nbE)
          * (h (ix3 c b n) - Ideal.div (∑ b' : Fin 1024, h (ix3 c b' n)) nbE)) nbE := by
  unfold Stages.var500
  rw [select_apply, broadcastInDim_scalar_apply, dofGuard_apply, select_one, hostDivf_apply, bcast02_apply,
    batchSum_apply, broadcastInDim_scalar_apply, dofCount_apply]
  simp only [mulf_apply, centred500_apply]

/-- The normalised, scaled, shifted and clamped entry, in the reference's own form. -/
theorem normRelu500_apply (h : FVec Ideal S12x1024x500 .f32) (g β : FVec Ideal S12x500 .f32) (c : Fin 12)
    (b : Fin 1024) (n : Fin 500) :
    Stages.normRelu500 h g β (ix3 c b n)
      = max ((Ideal.div (h (ix3 c b n) - Stages.mean500 h (ix3 c 0 n))
            (Ideal.sqrt (Stages.var500 h (ix3 c 0 n) + epsE)) * g (ix2 c n)) + β (ix2 c n)) 0 := by
  unfold Stages.normRelu500
  rw [maximumf_apply, addf_apply, mulf_apply, hostDivf_apply, centred500_apply, ← mean500_apply h c 0 n,
    bcast012_apply, hostSqrt_apply, addf_apply, broadcastInDim_scalar_apply, constant_apply,
    bcast012_apply, bcast02_apply, bcast012_apply, bcast02_apply, broadcastInDim_scalar_apply, constant_apply,
    Ideal.ofBits_zero_f32]

/-- On real data the normalisation at 500 features is the real network's. -/
theorem normRelu500_real (h : FVec Ideal S12x1024x500 .f32) (g β : FVec Ideal S12x500 .f32)
    (hr : Fin 12 → Fin 1024 → Fin 500 → ℝ) (hh : ∀ c b n, h (ix3 c b n) = ((hr c b n : ℝ) : EReal))
    (hg : IsReal g) (hβ : IsReal β) (c : Fin 12) (b : Fin 1024) (n : Fin 500) :
    Stages.normRelu500 h g β (ix3 c b n) = ((normRelu (hr c) (re2 g c) (re2 β c) b n : ℝ) : EReal) := by
  rw [normRelu500_apply, re2_coe hg, re2_coe hβ, hh]
  refine refNorm_coe (hr c) (re2 g c) (re2 β c) b n _ _ ?_ ?_
  · rw [mean500_apply]; simp only [hh]
  · rw [var500_apply, mean500_apply]; simp only [hh]

end Cert.ReferenceIdeal.RefValue

end
-- ==== Proof.RefValue.lean ====
/- The reference's head, read entry by entry, is the real network.

   Each stage of RefStages is read at an index: the dense layers as sums over the contracted axis (RefValueA), the
   means and variances as sums over the batch axis divided by the batch size, the broadcasts and the transposition as
   re-indexings (RefValueB); on real data each sum of products is a coerced real sum and the reference's normalisation
   is HeadNet.refNorm_coe's form, so stage by stage the entries are the real network's, coerced. -/
import proofs.«424157_j48696339202298_3_alg».proof.Proof.RefStages
import proofs.«424157_j48696339202298_3_alg».proof.Proof.Spec
import proofs.«424157_j48696339202298_3_alg».proof.Proof.RefValueA
import proofs.«424157_j48696339202298_3_alg».proof.Proof.RefValueB
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.HeadNet Cert.Spec Cert.ReferenceIdeal

variable [Facts]
open Facts₀ Facts

/-! ### Sums of products of real entries -/

/-- A sum of products of coerced reals is the coerced sum of the products. -/
theorem sum_mul_coe {K : ℕ} (f g : Fin K → ℝ) :
    (∑ k, ((f k : ℝ) : EReal) * ((g k : ℝ) : EReal)) = ((∑ k, f k * g k : ℝ) : EReal) := by
  simp only [← EReal.coe_mul]
  exact sum_coe _ _

/-! ### The dense layers on real data -/

/-- The first layer at (c, b, n) is the real dense layer of x against class c's weights. -/
theorem layer1_real (x : FVec Ideal S1024x2048 .f32) (W1 : FVec Ideal S12x1000x2048 .f32) (hx : IsReal x)
    (hW1 : IsReal W1) (c : Fin 12) (b : Fin 1024) (n : Fin 1000) :
    Stages.layer1 W1 x (ix3 c b n) = ((dense (re2 x) (re3 W1 c) b n : ℝ) : EReal) := by
  rw [layer1_apply]
  simp only [re3_coe hW1, re2_coe hx]
  rw [sum_mul_coe, dense]
  -- the reference multiplies weight by activation, the network activation by weight
  exact congrArg _ (Finset.sum_congr rfl fun k _ => mul_comm _ _)

/-- The second layer at (c, b, n), on activations whose entries are real, is the real dense layer. -/
theorem layer2_real (a : FVec Ideal S12x1024x1000 .f32) (W2 : FVec Ideal S12x500x1000 .f32)
    (ar : Fin 12 → Fin 1024 → Fin 1000 → ℝ) (ha : ∀ c b k, a (ix3 c b k) = ((ar c b k : ℝ) : EReal))
    (hW2 : IsReal W2) (c : Fin 12) (b : Fin 1024) (n : Fin 500) :
    Stages.layer2 a W2 (ix3 c b n) = ((dense (ar c) (re3 W2 c) b n : ℝ) : EReal) := by
  rw [layer2_apply]
  simp only [ha, re3_coe hW2]
  rw [sum_mul_coe, dense]

/-! ### The two hidden layers -/

/-- The hidden layers at (c, b, k) are the real network's features of class c. -/
theorem hidden_real (x : FVec Ideal S1024x2048 .f32) (W1 : FVec Ideal S12x1000x2048 .f32)
    (G1 B1 : FVec Ideal S12x1000 .f32) (W2 : FVec Ideal S12x500x1000 .f32) (G2 B2 : FVec Ideal S12x500 .f32)
    (hx : IsReal x) (hW1 : IsReal W1) (hG1 : IsReal G1) (hB1 : IsReal B1) (hW2 : IsReal W2) (hG2 : IsReal G2)
    (hB2 : IsReal B2) (c : Fin 12) (b : Fin 1024) (k : Fin 500) :
    Stages.hidden x W1 G1 B1 W2 G2 B2 (ix3 c b k)
      = ((feat (re2 x) (re3 W1 c) (re2 G1 c) (re2 B1 c) (re3 W2 c) (re2 G2 c) (re2 B2 c) b k : ℝ) : EReal) := by
  unfold Stages.hidden
  -- first layer, then its normalisation: real entries
  have h1 : ∀ c b n, Stages.normRelu1000 (Stages.layer1 W1 x) G1 B1 (ix3 c b n)
      = ((normRelu (dense (re2 x) (re3 W1 c)) (re2 G1 c) (re2 B1 c) b n : ℝ) : EReal) :=
    normRelu1000_real (Stages.layer1 W1 x) G1 B1 (fun c => dense (re2 x) (re3 W1 c))
      (layer1_real x W1 hx hW1) hG1 hB1
  -- second layer on those
  have h2 : ∀ c b n, Stages.layer2 (Stages.normRelu1000 (Stages.layer1 W1 x) G1 B1) W2 (ix3 c b n)
      = ((dense (normRelu (dense (re2 x) (re3 W1 c)) (re2 G1 c) (re2 B1 c)) (re3 W2 c) b n : ℝ) : EReal) :=
    layer2_real _ W2 (fun c => normRelu (dense (re2 x) (re3 W1 c)) (re2 G1 c) (re2 B1 c)) h1 hW2
  -- and its normalisation: the features
  exact normRelu500_real _ G2 B2
    (fun c => dense (normRelu (dense (re2 x) (re3 W1 c)) (re2 G1 c) (re2 B1 c)) (re3 W2 c)) h2 hG2 hB2 c b k

/-! ### The last layer -/

/-- The last layer with 100 outputs at (c, b, j): the product plus the bias of class c's output j. -/
theorem last100_apply (a : FVec Ideal S12x1024x500 .f32) (W : FVec Ideal S12x100x500 .f32)
    (bias : FVec Ideal S12x100 .f32) (c : Fin 12) (b : Fin 1024) (j : Fin 100) :
    Stages.last100 a W bias (ix3 c b j) = (∑ k : Fin 500, a (ix3 c b k) * W (ix3 c j k)) + bias (ix2 c j) := by
  unfold Stages.last100
  rw [addf_apply, dot100_apply, bcast012_apply, bcast02_apply]

/-- The last layer with 3 outputs at (c, b, j). -/
theorem last3_apply (a : FVec Ideal S12x1024x500 .f32) (W : FVec Ideal S12x3x500 .f32)
    (bias : FVec Ideal S12x3 .f32) (c : Fin 12) (b : Fin 1024) (j : Fin 3) :
    Stages.last3 a W bias (ix3 c b j) = (∑ k : Fin 500, a (ix3 c b k) * W (ix3 c j k)) + bias (ix2 c j) := by
  unfold Stages.last3
  rw [addf_apply, dot3_apply, bcast012_apply, bcast02_apply]

/-- A product-plus-bias of real entries is the real network's output. -/
theorem logit_coe (f : Fin 1024 → Fin 500 → ℝ) (wrow : Fin 500 → ℝ) (bias : ℝ) (b : Fin 1024) :
    (∑ k, ((f b k : ℝ) : EReal) * ((wrow k : ℝ) : EReal)) + ((bias : ℝ) : EReal)
      = ((logit f wrow bias b : ℝ) : EReal) := by
  rw [sum_mul_coe, ← EReal.coe_add, logit]

/-! ### The heads -/

theorem head100_eq (x : FVec Ideal S1024x2048 .f32) (W1 : FVec Ideal S12x1000x2048 .f32)
    (G1 B1 : FVec Ideal S12x1000 .f32) (W2 : FVec Ideal S12x500x1000 .f32) (G2 B2 : FVec Ideal S12x500 .f32)
    (W3 : FVec Ideal S12x100x500 .f32) (B3 : FVec Ideal S12x100 .f32)
    (hx : IsReal x) (hW1 : IsReal W1) (hG1 : IsReal G1) (hB1 : IsReal B1) (hW2 : IsReal W2) (hG2 : IsReal G2)
    (hB2 : IsReal B2) (hW3 : IsReal W3) (hB3 : IsReal B3) :
    Stages.head100 x W1 G1 B1 W2 G2 B2 W3 B3 = specY x W1 G1 B1 W2 G2 B2 W3 B3 := by
  refine eq_specY x W1 G1 B1 W2 G2 B2 W3 B3 _ fun c b j => ?_
  unfold Stages.head100
  rw [last100_apply]
  simp only [hidden_real x W1 G1 B1 W2 G2 B2 hx hW1 hG1 hB1 hW2 hG2 hB2, re3_coe hW3, re2_coe hB3]
  exact logit_coe _ _ _ b

theorem head3_eq (x : FVec Ideal S1024x2048 .f32) (W1 : FVec Ideal S12x1000x2048 .f32)
    (G1 B1 : FVec Ideal S12x1000 .f32) (W2 : FVec Ideal S12x500x1000 .f32) (G2 B2 : FVec Ideal S12x500 .f32)
    (W3 : FVec Ideal S12x3x500 .f32) (B3 : FVec Ideal S12x3 .f32)
    (hx : IsReal x) (hW1 : IsReal W1) (hG1 : IsReal G1) (hB1 : IsReal B1) (hW2 : IsReal W2) (hG2 : IsReal G2)
    (hB2 : IsReal B2) (hW3 : IsReal W3) (hB3 : IsReal B3) :
    Stages.head3 x W1 G1 B1 W2 G2 B2 W3 B3 = specY x W1 G1 B1 W2 G2 B2 W3 B3 := by
  refine eq_specY x W1 G1 B1 W2 G2 B2 W3 B3 _ fun c b j => ?_
  unfold Stages.head3
  rw [last3_apply]
  simp only [hidden_real x W1 G1 B1 W2 G2 B2 hx hW1 hG1 hB1 hW2 hG2 hB2, re3_coe hW3, re2_coe hB3]
  exact logit_coe _ _ _ b

end Cert.ReferenceIdeal.RefValue

end
-- ==== Proof.RefHalf.lean ====
/- The reference's half of the certificate: its frame, and its run with both results named as the same functions of the
   arguments as the kernel's. -/
import proofs.«424157_j48696339202298_3_alg».proof.Defs
import proofs.«424157_j48696339202298_3_alg».proof.Proof.Gen.ReferenceIdeal
import proofs.«424157_j48696339202298_3_alg».proof.Proof.Gen.Pre_finite_inputs
import proofs.«424157_j48696339202298_3_alg».proof.Proof.RefRun
import proofs.«424157_j48696339202298_3_alg».proof.Proof.RefOut
import proofs.«424157_j48696339202298_3_alg».proof.Proof.RefValue

set_option maxRecDepth 16384

noncomputable section

namespace Cert.Proof

open Idealize.ShloMosaic Idealize.ShloMosaic.TcCoe Idealize.SL.Sem Cert.Spec
open Cert.ReferenceIdeal Cert.ReferenceIdeal.RefRun Cert.ReferenceIdeal.RefValue

theorem frame_ReferenceIdeal : Cert.frame_ReferenceIdeal := fun m ρ _ =>
  (θ_run Cert.ReferenceIdeal.defs _ _).mono (fun r h c =>
    ⟨(h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _),
     (h c main_arg12).trans (arg12_eq _),
     (h c main_arg13).trans (arg13_eq _),
     (h c main_arg14).trans (arg14_eq _),
     (h c main_arg15).trans (arg15_eq _),
     (h c main_arg16).trans (arg16_eq _),
     (h c main_arg17).trans (arg17_eq _)⟩)
    (run_main m ρ)

variable (m : (ℓ : Loc nD τ sig) → Buf (Elt Ideal) ℓ) (ρ : Dev nD → PrngReg)

theorem ref_run
    (hreal : ∀ c : Dev nD, IsReal (m ((c.tc : Thread nD τ).loc main_arg0))
      ∧ IsReal (m ((c.tc : Thread nD τ).loc main_arg2))
      ∧ IsReal (m ((c.tc : Thread nD τ).loc main_arg3))
      ∧ IsReal (m ((c.tc : Thread nD τ).loc main_arg4))
      ∧ IsReal (m ((c.tc : Thread nD τ).loc main_arg5))
      ∧ IsReal (m ((c.tc : Thread nD τ).loc main_arg6))
      ∧ IsReal (m ((c.tc : Thread nD τ).loc main_arg7))
      ∧ IsReal (m ((c.tc : Thread nD τ).loc main_arg8))
      ∧ IsReal (m ((c.tc : Thread nD τ).loc main_arg9))
      ∧ IsReal (m ((c.tc : Thread nD τ).loc main_arg10))
      ∧ IsReal (m ((c.tc : Thread nD τ).loc main_arg11))
      ∧ IsReal (m ((c.tc : Thread nD τ).loc main_arg12))
      ∧ IsReal (m ((c.tc : Thread nD τ).loc main_arg13))
      ∧ IsReal (m ((c.tc : Thread nD τ).loc main_arg14))
      ∧ IsReal (m ((c.tc : Thread nD τ).loc main_arg15))
      ∧ IsReal (m ((c.tc : Thread nD τ).loc main_arg16))
      ∧ IsReal (m ((c.tc : Thread nD τ).loc main_arg17))) :
    θ_run defs (onTc (τ := τ) (main (F := Ideal))) ⟨m, fun _ => 0, ρ⟩ (fun r => ∀ c : Dev nD,
      r.2.mem ((c.tc : Thread nD τ).loc main_v105)
        = Stages.pick100 (specY (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1))
      ∧ r.2.mem ((c.tc : Thread nD τ).loc main_v119)
        = Stages.pick3 (specY (m ((c.tc : Thread nD τ).loc main_arg0)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    obtain ⟨h0, h2, h3, h4, h5, h6, h7, h8, h9, h10, h11, h12, h13, h14, h15, h16, h17⟩ := hreal c
    refine ⟨?_, ?_, (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _)⟩
    · refine ((h c main_v105).trans (out100 _)).trans ?_
      exact congrArg (fun Y => Stages.pick100 Y _) (head100_eq _ _ _ _ _ _ _ _ _ h0 h2 h3 h4 h5 h6 h7 h8 h9)
    · refine ((h c main_v119).trans (out3 _)).trans ?_
      exact congrArg (fun Y => Stages.pick3 Y _) (head3_eq _ _ _ _ _ _ _ _ _ h0 h10 h11 h12 h13 h14 h15 h16 h17))
    (run_main m ρ)

end Cert.Proof

end
-- ==== Proof.lean ====
/- The certificate: a class-specific pair of three-layer heads with batch normalisation, selected per sample by its
   label — the Pallas kernel (one call per head, one grid point per class, split-operand products, layer 3 padded to 128
   columns) against the batched jnp reference.

   Both programs, on finite inputs, leave the same two arrays: for each head, the real network of HeadNet evaluated at
   the real readings of the arguments, one row per batch element picked by the same label-to-(class, row) pairing and
   gather.  The kernel's side is read off its generated frame's fold through @main (KernelValue), the reference's off
   its run (RefRun, RefOut) and its stages read entry by entry (RefValue); finiteness comes from the precondition
   (Finite). The frames of the two kernel programs are the generated ones; the reference's is its run with the results
   dropped; the idealisation replaced six widen-after-narrow pairs per call by the identity. -/
import proofs.«424157_j48696339202298_3_alg».proof.Defs
import proofs.«424157_j48696339202298_3_alg».proof.Proof.KernelHalf
import proofs.«424157_j48696339202298_3_alg».proof.Proof.RefHalf

set_option maxRecDepth 16384

noncomputable section

namespace Cert.Proof

open Idealize.ShloMosaic Idealize.ShloMosaic.TcCoe Idealize.SL.Sem Cert.Spec

/-- The two selections are one function: the same wrapping of labels and row numbers, the same pairing, the same
    gather, written once per program. -/
theorem pick100_eq (Y : FVec Ideal Cert.KernelIdeal.S12x1024x100 .f32) (lab : IVec Cert.KernelIdeal.S1024x1 32) :
    Cert.ReferenceIdeal.Stages.pick100 Y lab = Cert.KernelIdeal.KernelValue.pick100 Y lab := rfl

theorem pick3_eq (Y : FVec Ideal Cert.KernelIdeal.S12x1024x3 .f32) (lab : IVec Cert.KernelIdeal.S1024x1 32) :
    Cert.ReferenceIdeal.Stages.pick3 Y lab = Cert.KernelIdeal.KernelValue.pick3 Y lab := rfl

theorem algebraic : Cert.algebraic_KernelIdeal_ReferenceIdeal := fun m ρ m' ρ' hpre hagree =>
  ⟨res100 m, res3 m, kernel_run m ρ hpre,
    (θ_run Cert.ReferenceIdeal.defs _ _).mono (fun r h c => by
      obtain ⟨a0, a1, a2, a3, a4, a5, a6, a7, a8, a9, a10, a11, a12, a13, a14, a15, a16, a17⟩ := hagree c
      obtain ⟨e105, e119, rest⟩ := h c
      refine ⟨?_, ?_, rest⟩
      · rw [e105, a0, a1, a2, a3, a4, a5, a6, a7, a8, a9]
        exact pick100_eq _ _
      · rw [e119, a0, a1, a10, a11, a12, a13, a14, a15, a16, a17]
        exact pick3_eq _ _)
    (ref_run m' ρ' (fun c => by
      obtain ⟨a0, a1, a2, a3, a4, a5, a6, a7, a8, a9, a10, a11, a12, a13, a14, a15, a16, a17⟩ := hagree c
      rw [a0, a2, a3, a4, a5, a6, a7, a8, a9, a10, a11, a12, a13, a14, a15, a16, a17]
      exact Cert.Finite.isReal_of_fn _ _ _ _ _ _ _ _ _ _ _ _ _ _ _ _ _ _ (hpre c)))⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
